-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S16x200x8 : Shape := ⟨3, ![16, 200, 8]⟩
abbrev S16x1x256 : Shape := ⟨3, ![16, 1, 256]⟩
abbrev S16x200x200 : Shape := ⟨3, ![16, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 26
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S512x256, .bf16⟩
  | .hbm, ⟨14, _⟩ => ⟨S512x256, .bf16⟩
  | .hbm, ⟨15, _⟩ => ⟨S512x256, .bf16⟩
  | .hbm, ⟨16, _⟩ => ⟨S256x256, .bf16⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S128x1x256, .f32⟩
  | .hbm, ⟨24, _⟩ => ⟨S128x200x200, .f32⟩
  | .hbm, ⟨25, _⟩ => ⟨S128x256, .f32⟩
  | .local _ .vmem, ⟨0, _⟩ => ⟨S16x200x8, .f32⟩
  | .local _ .vmem, ⟨1, _⟩ => ⟨S16x200x8, .f32⟩
  | .local _ .vmem, ⟨2, _⟩ => ⟨S8x256, .f32⟩
  | .local _ .vmem, ⟨3, _⟩ => ⟨S1x256, .f32⟩
  | .local _ .vmem, ⟨4, _⟩ => ⟨S512x256, .bf16⟩
  | .local _ .vmem, ⟨5, _⟩ => ⟨S1x256, .f32⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S16x1x256, .f32⟩
  | .local _ .vmem, ⟨15, _⟩ => ⟨S16x1x256, .f32⟩
  | .local _ .vmem, ⟨16, _⟩ => ⟨S16x200x200, .f32⟩
  | .local _ .vmem, ⟨17, _⟩ => ⟨S16x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S256_S1x256 : S256.ShapeCasts S1x256
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S16x200x8_S1x200x8_0_0_0 : ∀ a, (![0, 0, 0] : Fin 3 → Nat) a + S1x200x8.size a ≤ S16x200x8.size a
  h_S1x200x8 : 0 < S1x200x8.numel
  shapeCasts_S1x200x8_S200x8 : S1x200x8.ShapeCasts S200x8
  broadcasts_S1x256_S200x256 : S1x256.Broadcasts S200x256
  inb_S16x200x8_S1x200x8_1_0_0 : ∀ a, (![1, 0, 0] : Fin 3 → Nat) a + S1x200x8.size a ≤ S16x200x8.size a
  inb_S16x200x8_S1x200x8_2_0_0 : ∀ a, (![2, 0, 0] : Fin 3 → Nat) a + S1x200x8.size a ≤ S16x200x8.size a
  inb_S16x200x8_S1x200x8_3_0_0 : ∀ a, (![3, 0, 0] : Fin 3 → Nat) a + S1x200x8.size a ≤ S16x200x8.size a
  inb_S16x200x8_S1x200x8_4_0_0 : ∀ a, (![4, 0, 0] : Fin 3 → Nat) a + S1x200x8.size a ≤ S16x200x8.size a
  inb_S16x200x8_S1x200x8_5_0_0 : ∀ a, (![5, 0, 0] : Fin 3 → Nat) a + S1x200x8.size a ≤ S16x200x8.size a
  inb_S16x200x8_S1x200x8_6_0_0 : ∀ a, (![6, 0, 0] : Fin 3 → Nat) a + S1x200x8.size a ≤ S16x200x8.size a
  inb_S16x200x8_S1x200x8_7_0_0 : ∀ a, (![7, 0, 0] : Fin 3 → Nat) a + S1x200x8.size a ≤ S16x200x8.size a
  inb_S16x200x8_S1x200x8_8_0_0 : ∀ a, (![8, 0, 0] : Fin 3 → Nat) a + S1x200x8.size a ≤ S16x200x8.size a
  inb_S16x200x8_S1x200x8_9_0_0 : ∀ a, (![9, 0, 0] : Fin 3 → Nat) a + S1x200x8.size a ≤ S16x200x8.size a
  inb_S16x200x8_S1x200x8_10_0_0 : ∀ a, (![10, 0, 0] : Fin 3 → Nat) a + S1x200x8.size a ≤ S16x200x8.size a
  inb_S16x200x8_S1x200x8_11_0_0 : ∀ a, (![11, 0, 0] : Fin 3 → Nat) a + S1x200x8.size a ≤ S16x200x8.size a
  inb_S16x200x8_S1x200x8_12_0_0 : ∀ a, (![12, 0, 0] : Fin 3 → Nat) a + S1x200x8.size a ≤ S16x200x8.size a
  inb_S16x200x8_S1x200x8_13_0_0 : ∀ a, (![13, 0, 0] : Fin 3 → Nat) a + S1x200x8.size a ≤ S16x200x8.size a
  inb_S16x200x8_S1x200x8_14_0_0 : ∀ a, (![14, 0, 0] : Fin 3 → Nat) a + S1x200x8.size a ≤ S16x200x8.size a
  inb_S16x200x8_S1x200x8_15_0_0 : ∀ a, (![15, 0, 0] : Fin 3 → Nat) a + S1x200x8.size a ≤ S16x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S16x1x256_S1x1x256_0_0_0 : ∀ a, (![0, 0, 0] : Fin 3 → Nat) a + S1x1x256.size a ≤ S16x1x256.size a
  h_S1x1x256 : 0 < S1x1x256.numel
  shapeCasts_S1x1x256_S1x256 : S1x1x256.ShapeCasts S1x256
  shapeCasts_S1x256_S1x1x256 : S1x256.ShapeCasts S1x1x256
  inb_S16x200x200_S1x200x200_0_0_0 : ∀ a, (![0, 0, 0] : Fin 3 → Nat) a + S1x200x200.size a ≤ S16x200x200.size a
  h_S1x200x200 : 0 < S1x200x200.numel
  shapeCasts_S1x200x200_S200x200 : S1x200x200.ShapeCasts S200x200
  shapeCasts_S200x200_S1x200x200 : S200x200.ShapeCasts S1x200x200
  inb_S16x1x256_S1x1x256_1_0_0 : ∀ a, (![1, 0, 0] : Fin 3 → Nat) a + S1x1x256.size a ≤ S16x1x256.size a
  inb_S16x200x200_S1x200x200_1_0_0 : ∀ a, (![1, 0, 0] : Fin 3 → Nat) a + S1x200x200.size a ≤ S16x200x200.size a
  inb_S16x1x256_S1x1x256_2_0_0 : ∀ a, (![2, 0, 0] : Fin 3 → Nat) a + S1x1x256.size a ≤ S16x1x256.size a
  inb_S16x200x200_S1x200x200_2_0_0 : ∀ a, (![2, 0, 0] : Fin 3 → Nat) a + S1x200x200.size a ≤ S16x200x200.size a
  inb_S16x1x256_S1x1x256_3_0_0 : ∀ a, (![3, 0, 0] : Fin 3 → Nat) a + S1x1x256.size a ≤ S16x1x256.size a
  inb_S16x200x200_S1x200x200_3_0_0 : ∀ a, (![3, 0, 0] : Fin 3 → Nat) a + S1x200x200.size a ≤ S16x200x200.size a
  inb_S16x1x256_S1x1x256_4_0_0 : ∀ a, (![4, 0, 0] : Fin 3 → Nat) a + S1x1x256.size a ≤ S16x1x256.size a
  inb_S16x200x200_S1x200x200_4_0_0 : ∀ a, (![4, 0, 0] : Fin 3 → Nat) a + S1x200x200.size a ≤ S16x200x200.size a
  inb_S16x1x256_S1x1x256_5_0_0 : ∀ a, (![5, 0, 0] : Fin 3 → Nat) a + S1x1x256.size a ≤ S16x1x256.size a
  inb_S16x200x200_S1x200x200_5_0_0 : ∀ a, (![5, 0, 0] : Fin 3 → Nat) a + S1x200x200.size a ≤ S16x200x200.size a
  inb_S16x1x256_S1x1x256_6_0_0 : ∀ a, (![6, 0, 0] : Fin 3 → Nat) a + S1x1x256.size a ≤ S16x1x256.size a
  inb_S16x200x200_S1x200x200_6_0_0 : ∀ a, (![6, 0, 0] : Fin 3 → Nat) a + S1x200x200.size a ≤ S16x200x200.size a
  inb_S16x1x256_S1x1x256_7_0_0 : ∀ a, (![7, 0, 0] : Fin 3 → Nat) a + S1x1x256.size a ≤ S16x1x256.size a
  inb_S16x200x200_S1x200x200_7_0_0 : ∀ a, (![7, 0, 0] : Fin 3 → Nat) a + S1x200x200.size a ≤ S16x200x200.size a
  inb_S16x1x256_S1x1x256_8_0_0 : ∀ a, (![8, 0, 0] : Fin 3 → Nat) a + S1x1x256.size a ≤ S16x1x256.size a
  inb_S16x200x200_S1x200x200_8_0_0 : ∀ a, (![8, 0, 0] : Fin 3 → Nat) a + S1x200x200.size a ≤ S16x200x200.size a
  inb_S16x1x256_S1x1x256_9_0_0 : ∀ a, (![9, 0, 0] : Fin 3 → Nat) a + S1x1x256.size a ≤ S16x1x256.size a
  inb_S16x200x200_S1x200x200_9_0_0 : ∀ a, (![9, 0, 0] : Fin 3 → Nat) a + S1x200x200.size a ≤ S16x200x200.size a
  inb_S16x1x256_S1x1x256_10_0_0 : ∀ a, (![10, 0, 0] : Fin 3 → Nat) a + S1x1x256.size a ≤ S16x1x256.size a
  inb_S16x200x200_S1x200x200_10_0_0 : ∀ a, (![10, 0, 0] : Fin 3 → Nat) a + S1x200x200.size a ≤ S16x200x200.size a
  inb_S16x1x256_S1x1x256_11_0_0 : ∀ a, (![11, 0, 0] : Fin 3 → Nat) a + S1x1x256.size a ≤ S16x1x256.size a
  inb_S16x200x200_S1x200x200_11_0_0 : ∀ a, (![11, 0, 0] : Fin 3 → Nat) a + S1x200x200.size a ≤ S16x200x200.size a
  inb_S16x1x256_S1x1x256_12_0_0 : ∀ a, (![12, 0, 0] : Fin 3 → Nat) a + S1x1x256.size a ≤ S16x1x256.size a
  inb_S16x200x200_S1x200x200_12_0_0 : ∀ a, (![12, 0, 0] : Fin 3 → Nat) a + S1x200x200.size a ≤ S16x200x200.size a
  inb_S16x1x256_S1x1x256_13_0_0 : ∀ a, (![13, 0, 0] : Fin 3 → Nat) a + S1x1x256.size a ≤ S16x1x256.size a
  inb_S16x200x200_S1x200x200_13_0_0 : ∀ a, (![13, 0, 0] : Fin 3 → Nat) a + S1x200x200.size a ≤ S16x200x200.size a
  inb_S16x1x256_S1x1x256_14_0_0 : ∀ a, (![14, 0, 0] : Fin 3 → Nat) a + S1x1x256.size a ≤ S16x1x256.size a
  inb_S16x200x200_S1x200x200_14_0_0 : ∀ a, (![14, 0, 0] : Fin 3 → Nat) a + S1x200x200.size a ≤ S16x200x200.size a
  inb_S16x1x256_S1x1x256_15_0_0 : ∀ a, (![15, 0, 0] : Fin 3 → Nat) a + S1x1x256.size a ≤ S16x1x256.size a
  inb_S16x200x200_S1x200x200_15_0_0 : ∀ a, (![15, 0, 0] : Fin 3 → Nat) a + S1x200x200.size a ≤ S16x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x200x8.size a ≤ S128x200x8.size a
  hwx0_0 : ∀ i : grid0.Coords, EltTy.bits .f32 = 32 ∨ (Rect.block (s := S128x200x8) S16x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x1x256.size a ≤ S128x1x256.size a
  hwx0_13 : ∀ i : grid0.Coords, EltTy.bits .f32 = 32 ∨ (Rect.block (s := S128x1x256) S16x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x200x200.size a ≤ S128x200x200.size a
  hwx0_14 : ∀ i : grid0.Coords, EltTy.bits .f32 = 32 ∨ (Rect.block (s := S128x200x200) S16x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S16x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10_0) S16x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v10_1) S16x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.JetV.lean ====
/-
  One jet's message-passing chain as the kernel body computes it, written once over vectors.

  The body treats its sixteen jets alike: jet `j` reads its own `[1, 200, 8]` slab of node features and the shared
  weights, embeds the nodes (`embV`), runs three rounds of soft-adjacency message passing (`layerV`: the
  attention `attV` is `exp L · (1 / Σ exp L)` of the scaled Gram matrix `L = h hᵀ / 16`, the message is
  `A h`, and the update multiplies `h` and the message by the top and bottom halves of the `[512, 256]` weight),
  and reads out (`readV`: the node sum of `tanh (h W₁ + b₁)`, times `W₂`, plus `200 · b₂`). A jet stores
  `jetOutV` (its `[1, 1, 256]` readout) and `jetAV` (the third round's `[1, 200, 200]` attention). Everything
  here is generic in the float instance; the values at the extended reals are read in another module.
-/
import proofs.«121721_g85813446574462_cont_9to1c4b_288_20_alg».proof.Proof.Gen.KernelIdeal

noncomputable section

namespace Cert.KernelIdeal.JetV

open Idealize.ShloMosaic Cert.KernelIdeal Cert.KernelIdeal.Facts₀

variable {F : FTy → Type} [FloatOps F]

/-- The embedding `tanh (x W + b)` of one jet's nodes. -/
def embV (W : Vec F S8x256 .f32) (b : FVec F S1x256 .f32) (x : Vec F S1x200x8 .f32) : FVec F S200x256 .bf16 :=
  truncf .bf16 (tanh (addf
    (matmul dot_S200x8_S8x256_S200x256_1_0_0_1_n_n none (shapeCast S200x8 x shapeCasts_S1x200x8_S200x8) W
      (constant S200x256 .f32 0x00000000#32))
    (broadcastTo S200x256 b broadcasts_S1x256_S200x256))) bitsLt_bf16_f32

/-- `exp (h hᵀ · 1/16)`: the unnormalised attention weights. -/
def expLogitsV (h : FVec F S200x256 .bf16) : FVec F S200x200 .f32 :=
  exp (mulf (matmul dot_S200x256_S200x256_S200x200_1_1_0_0_n_n none h h (constant S200x200 .f32 0x00000000#32))
    (broadcast S200x200 (Scalar.ofBits .f32 0x3D800000#32)))

/-- The reciprocal of each row's sum, as a column. -/
def rcpV (p : FVec F S200x200 .f32) : FVec F S200x1 .f32 :=
  divf (broadcast S200x1 (Scalar.ofBits .f32 0x3F800000#32))
    (shapeCast S200x1 (multiReduction .add [1] S200 p 0x00000000#32 reduces_S200x200_S200 (.inl rfl) rfl) shapeCasts_S200_S200x1)

/-- A row-normalised attention matrix from unnormalised weights. -/
def normV (p : FVec F S200x200 .f32) : FVec F S200x200 .f32 :=
  mulf p (broadcastTo S200x200 (rcpV p) broadcasts_S200x1_S200x200)

/-- The attention matrix of hidden states `h`. -/
def attV (h : FVec F S200x256 .bf16) : FVec F S200x200 .f32 := normV (expLogitsV h)

/-- The message `A h`. -/
def msgV (h : FVec F S200x256 .bf16) (a : FVec F S200x200 .f32) : FVec F S200x256 .f32 :=
  matmul dot_S200x200_S200x256_S200x256_1_0_0_1_n_n none (truncf .bf16 a bitsLt_bf16_f32) h (constant S200x256 .f32 0x00000000#32)

/-- The vertex update `tanh (h W[:256] + g W[256:] + b)`. -/
def updV (W : FVec F S512x256 .bf16) (b : FVec F S1x256 .f32) (h : FVec F S200x256 .bf16) (g : FVec F S200x256 .f32) :
    FVec F S200x256 .bf16 :=
  truncf .bf16 (tanh (addf (addf
    (matmul dot_S200x256_S256x256_S200x256_1_0_0_1_n_n none h
      (extractStridedSlice S256x256 ![0, 0] W slices_S512x256_o0_0_S256x256) (constant S200x256 .f32 0x00000000#32))
    (matmul dot_S200x256_S256x256_S200x256_1_0_0_1_n_n none (truncf .bf16 g bitsLt_bf16_f32)
      (extractStridedSlice S256x256 ![256, 0] W slices_S512x256_o256_0_S256x256) (constant S200x256 .f32 0x00000000#32)))
    (broadcastTo S200x256 b broadcasts_S1x256_S200x256))) bitsLt_bf16_f32

/-- One round of message passing. -/
def layerV (W : FVec F S512x256 .bf16) (b : FVec F S1x256 .f32) (h : FVec F S200x256 .bf16) : FVec F S200x256 .bf16 :=
  updV W b h (msgV h (attV h))

/-- The readout: the node sum of `tanh (h W₁ + b₁)`, times `W₂`, plus `200 · b₂`. -/
def readV (W1 : FVec F S256x256 .bf16) (b1 : FVec F S1x256 .f32) (W2 : Vec F S256x256 .f32) (b2 : FVec F S1x256 .f32)
    (h : FVec F S200x256 .bf16) : FVec F S1x1x256 .f32 :=
  shapeCast S1x1x256 (addf
    (matmul dot_S1x256_S256x256_S1x256_1_0_0_1_n_n none
      (shapeCast S1x256 (multiReduction .add [0] S256
        (tanh (addf (matmul dot_S200x256_S256x256_S200x256_1_0_0_1_n_n none h W1 (constant S200x256 .f32 0x00000000#32))
          (broadcastTo S200x256 b1 broadcasts_S1x256_S200x256)))
        0x00000000#32 reduces_S200x256_S256 (.inl rfl) rfl) shapeCasts_S256_S1x256)
      W2 (constant S1x256 .f32 0x00000000#32))
    (mulf (broadcast S1x256 (Scalar.ofBits .f32 0x43480000#32)) b2)) shapeCasts_S1x256_S1x1x256

/-- The weights as the body holds them after its loads: the bias rows and the bf16 matrices pass an identity cast. -/
structure Wts (F : FTy → Type) [FloatOps F] where
  Wemb : Vec F S8x256 .f32
  bemb : FVec F S1x256 .f32
  W0 : FVec F S512x256 .bf16
  b0 : FVec F S1x256 .f32
  W1 : FVec F S512x256 .bf16
  b1 : FVec F S1x256 .f32
  W2 : FVec F S512x256 .bf16
  b2 : FVec F S1x256 .f32
  Wr1 : FVec F S256x256 .bf16
  br1 : FVec F S1x256 .f32
  Wr2 : Vec F S256x256 .f32
  br2 : FVec F S1x256 .f32

/-- The hidden states after the embedding and two rounds: what the stored attention is computed from. -/
def h2V (w : Wts F) (x : Vec F S1x200x8 .f32) : FVec F S200x256 .bf16 :=
  layerV w.W1 w.b1 (layerV w.W0 w.b0 (embV w.Wemb w.bemb x))

/-- A jet's stored readout. -/
def jetOutV (w : Wts F) (x : Vec F S1x200x8 .f32) : FVec F S1x1x256 .f32 :=
  readV w.Wr1 w.br1 w.Wr2 w.br2 (layerV w.W2 w.b2 (h2V w x))

/-- A jet's stored attention matrix: the third round's. -/
def jetAV (w : Wts F) (x : Vec F S1x200x8 .f32) : FVec F S1x200x200 .f32 :=
  shapeCast S1x200x200 (attV (h2V w x)) shapeCasts_S200x200_S1x200x200

end Cert.KernelIdeal.JetV

end
-- ==== Proof.Pieces.lean ====
/-
  The two output blocks of one grid point are sixteen stores each, and every store is the same function of its own
  jet: store `j` of the readout block is `jetOutV` of the `j`-th `[1, 200, 8]` slab of the jet block, store `j` of the
  attention block is `jetAV` of the same slab, all over the weights as loaded (`wts`). The body's named
  intermediate values unfold to exactly those compositions, so both equations hold by unfolding.
-/
import proofs.«121721_g85813446574462_cont_9to1c4b_288_20_alg».proof.Proof.Gen.KernelIdeal.Frame
import proofs.«121721_g85813446574462_cont_9to1c4b_288_20_alg».proof.Proof.JetV

set_option maxRecDepth 16384

noncomputable section

namespace Cert.KernelIdeal.Gen

open Idealize.ShloMosaic Cert.KernelIdeal Cert.KernelIdeal.JetV

variable {F : FTy → Type} [FloatOps F]

/-- The weights as the body holds them after its whole-block loads (the bias rows and the bf16 matrices pass an
    identity cast). -/
def wts (x1 : Vec F S8x256 .f32) (x2 : Vec F S1x256 .f32) (x3 : Vec F S512x256 .bf16) (x4 : Vec F S1x256 .f32) (x5 : Vec F S512x256 .bf16) (x6 : Vec F S1x256 .f32) (x7 : Vec F S512x256 .bf16) (x8 : Vec F S1x256 .f32) (x9 : Vec F S256x256 .bf16) (x10 : Vec F S1x256 .f32) (x11 : Vec F S256x256 .f32) (x12 : Vec F S1x256 .f32) : Wts F where
  Wemb := View.ld x1 r0_0
  bemb := shapeCast S1x256 (View.ld x2 r0_1) Facts₀.shapeCasts_S1x256_S1x256
  W0 := shapeCast S512x256 (View.ld x3 r0_2) Facts₀.shapeCasts_S512x256_S512x256
  b0 := shapeCast S1x256 (View.ld x4 r0_1) Facts₀.shapeCasts_S1x256_S1x256
  W1 := shapeCast S512x256 (View.ld x5 r0_2) Facts₀.shapeCasts_S512x256_S512x256
  b1 := shapeCast S1x256 (View.ld x6 r0_1) Facts₀.shapeCasts_S1x256_S1x256
  W2 := shapeCast S512x256 (View.ld x7 r0_2) Facts₀.shapeCasts_S512x256_S512x256
  b2 := shapeCast S1x256 (View.ld x8 r0_1) Facts₀.shapeCasts_S1x256_S1x256
  Wr1 := shapeCast S256x256 (View.ld x9 r0_3) Facts₀.shapeCasts_S256x256_S256x256
  br1 := shapeCast S1x256 (View.ld x10 r0_1) Facts₀.shapeCasts_S1x256_S1x256
  Wr2 := View.ld x11 r0_3
  br2 := shapeCast S1x256 (View.ld x12 r0_1) Facts₀.shapeCasts_S1x256_S1x256

/-- The readout block: store `j` is `jetOutV` of slab `j` (the list is last store first, as the block is read back). -/
theorem out0_13_eq (x0 : Vec F S16x200x8 .f32) (x1 : Vec F S8x256 .f32) (x2 : Vec F S1x256 .f32) (x3 : Vec F S512x256 .bf16) (x4 : Vec F S1x256 .f32) (x5 : Vec F S512x256 .bf16) (x6 : Vec F S1x256 .f32) (x7 : Vec F S512x256 .bf16) (x8 : Vec F S1x256 .f32) (x9 : Vec F S256x256 .bf16) (x10 : Vec F S1x256 .f32) (x11 : Vec F S256x256 .f32) (x12 : Vec F S1x256 .f32) :
    out0_13 x0 x1 x2 x3 x4 x5 x6 x7 x8 x9 x10 x11 x12 = View.canon
      [⟨r0_50, jetOutV (wts x1 x2 x3 x4 x5 x6 x7 x8 x9 x10 x11 x12) (View.ld x0 r0_19)⟩, ⟨r0_48, jetOutV (wts x1 x2 x3 x4 x5 x6 x7 x8 x9 x10 x11 x12) (View.ld x0 r0_18)⟩,
       ⟨r0_46, jetOutV (wts x1 x2 x3 x4 x5 x6 x7 x8 x9 x10 x11 x12) (View.ld x0 r0_17)⟩, ⟨r0_44, jetOutV (wts x1 x2 x3 x4 x5 x6 x7 x8 x9 x10 x11 x12) (View.ld x0 r0_16)⟩,
       ⟨r0_42, jetOutV (wts x1 x2 x3 x4 x5 x6 x7 x8 x9 x10 x11 x12) (View.ld x0 r0_15)⟩, ⟨r0_40, jetOutV (wts x1 x2 x3 x4 x5 x6 x7 x8 x9 x10 x11 x12) (View.ld x0 r0_14)⟩,
       ⟨r0_38, jetOutV (wts x1 x2 x3 x4 x5 x6 x7 x8 x9 x10 x11 x12) (View.ld x0 r0_13)⟩, ⟨r0_36, jetOutV (wts x1 x2 x3 x4 x5 x6 x7 x8 x9 x10 x11 x12) (View.ld x0 r0_12)⟩,
       ⟨r0_34, jetOutV (wts x1 x2 x3 x4 x5 x6 x7 x8 x9 x10 x11 x12) (View.ld x0 r0_11)⟩, ⟨r0_32, jetOutV (wts x1 x2 x3 x4 x5 x6 x7 x8 x9 x10 x11 x12) (View.ld x0 r0_10)⟩,
       ⟨r0_30, jetOutV (wts x1 x2 x3 x4 x5 x6 x7 x8 x9 x10 x11 x12) (View.ld x0 r0_9)⟩, ⟨r0_28, jetOutV (wts x1 x2 x3 x4 x5 x6 x7 x8 x9 x10 x11 x12) (View.ld x0 r0_8)⟩,
       ⟨r0_26, jetOutV (wts x1 x2 x3 x4 x5 x6 x7 x8 x9 x10 x11 x12) (View.ld x0 r0_7)⟩, ⟨r0_24, jetOutV (wts x1 x2 x3 x4 x5 x6 x7 x8 x9 x10 x11 x12) (View.ld x0 r0_6)⟩,
       ⟨r0_22, jetOutV (wts x1 x2 x3 x4 x5 x6 x7 x8 x9 x10 x11 x12) (View.ld x0 r0_5)⟩, ⟨r0_20, jetOutV (wts x1 x2 x3 x4 x5 x6 x7 x8 x9 x10 x11 x12) (View.ld x0 r0_4)⟩] := by
  rfl

/-- The attention block: store `j` is `jetAV` of slab `j`. -/
theorem out0_14_eq (x0 : Vec F S16x200x8 .f32) (x1 : Vec F S8x256 .f32) (x2 : Vec F S1x256 .f32) (x3 : Vec F S512x256 .bf16) (x4 : Vec F S1x256 .f32) (x5 : Vec F S512x256 .bf16) (x6 : Vec F S1x256 .f32) (x7 : Vec F S512x256 .bf16) (x8 : Vec F S1x256 .f32) (x9 : Vec F S256x256 .bf16) (x10 : Vec F S1x256 .f32) (x11 : Vec F S256x256 .f32) (x12 : Vec F S1x256 .f32) :
    out0_14 x0 x1 x2 x3 x4 x5 x6 x7 x8 x9 x10 x11 x12 = View.canon
      [⟨r0_51, jetAV (wts x1 x2 x3 x4 x5 x6 x7 x8 x9 x10 x11 x12) (View.ld x0 r0_19)⟩, ⟨r0_49, jetAV (wts x1 x2 x3 x4 x5 x6 x7 x8 x9 x10 x11 x12) (View.ld x0 r0_18)⟩,
       ⟨r0_47, jetAV (wts x1 x2 x3 x4 x5 x6 x7 x8 x9 x10 x11 x12) (View.ld x0 r0_17)⟩, ⟨r0_45, jetAV (wts x1 x2 x3 x4 x5 x6 x7 x8 x9 x10 x11 x12) (View.ld x0 r0_16)⟩,
       ⟨r0_43, jetAV (wts x1 x2 x3 x4 x5 x6 x7 x8 x9 x10 x11 x12) (View.ld x0 r0_15)⟩, ⟨r0_41, jetAV (wts x1 x2 x3 x4 x5 x6 x7 x8 x9 x10 x11 x12) (View.ld x0 r0_14)⟩,
       ⟨r0_39, jetAV (wts x1 x2 x3 x4 x5 x6 x7 x8 x9 x10 x11 x12) (View.ld x0 r0_13)⟩, ⟨r0_37, jetAV (wts x1 x2 x3 x4 x5 x6 x7 x8 x9 x10 x11 x12) (View.ld x0 r0_12)⟩,
       ⟨r0_35, jetAV (wts x1 x2 x3 x4 x5 x6 x7 x8 x9 x10 x11 x12) (View.ld x0 r0_11)⟩, ⟨r0_33, jetAV (wts x1 x2 x3 x4 x5 x6 x7 x8 x9 x10 x11 x12) (View.ld x0 r0_10)⟩,
       ⟨r0_31, jetAV (wts x1 x2 x3 x4 x5 x6 x7 x8 x9 x10 x11 x12) (View.ld x0 r0_9)⟩, ⟨r0_29, jetAV (wts x1 x2 x3 x4 x5 x6 x7 x8 x9 x10 x11 x12) (View.ld x0 r0_8)⟩,
       ⟨r0_27, jetAV (wts x1 x2 x3 x4 x5 x6 x7 x8 x9 x10 x11 x12) (View.ld x0 r0_7)⟩, ⟨r0_25, jetAV (wts x1 x2 x3 x4 x5 x6 x7 x8 x9 x10 x11 x12) (View.ld x0 r0_6)⟩,
       ⟨r0_23, jetAV (wts x1 x2 x3 x4 x5 x6 x7 x8 x9 x10 x11 x12) (View.ld x0 r0_5)⟩, ⟨r0_21, jetAV (wts x1 x2 x3 x4 x5 x6 x7 x8 x9 x10 x11 x12) (View.ld x0 r0_4)⟩] := by
  rfl

end Cert.KernelIdeal.Gen

end
-- ==== Proof.Spec.lean ====
/-
  The network of one jet as plain functions over the extended reals.

  A jet has 200 nodes with 8 features each. `emb` embeds them into 256 hidden features; a round of message passing
  forms the scaled Gram matrix `logits h = h hᵀ · (1/16)`, a row-stochastic attention matrix from it, the message
  `msg A h = A h`, and the update `tanh ([h, A h] W + b)`; the readout sums `fc₂ (tanh (fc₁ h))` over the nodes.

  The two programs spell three of these steps differently, so each of the three has two forms here:
  * the attention is `exp L · (1 / Σ exp L)` in the kernel (`attK`) and `exp (L − max) / Σ exp (L − max)` in the
    reference (`attR`);
  * the update multiplies `h` and the message by the two halves of `W` and adds (`updK`), or multiplies their
    concatenation by `W` (`updR`);
  * the readout sums over the nodes before the second layer and adds `200 · b₂` (`readK`), or applies the second
    layer with its bias to every node and sums after (`readR`).
  The float literals stay as the words the programs print; their values are read where a law needs them.
-/
import Idealize.ShloMosaic.PureOps.Ideal

noncomputable section

namespace Cert.Mpnn

open Idealize.ShloMosaic
open scoped BigOperators

/-- An `a × b` array of extended reals. -/
abbrev Mat (a b : ℕ) := Fin a → Fin b → EReal
/-- A row of `a` extended reals. -/
abbrev Row (a : ℕ) := Fin a → EReal

/-- The scale `1/16 = 1/√256`, as printed. -/
def cScale : EReal := Ideal.ofBits .f32 0x3D800000#32
/-- `1.0`, as printed. -/
def cOne : EReal := Ideal.ofBits .f32 0x3F800000#32
/-- `0.0`, as printed. -/
def cZero : EReal := Ideal.ofBits .f32 0x00000000#32
/-- `200.0`, the number of nodes, as printed. -/
def cNodes : EReal := Ideal.ofBits .f32 0x43480000#32
/-- `-inf`, the initial value of a row maximum, as printed. -/
def cNegInf : EReal := Ideal.ofBits .f32 0xFF800000#32

/-- The embedding `tanh (x W + b)`. -/
def emb (x : Mat 200 8) (W : Mat 8 256) (b : Row 256) : Mat 200 256 :=
  fun n d => Ideal.tanh ((∑ f : Fin 8, x n f * W f d) + b d)

/-- The scaled Gram matrix `h hᵀ · (1/16)`. -/
def logits (h : Mat 200 256) : Mat 200 200 :=
  fun n m => (∑ d : Fin 256, h n d * h m d) * cScale

/-- The kernel's attention: `exp L` times the reciprocal of its row sum. -/
def attK (L : Mat 200 200) : Mat 200 200 :=
  fun n m => Ideal.exp (L n m) * Ideal.div cOne (∑ k : Fin 200, Ideal.exp (L n k))

/-- A row's maximum as the reference takes it: the larger of `-inf` and the fold of `max` from `-inf`. -/
def rowMax (L : Mat 200 200) (n : Fin 200) : EReal :=
  max cNegInf ((Finset.univ : Finset (Fin 200)).fold max cNegInf (L n))

/-- The reference's attention: the softmax with the row maximum subtracted. -/
def attR (L : Mat 200 200) : Mat 200 200 :=
  fun n m => Ideal.div (Ideal.exp (L n m - rowMax L n)) (cZero + ∑ k : Fin 200, Ideal.exp (L n k - rowMax L n))

/-- The message `A h`. -/
def msg (A : Mat 200 200) (h : Mat 200 256) : Mat 200 256 :=
  fun n d => ∑ m : Fin 200, A n m * h m d

/-- The kernel's update: `h` times the top half of `W` plus the message times the bottom half, plus the bias. -/
def updK (h g : Mat 200 256) (W : Mat 512 256) (b : Row 256) : Mat 200 256 :=
  fun n j => Ideal.tanh (((∑ k : Fin 256, h n k * W ⟨k.val, by omega⟩ j)
    + (∑ k : Fin 256, g n k * W ⟨256 + k.val, by omega⟩ j)) + b j)

/-- `h` and the message side by side. -/
def cat (h g : Mat 200 256) : Mat 200 512 :=
  fun n k => if hk : k.val < 256 then h n ⟨k.val, hk⟩ else g n ⟨k.val - 256, by omega⟩

/-- The reference's update: the concatenation times `W`, plus the bias. -/
def updR (h g : Mat 200 256) (W : Mat 512 256) (b : Row 256) : Mat 200 256 :=
  fun n j => Ideal.tanh ((∑ k : Fin 512, cat h g n k * W k j) + b j)

/-- One round as the kernel computes it. -/
def layerK (W : Mat 512 256) (b : Row 256) (h : Mat 200 256) : Mat 200 256 :=
  updK h (msg (attK (logits h)) h) W b

/-- One round as the reference computes it. -/
def layerR (W : Mat 512 256) (b : Row 256) (h : Mat 200 256) : Mat 200 256 :=
  updR h (msg (attR (logits h)) h) W b

/-- The first readout layer, `tanh (h W₁ + b₁)`. -/
def fc1 (h : Mat 200 256) (W1 : Mat 256 256) (b1 : Row 256) : Mat 200 256 :=
  fun n d => Ideal.tanh ((∑ k : Fin 256, h n k * W1 k d) + b1 d)

/-- The kernel's readout: node sum first, then the second layer, then `200 · b₂`. -/
def readK (h : Mat 200 256) (W1 : Mat 256 256) (b1 : Row 256) (W2 : Mat 256 256) (b2 : Row 256) : Row 256 :=
  fun j => (∑ d : Fin 256, (∑ n : Fin 200, fc1 h W1 b1 n d) * W2 d j) + cNodes * b2 j

/-- The reference's readout: the second layer with its bias at every node, then the node sum from `0.0`. -/
def readR (h : Mat 200 256) (W1 : Mat 256 256) (b1 : Row 256) (W2 : Mat 256 256) (b2 : Row 256) : Row 256 :=
  fun j => cZero + ∑ n : Fin 200, ((∑ d : Fin 256, fc1 h W1 b1 n d * W2 d j) + b2 j)

/-- A jet's weights. -/
structure Params where
  Wemb : Mat 8 256
  bemb : Row 256
  W0 : Mat 512 256
  b0 : Row 256
  W1 : Mat 512 256
  b1 : Row 256
  W2 : Mat 512 256
  b2 : Row 256
  Wr1 : Mat 256 256
  br1 : Row 256
  Wr2 : Mat 256 256
  br2 : Row 256

/-- The hidden states after the embedding and two rounds, the kernel's way. -/
def h2K (p : Params) (x : Mat 200 8) : Mat 200 256 := layerK p.W1 p.b1 (layerK p.W0 p.b0 (emb x p.Wemb p.bemb))
/-- The same, the reference's way. -/
def h2R (p : Params) (x : Mat 200 8) : Mat 200 256 := layerR p.W1 p.b1 (layerR p.W0 p.b0 (emb x p.Wemb p.bemb))

/-- The kernel's readout of a jet. -/
def outK (p : Params) (x : Mat 200 8) : Row 256 := readK (layerK p.W2 p.b2 (h2K p x)) p.Wr1 p.br1 p.Wr2 p.br2
/-- The reference's readout of a jet. -/
def outR (p : Params) (x : Mat 200 8) : Row 256 := readR (layerR p.W2 p.b2 (h2R p x)) p.Wr1 p.br1 p.Wr2 p.br2

/-- The kernel's stored attention: the third round's. -/
def adjK (p : Params) (x : Mat 200 8) : Mat 200 200 := attK (logits (h2K p x))
/-- The reference's stored attention. -/
def adjR (p : Params) (x : Mat 200 8) : Mat 200 200 := attR (logits (h2R p x))

end Cert.Mpnn

end
-- ==== Proof.Arrays.lean ====
/-
  The argument arrays read as one jet's data: jet `b` of the `[128, 200, 8]` array is its slab of node features,
  and the twelve weight arrays are the parameters every jet shares. Both programs are read against these.
-/
import proofs.«121721_g85813446574462_cont_9to1c4b_288_20_alg».proof.Proof.Spec
import Idealize.ShloMosaic.Lib.ValueIdx

noncomputable section

namespace Cert.Mpnn

open Idealize.ShloMosaic Idealize.ShloMosaic.ValueIdx

/-- A rank-2 array as a matrix. -/
def mat2 {a b : ℕ} (v : (⟨2, ![a, b]⟩ : Shape).Idx → EReal) : Mat a b := fun p q => v (ix2 p q)
/-- A rank-1 array as a row. -/
def row1 {a : ℕ} (v : (⟨1, ![a]⟩ : Shape).Idx → EReal) : Row a := fun q => v (ix1 q)

/-- Slab `β` of a rank-3 array, as a matrix. -/
def slab3 {a b c : ℕ} (v : (⟨3, ![a, b, c]⟩ : Shape).Idx → EReal) (β : Fin a) : Mat b c := fun p q => v (ix3 β p q)

/-- Jet `b`'s node features. -/
def jetAt (jets : (⟨3, ![128, 200, 8]⟩ : Shape).Idx → EReal) (b : Fin 128) : Mat 200 8 := slab3 jets b

/-- An extended real that is a real number. -/
def IsReal (x : EReal) : Prop := ∃ r : ℝ, x = (r : EReal)

/-- The twelve weight arrays as a jet's parameters. -/
def paramsOf (Wemb : (⟨2, ![8, 256]⟩ : Shape).Idx → EReal) (bemb : (⟨1, ![256]⟩ : Shape).Idx → EReal)
    (W0 : (⟨2, ![512, 256]⟩ : Shape).Idx → EReal) (b0 : (⟨1, ![256]⟩ : Shape).Idx → EReal)
    (W1 : (⟨2, ![512, 256]⟩ : Shape).Idx → EReal) (b1 : (⟨1, ![256]⟩ : Shape).Idx → EReal)
    (W2 : (⟨2, ![512, 256]⟩ : Shape).Idx → EReal) (b2 : (⟨1, ![256]⟩ : Shape).Idx → EReal)
    (Wr1 : (⟨2, ![256, 256]⟩ : Shape).Idx → EReal) (br1 : (⟨1, ![256]⟩ : Shape).Idx → EReal)
    (Wr2 : (⟨2, ![256, 256]⟩ : Shape).Idx → EReal) (br2 : (⟨1, ![256]⟩ : Shape).Idx → EReal) : Params where
  Wemb := mat2 Wemb
  bemb := row1 bemb
  W0 := mat2 W0
  b0 := row1 b0
  W1 := mat2 W1
  b1 := row1 b1
  W2 := mat2 W2
  b2 := row1 b2
  Wr1 := mat2 Wr1
  br1 := row1 br1
  Wr2 := mat2 Wr2
  br2 := row1 br2

end Cert.Mpnn

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.JetRead1.lean ====
/-
  One jet's embedding, attention and message read at an index, at the extended reals: each is the plain
  function of Spec.lean of the operands' entries.
-/
import proofs.«121721_g85813446574462_cont_9to1c4b_288_20_alg».proof.Proof.JetV
import proofs.«121721_g85813446574462_cont_9to1c4b_288_20_alg».proof.Proof.Arrays
import proofs.«121721_g85813446574462_cont_9to1c4b_288_20_alg».proof.Proof.LibRowOps

noncomputable section

namespace Cert.KernelIdeal.JetRead

open Idealize.ShloMosaic Idealize.ShloMosaic.ValueIdx Cert.KernelIdeal Cert.KernelIdeal.JetV Cert.Mpnn
open scoped BigOperators

/-- A `[1, 256]` bias row as a row. -/
def brow (b : FVec Ideal S1x256 .f32) : Row 256 := fun d => b (ix2 0 d)

/-- A `[1, 200, 8]` slab as a matrix of node features. -/
def slabOf (x : Vec Ideal S1x200x8 .f32) : Mat 200 8 := fun n f => x (ix3 0 n f)

/-! ## A product contracting the second axis of both operands, `[M, K] × [N, K]`, as a sum over `Fin K` -/

section Gram
variable {M K N : ℕ}

private theorem gram_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

private theorem gram_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

private theorem gram_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

private theorem gram_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction at `(p, j)`: the sum over `k : Fin K` of `l (p, k) * r (j, k)`. -/
private theorem gram_sum (l : (⟨2, ![M, K]⟩ : Shape).Idx → EReal) (r : (⟨2, ![N, K]⟩ : Shape).Idx → EReal) (p : Fin M) (j : Fin N) :
    ∑ k : (DotDims.transposedRhs M K N).contr.Idx,
        l ((DotDims.transposedRhs M K N).lhsIdx (ix2 p j) k) * r ((DotDims.transposedRhs M K N).rhsIdx (ix2 p j) k)
      = ∑ k : Fin K, l (ix2 p k) * r (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact gram_lhs_0 _ _
      | ⟨1, _⟩ => exact (gram_lhs_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact gram_rhs_0 _ _
      | ⟨1, _⟩ => exact (gram_rhs_1 _ _).trans hk)
  rw [el, er]

/-- The product into the zero accumulator, for any dimension record that is this one. -/
private theorem matmul_gram_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (j : Fin N) :
    matmul d prec l r (constant ⟨2, ![M, N]⟩ .f32 0x00000000#32) (ix2 p j) = ∑ k : Fin K, l (ix2 p k) * r (ix2 j k) := by
  subst hd
  simp only [matmul]
  rw [Ideal.matmul_constant_zero_apply]
  exact gram_sum l r p j

end Gram

/-! ## A column: a vector cast to one, and one broadcast along the rows -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along each row of an `[a, b]` array, at row `n`. -/
private theorem rowSum_apply {a b : ℕ} (p : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ p 0x00000000#32 h hφ hacc (ix1 n) = ∑ k : Fin b, p (ix2 n k) := by
  rw [Ideal.multiReduction_add_single]
  show ∑ k : Fin b, p (h.lift (ix1 n) k) = _
  refine Finset.sum_congr rfl fun k _ => congrArg p (funext fun ax => Fin.ext ?_)
  match ax with
  | ⟨0, _⟩ => rfl
  | ⟨1, _⟩ => rfl

/-! ## The embedding -/

/-- The embedding at node `n`, feature `d`. -/
theorem embV_apply (W : Vec Ideal S8x256 .f32) (b : FVec Ideal S1x256 .f32) (x : Vec Ideal S1x200x8 .f32) (n : Fin 200) (d : Fin 256) :
    embV W b x (ix2 n d) = emb (slabOf x) (mat2 W) (brow b) n d := by
  show Ideal.tanh (matmul (F := Ideal) dot_S200x8_S8x256_S200x256_1_0_0_1_n_n none (shapeCast S200x8 x Facts₀.shapeCasts_S1x200x8_S200x8) W
      (constant S200x256 .f32 0x00000000#32) (ix2 n d) + broadcastTo S200x256 b Facts₀.broadcasts_S1x256_S200x256 (ix2 n d))
    = Ideal.tanh ((∑ f : Fin 8, x (ix3 0 n f) * W (ix2 f d)) + b (ix2 0 d))
  rw [Cert.LibRowOps.prod_apply dot_S200x8_S8x256_S200x256_1_0_0_1_n_n rfl _ _ n d (fun f => x (ix3 0 n f))
      (fun f => shapeCast_1ab_ab_apply x _ n f),
    broadcastTo_1b_ab_apply]

/-! ## The attention -/

/-- The unnormalised weight at `(n, m)`: the exponential of the scaled inner product of rows `n` and `m`. -/
private theorem expLogitsV_apply (h : FVec Ideal S200x256 .bf16) (n m : Fin 200) :
    expLogitsV h (ix2 n m) = Ideal.exp (logits (mat2 h) n m) := by
  show Ideal.exp (matmul (F := Ideal) dot_S200x256_S200x256_S200x200_1_1_0_0_n_n none h h
      (constant S200x200 .f32 0x00000000#32) (ix2 n m) * Ideal.ofBits .f32 0x3D800000#32)
    = Ideal.exp ((∑ d : Fin 256, h (ix2 n d) * h (ix2 m d)) * Ideal.ofBits .f32 0x3D800000#32)
  rw [matmul_gram_apply dot_S200x256_S200x256_S200x200_1_1_0_0_n_n rfl]

/-- The reciprocal of row `n`'s sum. -/
private theorem rcpV_apply (p : FVec Ideal S200x200 .f32) (n : Fin 200) (u : Fin 1) :
    rcpV p (ix2 n u) = Ideal.div cOne (∑ k : Fin 200, p (ix2 n k)) := by
  show Ideal.div (Ideal.ofBits .f32 0x3F800000#32)
      (shapeCast S200x1 (multiReduction (F := Ideal) .add [1] S200 p 0x00000000#32 Facts₀.reduces_S200x200_S200 (.inl rfl) rfl)
        Facts₀.shapeCasts_S200_S200x1 (ix2 n u))
    = Ideal.div (Ideal.ofBits .f32 0x3F800000#32) (∑ k : Fin 200, p (ix2 n k))
  rw [shapeCast_a_a1_apply]
  exact congrArg (Ideal.div (Ideal.ofBits .f32 0x3F800000#32)) (rowSum_apply p _ _ _ n)

/-- A normalised entry: the weight times the reciprocal of its row's sum. -/
private theorem normV_apply (p : FVec Ideal S200x200 .f32) (n m : Fin 200) :
    normV p (ix2 n m) = p (ix2 n m) * Ideal.div cOne (∑ k : Fin 200, p (ix2 n k)) := by
  show p (ix2 n m) * broadcastTo S200x200 (rcpV p) Facts₀.broadcasts_S200x1_S200x200 (ix2 n m) = _
  rw [broadcastTo_a1_ab_apply, rcpV_apply]

/-- The attention matrix at `(n, m)`. -/
theorem attV_apply (h : FVec Ideal S200x256 .bf16) (n m : Fin 200) :
    attV h (ix2 n m) = attK (logits (mat2 h)) n m := by
  show normV (expLogitsV h) (ix2 n m) = Ideal.exp (logits (mat2 h) n m) * Ideal.div cOne (∑ k : Fin 200, Ideal.exp (logits (mat2 h) n k))
  rw [normV_apply, expLogitsV_apply]
  exact congrArg (fun s => Ideal.exp (logits (mat2 h) n m) * Ideal.div cOne s)
    (Finset.sum_congr rfl fun k _ => expLogitsV_apply h n k)

/-! ## The message -/

/-- The message at node `n`, feature `d`. -/
theorem msgV_apply (h : FVec Ideal S200x256 .bf16) (a : FVec Ideal S200x200 .f32) (n : Fin 200) (d : Fin 256) :
    msgV h a (ix2 n d) = msg (mat2 a) (mat2 h) n d := by
  show matmul (F := Ideal) dot_S200x200_S200x256_S200x256_1_0_0_1_n_n none (truncf .bf16 a Facts₀.bitsLt_bf16_f32) h
      (constant S200x256 .f32 0x00000000#32) (ix2 n d) = ∑ m : Fin 200, a (ix2 n m) * h (ix2 m d)
  exact Cert.LibRowOps.prod_apply dot_S200x200_S200x256_S200x256_1_0_0_1_n_n rfl _ _ n d (fun m => a (ix2 n m)) (fun _ => rfl)

end Cert.KernelIdeal.JetRead

end
-- ==== Proof.JetRead2.lean ====
/-
  One jet's vertex update and readout read at an index, at the extended reals.
-/
import proofs.«121721_g85813446574462_cont_9to1c4b_288_20_alg».proof.Proof.JetV
import proofs.«121721_g85813446574462_cont_9to1c4b_288_20_alg».proof.Proof.Arrays
import proofs.«121721_g85813446574462_cont_9to1c4b_288_20_alg».proof.Proof.LibRowOps

noncomputable section

namespace Cert.KernelIdeal.JetRead2

open Idealize.ShloMosaic Idealize.ShloMosaic.ValueIdx Cert.KernelIdeal Cert.KernelIdeal.JetV Cert.Mpnn
open scoped BigOperators

/-- The update at node `n`, feature `j`: `h` against the top half of `W`, the message against the bottom half. -/
theorem updV_apply (W : FVec Ideal S512x256 .bf16) (b : FVec Ideal S1x256 .f32) (h : FVec Ideal S200x256 .bf16)
    (g : FVec Ideal S200x256 .f32) (n : Fin 200) (j : Fin 256) :
    updV W b h g (ix2 n j) = updK (mat2 h) (mat2 g) (mat2 W) (fun d => b (ix2 0 d)) n j := by
  have hd : dot_S200x256_S256x256_S200x256_1_0_0_1_n_n = DotDims.plain 200 256 256 := rfl
  have e1 : matmul dot_S200x256_S256x256_S200x256_1_0_0_1_n_n none h
      (extractStridedSlice S256x256 ![0, 0] W Facts₀.slices_S512x256_o0_0_S256x256) (constant S200x256 .f32 0x00000000#32) (ix2 n j)
      = ∑ k : Fin 256, mat2 h n k * mat2 W ⟨k.val, by omega⟩ j := by
    refine (Cert.LibRowOps.matmul_plain_apply _ hd none h _ n j).trans ?_
    refine Finset.sum_congr rfl fun k _ => ?_
    exact congrArg (h (ix2 n k) * ·) (slice2_axis0_apply 0 W _ k j ⟨k.val, by omega⟩ (Nat.zero_add _).symm)
  have e2 : matmul dot_S200x256_S256x256_S200x256_1_0_0_1_n_n none (truncf .bf16 g Facts₀.bitsLt_bf16_f32)
      (extractStridedSlice S256x256 ![256, 0] W Facts₀.slices_S512x256_o256_0_S256x256) (constant S200x256 .f32 0x00000000#32) (ix2 n j)
      = ∑ k : Fin 256, mat2 g n k * mat2 W ⟨256 + k.val, by omega⟩ j := by
    refine (Cert.LibRowOps.matmul_plain_apply _ hd none _ _ n j).trans ?_
    refine Finset.sum_congr rfl fun k _ => ?_
    exact congrArg (g (ix2 n k) * ·) (slice2_axis0_apply 256 W _ k j ⟨256 + k.val, by omega⟩ rfl)
  have e3 : broadcastTo S200x256 b Facts₀.broadcasts_S1x256_S200x256 (ix2 n j) = b (ix2 0 j) :=
    broadcastTo_1b_ab_apply b _ n j
  show Ideal.tanh ((_ + _) + _) = _
  rw [e1, e2, e3]
  rfl

/-- The first readout layer at node `n`, feature `d`. -/
private theorem fc1V_apply (W1 : FVec Ideal S256x256 .bf16) (b1 : FVec Ideal S1x256 .f32) (h : FVec Ideal S200x256 .bf16)
    (n : Fin 200) (d : Fin 256) :
    tanh (addf (matmul dot_S200x256_S256x256_S200x256_1_0_0_1_n_n none h W1 (constant S200x256 .f32 0x00000000#32))
        (broadcastTo S200x256 b1 Facts₀.broadcasts_S1x256_S200x256)) (ix2 n d)
      = fc1 (mat2 h) (mat2 W1) (fun d => b1 (ix2 0 d)) n d := by
  have hd : dot_S200x256_S256x256_S200x256_1_0_0_1_n_n = DotDims.plain 200 256 256 := rfl
  have e1 : matmul dot_S200x256_S256x256_S200x256_1_0_0_1_n_n none h W1 (constant S200x256 .f32 0x00000000#32) (ix2 n d)
      = ∑ k : Fin 256, mat2 h n k * mat2 W1 k d := Cert.LibRowOps.matmul_plain_apply _ hd none h W1 n d
  have e3 : broadcastTo S200x256 b1 Facts₀.broadcasts_S1x256_S200x256 (ix2 n d) = b1 (ix2 0 d) :=
    broadcastTo_1b_ab_apply b1 _ n d
  show Ideal.tanh (_ + _) = _
  rw [e1, e3]
  rfl

/-- The sum over the nodes of a `[200, 256]` array, at feature `d`. -/
private theorem nodeSum_apply (v : FVec Ideal S200x256 .f32) (d : Fin 256) :
    multiReduction .add [0] S256 v 0x00000000#32 Facts₀.reduces_S200x256_S256 (.inl rfl) rfl (ix1 d)
      = ∑ n : Fin 200, v (ix2 n d) := by
  refine (Ideal.multiReduction_add_single v _ Facts₀.reduces_S200x256_S256 _ _ (ix1 d)).trans ?_
  refine Finset.sum_congr rfl fun n _ => congrArg v ?_
  funext a
  match a with
  | ⟨0, _⟩ => exact Fin.ext rfl
  | ⟨1, _⟩ => exact Fin.ext rfl

/-- The readout at feature `j`. -/
theorem readV_apply (W1 : FVec Ideal S256x256 .bf16) (b1 : FVec Ideal S1x256 .f32) (W2 : Vec Ideal S256x256 .f32)
    (b2 : FVec Ideal S1x256 .f32) (h : FVec Ideal S200x256 .bf16) (j : Fin 256) :
    readV W1 b1 W2 b2 h (ix3 0 0 j)
      = readK (mat2 h) (mat2 W1) (fun d => b1 (ix2 0 d)) (mat2 W2) (fun d => b2 (ix2 0 d)) j := by
  have hd1 : dot_S1x256_S256x256_S1x256_1_0_0_1_n_n = DotDims.plain 1 256 256 := rfl
  have eP : matmul (φ₂ := .f32) dot_S1x256_S256x256_S1x256_1_0_0_1_n_n none
      (shapeCast S1x256 (multiReduction .add [0] S256
        (tanh (addf (matmul dot_S200x256_S256x256_S200x256_1_0_0_1_n_n none h W1 (constant S200x256 .f32 0x00000000#32))
          (broadcastTo S200x256 b1 Facts₀.broadcasts_S1x256_S200x256)))
        0x00000000#32 Facts₀.reduces_S200x256_S256 (.inl rfl) rfl) Facts₀.shapeCasts_S256_S1x256)
      W2 (constant S1x256 .f32 0x00000000#32) (ix2 0 j)
      = ∑ d : Fin 256, (∑ n : Fin 200, fc1 (mat2 h) (mat2 W1) (fun d => b1 (ix2 0 d)) n d) * mat2 W2 d j := by
    refine (Cert.LibRowOps.matmul_plain_apply (φ₂ := .f32) _ hd1 none _ W2 0 j).trans ?_
    refine Finset.sum_congr rfl fun d _ => congrArg (· * W2 (ix2 d j)) ?_
    refine (shapeCast_a_1a_apply _ _ 0 d).trans ?_
    refine (nodeSum_apply _ d).trans ?_
    exact Finset.sum_congr rfl fun n _ => fc1V_apply W1 b1 h n d
  unfold readV
  refine (shapeCast_ab_1ab_apply _ Facts₀.shapeCasts_S1x256_S1x1x256 0 0 j).trans ?_
  show _ + (Ideal.ofBits .f32 0x43480000#32 * b2 (ix2 0 j)) = _
  rw [eP]
  rfl

end Cert.KernelIdeal.JetRead2

end
-- ==== Proof.JetRead.lean ====
/-
  One jet's two stored values read at an index: the readout is `outK` and the attention `adjK` of the jet's node
  features and of the weights as the body holds them.
-/
import proofs.«121721_g85813446574462_cont_9to1c4b_288_20_alg».proof.Proof.JetRead1
import proofs.«121721_g85813446574462_cont_9to1c4b_288_20_alg».proof.Proof.JetRead2

noncomputable section

namespace Cert.KernelIdeal.JetRead

open Idealize.ShloMosaic Idealize.ShloMosaic.ValueIdx Cert.KernelIdeal Cert.KernelIdeal.JetV Cert.KernelIdeal.JetRead2 Cert.Mpnn
open scoped BigOperators

/-- The weights the body holds, as a jet's parameters. -/
def paramsOfWts (w : Wts Ideal) : Params where
  Wemb := mat2 w.Wemb
  bemb := brow w.bemb
  W0 := mat2 w.W0
  b0 := brow w.b0
  W1 := mat2 w.W1
  b1 := brow w.b1
  W2 := mat2 w.W2
  b2 := brow w.b2
  Wr1 := mat2 w.Wr1
  br1 := brow w.br1
  Wr2 := mat2 w.Wr2
  br2 := brow w.br2

/-- One round, as a matrix. -/
theorem layerV_eq (W : FVec Ideal S512x256 .bf16) (b : FVec Ideal S1x256 .f32) (h : FVec Ideal S200x256 .bf16) :
    mat2 (layerV W b h) = layerK (mat2 W) (brow b) (mat2 h) := by
  funext n j
  have eA : mat2 (attV h) = attK (logits (mat2 h)) := by
    funext p q
    exact attV_apply h p q
  have eM : mat2 (msgV h (attV h)) = msg (attK (logits (mat2 h))) (mat2 h) := by
    funext p d
    rw [← eA]
    exact msgV_apply h (attV h) p d
  show layerV W b h (ix2 n j) = _
  unfold layerV layerK
  rw [updV_apply, eM]
  rfl

/-- The embedding, as a matrix. -/
private theorem embV_eq (w : Wts Ideal) (x : Vec Ideal S1x200x8 .f32) :
    mat2 (embV w.Wemb w.bemb x) = emb (slabOf x) (mat2 w.Wemb) (brow w.bemb) := by
  funext n d
  exact embV_apply w.Wemb w.bemb x n d

/-- The hidden states after the embedding and two rounds, as a matrix. -/
private theorem h2V_eq (w : Wts Ideal) (x : Vec Ideal S1x200x8 .f32) :
    mat2 (h2V w x) = h2K (paramsOfWts w) (slabOf x) := by
  unfold h2V h2K
  rw [layerV_eq, layerV_eq, embV_eq]
  rfl

/-- A jet's stored readout at feature `j`. -/
theorem jetOutV_apply (w : Wts Ideal) (x : Vec Ideal S1x200x8 .f32) (j : Fin 256) :
    jetOutV w x (ix3 0 0 j) = outK (paramsOfWts w) (slabOf x) j := by
  unfold jetOutV outK
  rw [readV_apply, layerV_eq, h2V_eq]
  rfl

/-- A jet's stored attention at `(n, m)`. -/
theorem jetAV_apply (w : Wts Ideal) (x : Vec Ideal S1x200x8 .f32) (n m : Fin 200) :
    jetAV w x (ix3 0 n m) = adjK (paramsOfWts w) (slabOf x) n m := by
  unfold jetAV adjK
  refine (shapeCast_ab_1ab_apply _ Facts₀.shapeCasts_S200x200_S1x200x200 0 n m).trans ?_
  rw [attV_apply, h2V_eq]

end Cert.KernelIdeal.JetRead

end
-- ==== Proof.KernelBlocks.lean ====
/-
  What a grid point's blocks are, read off the argument arrays.

  The region finds the jet array and two weight arrays as the arguments themselves; the other weights it finds after
  the host has reshaped each bias `[256]` to a row `[1, 256]` and changed the format of four matrices (the identity at
  the extended reals). Every weight window stays at block `0` and its block is the whole array, so a weight block read
  at an index is the argument array read there (a bias row at `(0, d)` is entry `d`). The jet window and the two
  output windows move along the jet axis: point `t` holds jets `16 t … 16 t + 15`.
-/
import proofs.«121721_g85813446574462_cont_9to1c4b_288_20_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ)

theorem hz2 : (![0, 0] : Fin 2 → ℕ) = fun _ => 0 := funext fun a => by fin_cases a <;> rfl

/-- The index maps of the jet window and of the two output windows, decided over the eight grid points: block `t` along
    the jet axis, block `0` along the others. -/
theorem idx_facts : ∀ t : Fin cfg0.N,
    (win0_0.index t (0 : Fin 3) = t.val ∧ win0_0.index t (1 : Fin 3) = 0 ∧ win0_0.index t (2 : Fin 3) = 0)
    ∧ (win0_13.index t (0 : Fin 3) = t.val ∧ win0_13.index t (1 : Fin 3) = 0 ∧ win0_13.index t (2 : Fin 3) = 0)
    ∧ (win0_14.index t (0 : Fin 3) = t.val ∧ win0_14.index t (1 : Fin 3) = 0 ∧ win0_14.index t (2 : Fin 3) = 0) :=
  (by decide +kernel : ∀ t : Fin grid0.N, _)

/-- The weight windows stay at block `0` at every grid point. -/
theorem idx_rep : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The embedding weight's block is the whole argument array. -/
theorem blk1 (c : Dev nD) (t : Fin cfg0.N) (y : S8x256.Idx) :
    (iblk m c 1 t : S8x256.Idx → EReal) y = (m ((c.tc : Thread nD τ).loc main_arg1) : S8x256.Idx → EReal) y := by
  obtain ⟨e0, e1⟩ := (idx_rep t).1
  show V m c main_arg1 (((cfg0.win 1).blk t).view.emb y) = _
  rw [V_main_arg1]
  congr 1
  funext a; apply Fin.ext
  match a with
  | ⟨0, _⟩ => show win0_1.index t (0 : Fin 2) * 8 + 1 * (y 0).val = (y 0).val; omega
  | ⟨1, _⟩ => show win0_1.index t (1 : Fin 2) * 256 + 1 * (y 1).val = (y 1).val; omega

/-- The embedding bias row as the region finds it: the argument `[256]` reshaped to `[1, 256]`. -/
theorem V_v4 (c : Dev nD) : (V m c main_v4 : S1x256.Idx → EReal)
    = shapeCast S1x256 (m ((c.tc : Thread nD τ).loc main_arg2) : S256.Idx → EReal) Facts₀.shapeCasts_S256_S1x256 := by
  show StableHlo.after hostOps0 (fun b => m (c, b)) (Proc.devRef .tc main_v4) = _
  after_results
  rfl

/-- The embedding bias's block at `(0, d)` is entry `d` of the argument array. -/
theorem blk2 (c : Dev nD) (t : Fin cfg0.N) (d : Fin 256) :
    (iblk m c 2 t : S1x256.Idx → EReal) (ix2 0 d) = (m ((c.tc : Thread nD τ).loc main_arg2) : S256.Idx → EReal) (ix1 d) := by
  obtain ⟨e0, e1⟩ := (idx_rep t).2.1
  show V m c main_v4 (((cfg0.win 2).blk t).view.emb (ix2 0 d)) = _
  rw [V_v4]
  refine Eq.trans ?_ (shapeCast_a_1a_apply _ Facts₀.shapeCasts_S256_S1x256 0 d)
  congr 1
  funext a; apply Fin.ext
  match a with
  | ⟨0, _⟩ => show win0_2.index t (0 : Fin 2) * 1 + 1 * 0 = 0; omega
  | ⟨1, _⟩ => show win0_2.index t (1 : Fin 2) * 256 + 1 * d.val = d.val; omega

/-- The first round's weight as the region finds it: the argument array (the change of float format is the identity here). -/
theorem V_v0 (c : Dev nD) : (V m c main_v0 : S512x256.Idx → EReal) = (m ((c.tc : Thread nD τ).loc main_arg3) : S512x256.Idx → EReal) := by
  show StableHlo.after hostOps0 (fun b => m (c, b)) (Proc.devRef .tc main_v0) = _
  after_results
  rfl

/-- The first round's weight's block is the whole argument array. -/
theorem blk3 (c : Dev nD) (t : Fin cfg0.N) (y : S512x256.Idx) :
    (iblk m c 3 t : S512x256.Idx → EReal) y = (m ((c.tc : Thread nD τ).loc main_arg3) : S512x256.Idx → EReal) y := by
  obtain ⟨e0, e1⟩ := (idx_rep t).2.2.1
  show V m c main_v0 (((cfg0.win 3).blk t).view.emb y) = _
  rw [V_v0]
  congr 1
  funext a; apply Fin.ext
  match a with
  | ⟨0, _⟩ => show win0_3.index t (0 : Fin 2) * 512 + 1 * (y 0).val = (y 0).val; omega
  | ⟨1, _⟩ => show win0_3.index t (1 : Fin 2) * 256 + 1 * (y 1).val = (y 1).val; omega

end Cert.KernelIdeal.KValue

end
-- ==== Proof.KernelBlocksSib.lean ====
/- The remaining weight windows' blocks: each bias row at (0, d) is entry d of its argument array, each weight matrix's
   block is its whole argument array. The same three arguments as for windows 1, 2 and 3, at the other windows. -/
import proofs.«121721_g85813446574462_cont_9to1c4b_288_20_alg».proof.Proof.KernelBlocks

set_option maxRecDepth 16384

noncomputable section

namespace Cert.KernelIdeal.KValue

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ)

/-- The first round's bias row as the region finds it: the argument `[256]` reshaped to `[1, 256]`. -/
theorem V_v5 (c : Dev nD) : (V m c main_v5 : S1x256.Idx → EReal)
    = shapeCast S1x256 (m ((c.tc : Thread nD τ).loc main_arg4) : S256.Idx → EReal) Facts₀.shapeCasts_S256_S1x256 := by
  show StableHlo.after hostOps0 (fun b => m (c, b)) (Proc.devRef .tc main_v5) = _
  after_results
  rfl

/-- The first round's bias's block at `(0, d)` is entry `d` of the argument array. -/
theorem blk4 (c : Dev nD) (t : Fin cfg0.N) (d : Fin 256) :
    (iblk m c 4 t : S1x256.Idx → EReal) (ix2 0 d) = (m ((c.tc : Thread nD τ).loc main_arg4) : S256.Idx → EReal) (ix1 d) := by
  obtain ⟨e0, e1⟩ := (idx_rep t).2.2.2.1
  show V m c main_v5 (((cfg0.win 4).blk t).view.emb (ix2 0 d)) = _
  rw [V_v5]
  refine Eq.trans ?_ (shapeCast_a_1a_apply _ Facts₀.shapeCasts_S256_S1x256 0 d)
  congr 1
  funext a; apply Fin.ext
  match a with
  | ⟨0, _⟩ => show win0_4.index t (0 : Fin 2) * 1 + 1 * 0 = 0; omega
  | ⟨1, _⟩ => show win0_4.index t (1 : Fin 2) * 256 + 1 * d.val = d.val; omega

/-- The second round's weight as the region finds it: the argument array (the change of float format is the identity here). -/
theorem V_v1 (c : Dev nD) : (V m c main_v1 : S512x256.Idx → EReal) = (m ((c.tc : Thread nD τ).loc main_arg5) : S512x256.Idx → EReal) := by
  show StableHlo.after hostOps0 (fun b => m (c, b)) (Proc.devRef .tc main_v1) = _
  after_results
  rfl

/-- The second round's weight's block is the whole argument array. -/
theorem blk5 (c : Dev nD) (t : Fin cfg0.N) (y : S512x256.Idx) :
    (iblk m c 5 t : S512x256.Idx → EReal) y = (m ((c.tc : Thread nD τ).loc main_arg5) : S512x256.Idx → EReal) y := by
  obtain ⟨e0, e1⟩ := (idx_rep t).2.2.2.2.1
  show V m c main_v1 (((cfg0.win 5).blk t).view.emb y) = _
  rw [V_v1]
  congr 1
  funext a; apply Fin.ext
  match a with
  | ⟨0, _⟩ => show win0_5.index t (0 : Fin 2) * 512 + 1 * (y 0).val = (y 0).val; omega
  | ⟨1, _⟩ => show win0_5.index t (1 : Fin 2) * 256 + 1 * (y 1).val = (y 1).val; omega
/-- The second round's bias row as the region finds it: the argument `[256]` reshaped to `[1, 256]`. -/
theorem V_v6 (c : Dev nD) : (V m c main_v6 : S1x256.Idx → EReal)
    = shapeCast S1x256 (m ((c.tc : Thread nD τ).loc main_arg6) : S256.Idx → EReal) Facts₀.shapeCasts_S256_S1x256 := by
  show StableHlo.after hostOps0 (fun b => m (c, b)) (Proc.devRef .tc main_v6) = _
  after_results
  rfl

/-- The second round's bias's block at `(0, d)` is entry `d` of the argument array. -/
theorem blk6 (c : Dev nD) (t : Fin cfg0.N) (d : Fin 256) :
    (iblk m c 6 t : S1x256.Idx → EReal) (ix2 0 d) = (m ((c.tc : Thread nD τ).loc main_arg6) : S256.Idx → EReal) (ix1 d) := by
  obtain ⟨e0, e1⟩ := (idx_rep t).2.2.2.2.2.1
  show V m c main_v6 (((cfg0.win 6).blk t).view.emb (ix2 0 d)) = _
  rw [V_v6]
  refine Eq.trans ?_ (shapeCast_a_1a_apply _ Facts₀.shapeCasts_S256_S1x256 0 d)
  congr 1
  funext a; apply Fin.ext
  match a with
  | ⟨0, _⟩ => show win0_6.index t (0 : Fin 2) * 1 + 1 * 0 = 0; omega
  | ⟨1, _⟩ => show win0_6.index t (1 : Fin 2) * 256 + 1 * d.val = d.val; omega

/-- The third round's weight as the region finds it: the argument array (the change of float format is the identity here). -/
theorem V_v2 (c : Dev nD) : (V m c main_v2 : S512x256.Idx → EReal) = (m ((c.tc : Thread nD τ).loc main_arg7) : S512x256.Idx → EReal) := by
  show StableHlo.after hostOps0 (fun b => m (c, b)) (Proc.devRef .tc main_v2) = _
  after_results
  rfl

/-- The third round's weight's block is the whole argument array. -/
theorem blk7 (c : Dev nD) (t : Fin cfg0.N) (y : S512x256.Idx) :
    (iblk m c 7 t : S512x256.Idx → EReal) y = (m ((c.tc : Thread nD τ).loc main_arg7) : S512x256.Idx → EReal) y := by
  obtain ⟨e0, e1⟩ := (idx_rep t).2.2.2.2.2.2.1
  show V m c main_v2 (((cfg0.win 7).blk t).view.emb y) = _
  rw [V_v2]
  congr 1
  funext a; apply Fin.ext
  match a with
  | ⟨0, _⟩ => show win0_7.index t (0 : Fin 2) * 512 + 1 * (y 0).val = (y 0).val; omega
  | ⟨1, _⟩ => show win0_7.index t (1 : Fin 2) * 256 + 1 * (y 1).val = (y 1).val; omega
/-- The third round's bias row as the region finds it: the argument `[256]` reshaped to `[1, 256]`. -/
theorem V_v7 (c : Dev nD) : (V m c main_v7 : S1x256.Idx → EReal)
    = shapeCast S1x256 (m ((c.tc : Thread nD τ).loc main_arg8) : S256.Idx → EReal) Facts₀.shapeCasts_S256_S1x256 := by
  show StableHlo.after hostOps0 (fun b => m (c, b)) (Proc.devRef .tc main_v7) = _
  after_results
  rfl

/-- The third round's bias's block at `(0, d)` is entry `d` of the argument array. -/
theorem blk8 (c : Dev nD) (t : Fin cfg0.N) (d : Fin 256) :
    (iblk m c 8 t : S1x256.Idx → EReal) (ix2 0 d) = (m ((c.tc : Thread nD τ).loc main_arg8) : S256.Idx → EReal) (ix1 d) := by
  obtain ⟨e0, e1⟩ := (idx_rep t).2.2.2.2.2.2.2.1
  show V m c main_v7 (((cfg0.win 8).blk t).view.emb (ix2 0 d)) = _
  rw [V_v7]
  refine Eq.trans ?_ (shapeCast_a_1a_apply _ Facts₀.shapeCasts_S256_S1x256 0 d)
  congr 1
  funext a; apply Fin.ext
  match a with
  | ⟨0, _⟩ => show win0_8.index t (0 : Fin 2) * 1 + 1 * 0 = 0; omega
  | ⟨1, _⟩ => show win0_8.index t (1 : Fin 2) * 256 + 1 * d.val = d.val; omega

/-- The first readout weight as the region finds it: the argument array (the change of float format is the identity here). -/
theorem V_v3 (c : Dev nD) : (V m c main_v3 : S256x256.Idx → EReal) = (m ((c.tc : Thread nD τ).loc main_arg9) : S256x256.Idx → EReal) := by
  show StableHlo.after hostOps0 (fun b => m (c, b)) (Proc.devRef .tc main_v3) = _
  after_results
  rfl

/-- The first readout weight's block is the whole argument array. -/
theorem blk9 (c : Dev nD) (t : Fin cfg0.N) (y : S256x256.Idx) :
    (iblk m c 9 t : S256x256.Idx → EReal) y = (m ((c.tc : Thread nD τ).loc main_arg9) : S256x256.Idx → EReal) y := by
  obtain ⟨e0, e1⟩ := (idx_rep t).2.2.2.2.2.2.2.2.1
  show V m c main_v3 (((cfg0.win 9).blk t).view.emb y) = _
  rw [V_v3]
  congr 1
  funext a; apply Fin.ext
  match a with
  | ⟨0, _⟩ => show win0_9.index t (0 : Fin 2) * 256 + 1 * (y 0).val = (y 0).val; omega
  | ⟨1, _⟩ => show win0_9.index t (1 : Fin 2) * 256 + 1 * (y 1).val = (y 1).val; omega
/-- The first readout bias row as the region finds it: the argument `[256]` reshaped to `[1, 256]`. -/
theorem V_v8 (c : Dev nD) : (V m c main_v8 : S1x256.Idx → EReal)
    = shapeCast S1x256 (m ((c.tc : Thread nD τ).loc main_arg10) : S256.Idx → EReal) Facts₀.shapeCasts_S256_S1x256 := by
  show StableHlo.after hostOps0 (fun b => m (c, b)) (Proc.devRef .tc main_v8) = _
  after_results
  rfl

/-- The first readout bias's block at `(0, d)` is entry `d` of the argument array. -/
theorem blk10 (c : Dev nD) (t : Fin cfg0.N) (d : Fin 256) :
    (iblk m c 10 t : S1x256.Idx → EReal) (ix2 0 d) = (m ((c.tc : Thread nD τ).loc main_arg10) : S256.Idx → EReal) (ix1 d) := by
  obtain ⟨e0, e1⟩ := (idx_rep t).2.2.2.2.2.2.2.2.2.1
  show V m c main_v8 (((cfg0.win 10).blk t).view.emb (ix2 0 d)) = _
  rw [V_v8]
  refine Eq.trans ?_ (shapeCast_a_1a_apply _ Facts₀.shapeCasts_S256_S1x256 0 d)
  congr 1
  funext a; apply Fin.ext
  match a with
  | ⟨0, _⟩ => show win0_10.index t (0 : Fin 2) * 1 + 1 * 0 = 0; omega
  | ⟨1, _⟩ => show win0_10.index t (1 : Fin 2) * 256 + 1 * d.val = d.val; omega

/-- The second readout weight's block is the whole argument array. -/
theorem blk11 (c : Dev nD) (t : Fin cfg0.N) (y : S256x256.Idx) :
    (iblk m c 11 t : S256x256.Idx → EReal) y = (m ((c.tc : Thread nD τ).loc main_arg11) : S256x256.Idx → EReal) y := by
  obtain ⟨e0, e1⟩ := (idx_rep t).2.2.2.2.2.2.2.2.2.2.1
  show V m c main_arg11 (((cfg0.win 11).blk t).view.emb y) = _
  rw [V_main_arg11]
  congr 1
  funext a; apply Fin.ext
  match a with
  | ⟨0, _⟩ => show win0_11.index t (0 : Fin 2) * 256 + 1 * (y 0).val = (y 0).val; omega
  | ⟨1, _⟩ => show win0_11.index t (1 : Fin 2) * 256 + 1 * (y 1).val = (y 1).val; omega

/-- The second readout bias row as the region finds it: the argument `[256]` reshaped to `[1, 256]`. -/
theorem V_v9 (c : Dev nD) : (V m c main_v9 : S1x256.Idx → EReal)
    = shapeCast S1x256 (m ((c.tc : Thread nD τ).loc main_arg12) : S256.Idx → EReal) Facts₀.shapeCasts_S256_S1x256 := by
  show StableHlo.after hostOps0 (fun b => m (c, b)) (Proc.devRef .tc main_v9) = _
  after_results
  rfl

/-- The second readout bias's block at `(0, d)` is entry `d` of the argument array. -/
theorem blk12 (c : Dev nD) (t : Fin cfg0.N) (d : Fin 256) :
    (iblk m c 12 t : S1x256.Idx → EReal) (ix2 0 d) = (m ((c.tc : Thread nD τ).loc main_arg12) : S256.Idx → EReal) (ix1 d) := by
  obtain ⟨e0, e1⟩ := (idx_rep t).2.2.2.2.2.2.2.2.2.2.2
  show V m c main_v9 (((cfg0.win 12).blk t).view.emb (ix2 0 d)) = _
  rw [V_v9]
  refine Eq.trans ?_ (shapeCast_a_1a_apply _ Facts₀.shapeCasts_S256_S1x256 0 d)
  congr 1
  funext a; apply Fin.ext
  match a with
  | ⟨0, _⟩ => show win0_12.index t (0 : Fin 2) * 1 + 1 * 0 = 0; omega
  | ⟨1, _⟩ => show win0_12.index t (1 : Fin 2) * 256 + 1 * d.val = d.val; omega

end Cert.KernelIdeal.KValue

end
-- ==== Proof.KernelValue.lean ====
/-
  The kernel's two results as functions of its argument arrays.

  One grid point holds sixteen jets. Its readout block `[16, 1, 256]` and its attention block `[16, 200, 200]` are each
  written by sixteen stores, store `j` holding jet `j`'s result in its own slab; the slabs tile the block, so the block
  read back is one function of the block index: at `(j, ·)` the result of jet `j` of the point's jet block
  (`blkOut`, `blkAdj`). The weights a point's body holds are the argument arrays (every weight window stays at block
  `0`), and jet `j` of point `t`'s jet block is jet `16 t + j` of the jets array, so point `t` writes back block `t` of
  the whole-array functions `GOut`, `GAdj`: at jet `b`, `outK` and `adjK` of the parameters and of jet `b`'s node
  features. The eight points' blocks cover the arrays (jet `b` lies in point `b / 16`'s block), so the arrays end holding
  `GOut` and `GAdj`; the host line after the region drops the readout array's unit axis, which gives `KOut`.
-/
import proofs.«121721_g85813446574462_cont_9to1c4b_288_20_alg».proof.Proof.Gen.KernelIdeal.Frame
import proofs.«121721_g85813446574462_cont_9to1c4b_288_20_alg».proof.Proof.Pieces
import proofs.«121721_g85813446574462_cont_9to1c4b_288_20_alg».proof.Proof.JetRead
import proofs.«121721_g85813446574462_cont_9to1c4b_288_20_alg».proof.Proof.KernelBlocksSib
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.JetV Cert.KernelIdeal.JetRead Cert.Mpnn
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## One grid point: the two output blocks as functions of the block index -/

/-- The load of the `j`-th unit slab of the jet block reads jet `j` of the block. -/
theorem slab_ld (x0 : Vec Ideal S16x200x8 .f32) (j : ℕ) (hj : j < 16)
    (inb : ∀ a, (![j, 0, 0] : Fin 3 → ℕ) a + S1x200x8.size a ≤ S16x200x8.size a) :
    slabOf (View.ld x0 (Rect.unit (s := S16x200x8) ![j, 0, 0] S1x200x8.size inb)) = slab3 x0 ⟨j, hj⟩ := by
  funext n f
  show x0 ((Rect.unit (s := S16x200x8) ![j, 0, 0] S1x200x8.size inb).idx (ix3 0 n f)) = x0 (ix3 ⟨j, hj⟩ n f)
  congr 1
  funext a; apply Fin.ext
  match a with
  | ⟨0, _⟩ => show j + 1 * 0 = j; omega
  | ⟨1, _⟩ => show 0 + 1 * n.val = n.val; omega
  | ⟨2, _⟩ => show 0 + 1 * f.val = f.val; omega

/-- The readout block of one grid point: row `y 0` is the readout of jet `y 0` of the jet block. -/
def blkOut (w : Wts Ideal) (x0 : Vec Ideal S16x200x8 .f32) : S16x1x256.Idx → EReal :=
  fun y => outK (paramsOfWts w) (slab3 x0 ⟨(y 0).val, (y 0).isLt⟩) ⟨(y 2).val, (y 2).isLt⟩

/-- The attention block of one grid point: slab `y 0` is the attention matrix of jet `y 0` of the jet block. -/
def blkAdj (w : Wts Ideal) (x0 : Vec Ideal S16x200x8 .f32) : S16x200x200.Idx → EReal :=
  fun y => adjK (paramsOfWts w) (slab3 x0 ⟨(y 0).val, (y 0).isLt⟩) ⟨(y 1).val, (y 1).isLt⟩ ⟨(y 2).val, (y 2).isLt⟩

/-- Store `j` of the readout block holds the block function at the indices it covers. -/
theorem piece_out (w : Wts Ideal) (x0 : Vec Ideal S16x200x8 .f32) (j : ℕ) (hj : j < 16)
    (inbL : ∀ a, (![j, 0, 0] : Fin 3 → ℕ) a + S1x200x8.size a ≤ S16x200x8.size a)
    (inbS : ∀ a, (![j, 0, 0] : Fin 3 → ℕ) a + S1x1x256.size a ≤ S16x1x256.size a) (x : S1x1x256.Idx) :
    jetOutV w (View.ld x0 (Rect.unit (s := S16x200x8) ![j, 0, 0] S1x200x8.size inbL)) x
      = blkOut w x0 ((Rect.unit (s := S16x1x256) ![j, 0, 0] S1x1x256.size inbS).emb x) := by
  have h0 : x 0 = (0 : Fin 1) := Fin.ext (by have h : (x 0).val < 1 := (x 0).isLt; show (x 0).val = 0; omega)
  have h1 : x 1 = (0 : Fin 1) := Fin.ext (by have h : (x 1).val < 1 := (x 1).isLt; show (x 1).val = 0; omega)
  obtain ⟨q, rfl⟩ : ∃ q : Fin 256, x = ix3 0 0 q := ⟨x 2, (eq_ix3 x).trans (by rw [h0, h1]; rfl)⟩
  rw [jetOutV_apply, slab_ld x0 j hj inbL]
  exact (congrArg₂ (fun a b => outK (paramsOfWts w) (slab3 x0 a) b)
    (Fin.ext (show j + 1 * 0 = j by omega) : (⟨_, _⟩ : Fin 16) = ⟨j, hj⟩)
    (Fin.ext (show 0 + 1 * q.val = q.val by omega) : (⟨_, _⟩ : Fin 256) = q)).symm

/-- Store `j` of the attention block holds the block function at the indices it covers. -/
theorem piece_adj (w : Wts Ideal) (x0 : Vec Ideal S16x200x8 .f32) (j : ℕ) (hj : j < 16)
    (inbL : ∀ a, (![j, 0, 0] : Fin 3 → ℕ) a + S1x200x8.size a ≤ S16x200x8.size a)
    (inbS : ∀ a, (![j, 0, 0] : Fin 3 → ℕ) a + S1x200x200.size a ≤ S16x200x200.size a) (x : S1x200x200.Idx) :
    jetAV w (View.ld x0 (Rect.unit (s := S16x200x8) ![j, 0, 0] S1x200x8.size inbL)) x
      = blkAdj w x0 ((Rect.unit (s := S16x200x200) ![j, 0, 0] S1x200x200.size inbS).emb x) := by
  have h0 : x 0 = (0 : Fin 1) := Fin.ext (by have h : (x 0).val < 1 := (x 0).isLt; show (x 0).val = 0; omega)
  obtain ⟨n, k, rfl⟩ : ∃ (n k : Fin 200), x = ix3 0 n k := ⟨x 1, x 2, (eq_ix3 x).trans (by rw [h0]; rfl)⟩
  rw [jetAV_apply, slab_ld x0 j hj inbL]
  have e0 : (⟨j + 1 * 0, by omega⟩ : Fin 16) = ⟨j, hj⟩ := Fin.ext (by show j + 1 * 0 = j; omega)
  have e1 : (⟨0 + 1 * n.val, by omega⟩ : Fin 200) = n := Fin.ext (by show 0 + 1 * n.val = n.val; omega)
  have e2 : (⟨0 + 1 * k.val, by omega⟩ : Fin 200) = k := Fin.ext (by show 0 + 1 * k.val = k.val; omega)
  show _ = adjK (paramsOfWts w) (slab3 x0 ⟨j + 1 * 0, _⟩) ⟨0 + 1 * n.val, _⟩ ⟨0 + 1 * k.val, _⟩
  rw [e0, e1, e2]

/-- The readout block is `blkOut` of the weights as loaded and of the jet block: its sixteen stores tile the block,
    and each holds `blkOut` where it lands. -/
theorem out0_13_blk (x0 : Vec Ideal S16x200x8 .f32) (x1 : Vec Ideal S8x256 .f32) (x2 : Vec Ideal S1x256 .f32)
    (x3 : Vec Ideal S512x256 .bf16) (x4 : Vec Ideal S1x256 .f32) (x5 : Vec Ideal S512x256 .bf16) (x6 : Vec Ideal S1x256 .f32)
    (x7 : Vec Ideal S512x256 .bf16) (x8 : Vec Ideal S1x256 .f32) (x9 : Vec Ideal S256x256 .bf16) (x10 : Vec Ideal S1x256 .f32)
    (x11 : Vec Ideal S256x256 .f32) (x12 : Vec Ideal S1x256 .f32) :
    out0_13 x0 x1 x2 x3 x4 x5 x6 x7 x8 x9 x10 x11 x12 = blkOut (wts x1 x2 x3 x4 x5 x6 x7 x8 x9 x10 x11 x12) x0 := by
  rw [out0_13_eq]
  funext y
  refine View.canon_apply_of_pieces (Val := Elt Ideal) (S := S16x1x256) (e := .f32) (blkOut (wts x1 x2 x3 x4 x5 x6 x7 x8 x9 x10 x11 x12) x0) _ ?_ y (cover0_13 _ _ _ _ _ _ _ _ _ _ _ _ _ _ _ _ y)
  intro p hp x
  simp only [List.mem_cons, List.mem_singleton, List.not_mem_nil, or_false] at hp
  rcases hp with rfl | rfl | rfl | rfl | rfl | rfl | rfl | rfl | rfl | rfl | rfl | rfl | rfl | rfl | rfl | rfl
  all_goals exact piece_out _ x0 _ (by omega) (by decide) (by decide) x

/-- The attention block is `blkAdj` of the weights as loaded and of the jet block. -/
theorem out0_14_blk (x0 : Vec Ideal S16x200x8 .f32) (x1 : Vec Ideal S8x256 .f32) (x2 : Vec Ideal S1x256 .f32)
    (x3 : Vec Ideal S512x256 .bf16) (x4 : Vec Ideal S1x256 .f32) (x5 : Vec Ideal S512x256 .bf16) (x6 : Vec Ideal S1x256 .f32)
    (x7 : Vec Ideal S512x256 .bf16) (x8 : Vec Ideal S1x256 .f32) (x9 : Vec Ideal S256x256 .bf16) (x10 : Vec Ideal S1x256 .f32)
    (x11 : Vec Ideal S256x256 .f32) (x12 : Vec Ideal S1x256 .f32) :
    out0_14 x0 x1 x2 x3 x4 x5 x6 x7 x8 x9 x10 x11 x12 = blkAdj (wts x1 x2 x3 x4 x5 x6 x7 x8 x9 x10 x11 x12) x0 := by
  rw [out0_14_eq]
  funext y
  refine View.canon_apply_of_pieces (Val := Elt Ideal) (S := S16x200x200) (e := .f32) (blkAdj (wts x1 x2 x3 x4 x5 x6 x7 x8 x9 x10 x11 x12) x0) _ ?_ y (cover0_14 _ _ _ _ _ _ _ _ _ _ _ _ _ _ _ _ y)
  intro p hp x
  simp only [List.mem_cons, List.mem_singleton, List.not_mem_nil, or_false] at hp
  rcases hp with rfl | rfl | rfl | rfl | rfl | rfl | rfl | rfl | rfl | rfl | rfl | rfl | rfl | rfl | rfl | rfl
  all_goals exact piece_adj _ x0 _ (by omega) (by decide) (by decide) x

/-! ## The parameters and the jets off the argument arrays -/

/-- The jets array of core `c`. -/
abbrev jetsArr (c : Dev nD) : S128x200x8.Idx → EReal := (m ((c.tc : Thread nD τ).loc main_arg0) : S128x200x8.Idx → EReal)

/-- The twelve weight arrays of core `c` as a jet's parameters. -/
def prm (c : Dev nD) : Params :=
  paramsOf (m ((c.tc : Thread nD τ).loc main_arg1) : S8x256.Idx → EReal) (m ((c.tc : Thread nD τ).loc main_arg2) : S256.Idx → EReal)
    (m ((c.tc : Thread nD τ).loc main_arg3) : S512x256.Idx → EReal) (m ((c.tc : Thread nD τ).loc main_arg4) : S256.Idx → EReal)
    (m ((c.tc : Thread nD τ).loc main_arg5) : S512x256.Idx → EReal) (m ((c.tc : Thread nD τ).loc main_arg6) : S256.Idx → EReal)
    (m ((c.tc : Thread nD τ).loc main_arg7) : S512x256.Idx → EReal) (m ((c.tc : Thread nD τ).loc main_arg8) : S256.Idx → EReal)
    (m ((c.tc : Thread nD τ).loc main_arg9) : S256x256.Idx → EReal) (m ((c.tc : Thread nD τ).loc main_arg10) : S256.Idx → EReal)
    (m ((c.tc : Thread nD τ).loc main_arg11) : S256x256.Idx → EReal) (m ((c.tc : Thread nD τ).loc main_arg12) : S256.Idx → EReal)

/-- At every grid point the weights the body holds after its loads are the parameters of the argument arrays. -/
theorem wts_params (c : Dev nD) (t : Fin cfg0.N) :
    paramsOfWts (wts (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)) = prm m c := by
  have f1 : mat2 (View.ld (iblk m c 1 t : Vec Ideal S8x256 .f32) r0_0) = mat2 (m ((c.tc : Thread nD τ).loc main_arg1) : S8x256.Idx → EReal) := by
    funext p q
    exact ((congrFun (View.ld_unit_zero (S := S8x256) hz2 _ _) (ix2 p q)).trans (blk1 m c t (ix2 p q)))
  have f2 : brow (shapeCast S1x256 (View.ld (iblk m c 2 t : Vec Ideal S1x256 .f32) r0_1) Facts₀.shapeCasts_S1x256_S1x256) = row1 (m ((c.tc : Thread nD τ).loc main_arg2) : S256.Idx → EReal) := by
    funext d
    exact (congrFun (shapeCast_self (s := S1x256) _ _) (ix2 0 d)).trans ((congrFun (View.ld_unit_zero (S := S1x256) hz2 _ _) (ix2 0 d)).trans (blk2 m c t d))
  have f3 : mat2 (shapeCast S512x256 (View.ld (iblk m c 3 t : Vec Ideal S512x256 .bf16) r0_2) Facts₀.shapeCasts_S512x256_S512x256) = mat2 (m ((c.tc : Thread nD τ).loc main_arg3) : S512x256.Idx → EReal) := by
    funext p q
    exact (congrFun (shapeCast_self (s := S512x256) _ _) (ix2 p q)).trans ((congrFun (View.ld_unit_zero (S := S512x256) hz2 _ _) (ix2 p q)).trans (blk3 m c t (ix2 p q)))
  have f4 : brow (shapeCast S1x256 (View.ld (iblk m c 4 t : Vec Ideal S1x256 .f32) r0_1) Facts₀.shapeCasts_S1x256_S1x256) = row1 (m ((c.tc : Thread nD τ).loc main_arg4) : S256.Idx → EReal) := by
    funext d
    exact (congrFun (shapeCast_self (s := S1x256) _ _) (ix2 0 d)).trans ((congrFun (View.ld_unit_zero (S := S1x256) hz2 _ _) (ix2 0 d)).trans (blk4 m c t d))
  have f5 : mat2 (shapeCast S512x256 (View.ld (iblk m c 5 t : Vec Ideal S512x256 .bf16) r0_2) Facts₀.shapeCasts_S512x256_S512x256) = mat2 (m ((c.tc : Thread nD τ).loc main_arg5) : S512x256.Idx → EReal) := by
    funext p q
    exact (congrFun (shapeCast_self (s := S512x256) _ _) (ix2 p q)).trans ((congrFun (View.ld_unit_zero (S := S512x256) hz2 _ _) (ix2 p q)).trans (blk5 m c t (ix2 p q)))
  have f6 : brow (shapeCast S1x256 (View.ld (iblk m c 6 t : Vec Ideal S1x256 .f32) r0_1) Facts₀.shapeCasts_S1x256_S1x256) = row1 (m ((c.tc : Thread nD τ).loc main_arg6) : S256.Idx → EReal) := by
    funext d
    exact (congrFun (shapeCast_self (s := S1x256) _ _) (ix2 0 d)).trans ((congrFun (View.ld_unit_zero (S := S1x256) hz2 _ _) (ix2 0 d)).trans (blk6 m c t d))
  have f7 : mat2 (shapeCast S512x256 (View.ld (iblk m c 7 t : Vec Ideal S512x256 .bf16) r0_2) Facts₀.shapeCasts_S512x256_S512x256) = mat2 (m ((c.tc : Thread nD τ).loc main_arg7) : S512x256.Idx → EReal) := by
    funext p q
    exact (congrFun (shapeCast_self (s := S512x256) _ _) (ix2 p q)).trans ((congrFun (View.ld_unit_zero (S := S512x256) hz2 _ _) (ix2 p q)).trans (blk7 m c t (ix2 p q)))
  have f8 : brow (shapeCast S1x256 (View.ld (iblk m c 8 t : Vec Ideal S1x256 .f32) r0_1) Facts₀.shapeCasts_S1x256_S1x256) = row1 (m ((c.tc : Thread nD τ).loc main_arg8) : S256.Idx → EReal) := by
    funext d
    exact (congrFun (shapeCast_self (s := S1x256) _ _) (ix2 0 d)).trans ((congrFun (View.ld_unit_zero (S := S1x256) hz2 _ _) (ix2 0 d)).trans (blk8 m c t d))
  have f9 : mat2 (shapeCast S256x256 (View.ld (iblk m c 9 t : Vec Ideal S256x256 .bf16) r0_3) Facts₀.shapeCasts_S256x256_S256x256) = mat2 (m ((c.tc : Thread nD τ).loc main_arg9) : S256x256.Idx → EReal) := by
    funext p q
    exact (congrFun (shapeCast_self (s := S256x256) _ _) (ix2 p q)).trans ((congrFun (View.ld_unit_zero (S := S256x256) hz2 _ _) (ix2 p q)).trans (blk9 m c t (ix2 p q)))
  have f10 : brow (shapeCast S1x256 (View.ld (iblk m c 10 t : Vec Ideal S1x256 .f32) r0_1) Facts₀.shapeCasts_S1x256_S1x256) = row1 (m ((c.tc : Thread nD τ).loc main_arg10) : S256.Idx → EReal) := by
    funext d
    exact (congrFun (shapeCast_self (s := S1x256) _ _) (ix2 0 d)).trans ((congrFun (View.ld_unit_zero (S := S1x256) hz2 _ _) (ix2 0 d)).trans (blk10 m c t d))
  have f11 : mat2 (View.ld (iblk m c 11 t : Vec Ideal S256x256 .f32) r0_3) = mat2 (m ((c.tc : Thread nD τ).loc main_arg11) : S256x256.Idx → EReal) := by
    funext p q
    exact ((congrFun (View.ld_unit_zero (S := S256x256) hz2 _ _) (ix2 p q)).trans (blk11 m c t (ix2 p q)))
  have f12 : brow (shapeCast S1x256 (View.ld (iblk m c 12 t : Vec Ideal S1x256 .f32) r0_1) Facts₀.shapeCasts_S1x256_S1x256) = row1 (m ((c.tc : Thread nD τ).loc main_arg12) : S256.Idx → EReal) := by
    funext d
    exact (congrFun (shapeCast_self (s := S1x256) _ _) (ix2 0 d)).trans ((congrFun (View.ld_unit_zero (S := S1x256) hz2 _ _) (ix2 0 d)).trans (blk12 m c t d))
  exact (Params.mk.injEq _ _ _ _ _ _ _ _ _ _ _ _ _ _ _ _ _ _ _ _ _ _ _ _).mpr ⟨f1, f2, f3, f4, f5, f6, f7, f8, f9, f10, f11, f12⟩

/-- Jet `j` of grid point `t`'s jet block is jet `16 t + j` of the array. -/
theorem jet_slab (c : Dev nD) (t : Fin cfg0.N) (j : Fin 16) (hlt : 16 * t.val + j.val < 128) :
    slab3 (iblk m c 0 t : Vec Ideal S16x200x8 .f32) j = jetAt (jetsArr m c) ⟨16 * t.val + j.val, hlt⟩ := by
  obtain ⟨⟨e0, e1, e2⟩, -⟩ := idx_facts t
  funext n f
  show V m c main_arg0 (((cfg0.win 0).blk t).view.emb (ix3 j n f)) = jetsArr m c (ix3 ⟨16 * t.val + j.val, hlt⟩ n f)
  rw [V_main_arg0]
  congr 1
  funext a; apply Fin.ext
  match a with
  | ⟨0, _⟩ => show win0_0.index t (0 : Fin 3) * 16 + 1 * j.val = 16 * t.val + j.val; omega
  | ⟨1, _⟩ => show win0_0.index t (1 : Fin 3) * 200 + 1 * n.val = n.val; omega
  | ⟨2, _⟩ => show win0_0.index t (2 : Fin 3) * 8 + 1 * f.val = f.val; omega

/-! ## What a grid point writes back, and the arrays after the run -/

/-- The readout array `[128, 1, 256]`: row `b` is the readout of jet `b`. -/
def GOut (c : Dev nD) : S128x1x256.Idx → EReal :=
  fun i => outK (prm m c) (jetAt (jetsArr m c) ⟨(i 0).val, (i 0).isLt⟩) ⟨(i 2).val, (i 2).isLt⟩

/-- The attention array `[128, 200, 200]`: slab `b` is the attention matrix of jet `b`. -/
def GAdj (c : Dev nD) : S128x200x200.Idx → EReal :=
  fun i => adjK (prm m c) (jetAt (jetsArr m c) ⟨(i 0).val, (i 0).isLt⟩) ⟨(i 1).val, (i 1).isLt⟩ ⟨(i 2).val, (i 2).isLt⟩

/-- Grid point `t` writes back block `t` of the readout array. -/
theorem flushed13_eq (c : Dev nD) (t : Fin cfg0.N) :
    (dats m 0 c).flushed 13 t = ((cfg0.win 13).blk t).view.read (Elt Ideal) (GOut m c) := by
  obtain ⟨-, ⟨e0, e1, e2⟩, -⟩ := idx_facts t
  have ht : t.val < 8 := t.isLt
  show (cfg0.win 13).cut (grid0.coords t) ((dats m 0 c).after 13 t) = _
  rw [after0_13, out0_13_blk]
  funext y
  have hy0 : (y 0).val < 16 := (y 0).isLt
  have hy2 : (y 2).val < 256 := (y 2).isLt
  show outK (paramsOfWts _) (slab3 (iblk m c 0 t : Vec Ideal S16x200x8 .f32) ⟨(y 0).val, hy0⟩) ⟨(y 2).val, hy2⟩
    = GOut m c (((cfg0.win 13).blk t).view.emb y)
  rw [wts_params, jet_slab m c t ⟨(y 0).val, hy0⟩ (by show 16 * t.val + (y 0).val < 128; omega)]
  exact congrArg₂ (fun a b => outK (prm m c) (jetAt (jetsArr m c) a) b)
    (Fin.ext (show 16 * t.val + (y 0).val = win0_13.index t (0 : Fin 3) * 16 + 1 * (y 0).val by omega))
    (Fin.ext (show (y 2).val = win0_13.index t (2 : Fin 3) * 256 + 1 * (y 2).val by omega))

/-- Grid point `t` writes back block `t` of the attention array. -/
theorem flushed14_eq (c : Dev nD) (t : Fin cfg0.N) :
    (dats m 0 c).flushed 14 t = ((cfg0.win 14).blk t).view.read (Elt Ideal) (GAdj m c) := by
  obtain ⟨-, -, ⟨e0, e1, e2⟩⟩ := idx_facts t
  have ht : t.val < 8 := t.isLt
  show (cfg0.win 14).cut (grid0.coords t) ((dats m 0 c).after 14 t) = _
  rw [after0_14, out0_14_blk]
  funext y
  have hy0 : (y 0).val < 16 := (y 0).isLt
  have hy1 : (y 1).val < 200 := (y 1).isLt
  have hy2 : (y 2).val < 200 := (y 2).isLt
  show adjK (paramsOfWts _) (slab3 (iblk m c 0 t : Vec Ideal S16x200x8 .f32) ⟨(y 0).val, hy0⟩) ⟨(y 1).val, hy1⟩ ⟨(y 2).val, hy2⟩
    = GAdj m c (((cfg0.win 14).blk t).view.emb y)
  rw [wts_params, jet_slab m c t ⟨(y 0).val, hy0⟩ (by show 16 * t.val + (y 0).val < 128; omega)]
  have a0 : (⟨16 * t.val + (y 0).val, by omega⟩ : Fin 128) = ⟨win0_14.index t (0 : Fin 3) * 16 + 1 * (y 0).val, by omega⟩ := Fin.ext (by show 16 * t.val + (y 0).val = win0_14.index t (0 : Fin 3) * 16 + 1 * (y 0).val; omega)
  have a1 : (⟨(y 1).val, hy1⟩ : Fin 200) = ⟨win0_14.index t (1 : Fin 3) * 200 + 1 * (y 1).val, by omega⟩ := Fin.ext (by show (y 1).val = win0_14.index t (1 : Fin 3) * 200 + 1 * (y 1).val; omega)
  have a2 : (⟨(y 2).val, hy2⟩ : Fin 200) = ⟨win0_14.index t (2 : Fin 3) * 200 + 1 * (y 2).val, by omega⟩ := Fin.ext (by show (y 2).val = win0_14.index t (2 : Fin 3) * 200 + 1 * (y 2).val; omega)
  show adjK (prm m c) (jetAt (jetsArr m c) ⟨16 * t.val + (y 0).val, _⟩) ⟨(y 1).val, hy1⟩ ⟨(y 2).val, hy2⟩
    = adjK (prm m c) (jetAt (jetsArr m c) ⟨win0_14.index t (0 : Fin 3) * 16 + 1 * (y 0).val, _⟩)
        ⟨win0_14.index t (1 : Fin 3) * 200 + 1 * (y 1).val, _⟩ ⟨win0_14.index t (2 : Fin 3) * 200 + 1 * (y 2).val, _⟩
  rw [a0, a1, a2]

/-- An index of the readout array is in point `t`'s block iff each coordinate is in the block's range on its axis. -/
theorem mem_blk13 (t : Fin cfg0.N) (i : S128x1x256.Idx) :
    i ∈ ((cfg0.win 13).blk t).view.set ↔ ∀ a : Fin 3, win0_13.index t a * S16x1x256.size a ≤ (i a).val ∧ (i a).val < win0_13.index t a * S16x1x256.size a + S16x1x256.size a := by
  show i ∈ ((View.whole main_v10_0).slice (win0_13.rect t)).set ↔ _
  rw [View.set_slice_whole, Rect.mem_set_unit]
  exact Iff.rfl

/-- The same for the attention array. -/
theorem mem_blk14 (t : Fin cfg0.N) (i : S128x200x200.Idx) :
    i ∈ ((cfg0.win 14).blk t).view.set ↔ ∀ a : Fin 3, win0_14.index t a * S16x200x200.size a ≤ (i a).val ∧ (i a).val < win0_14.index t a * S16x200x200.size a + S16x200x200.size a := by
  show i ∈ ((View.whole main_v10_1).slice (win0_14.rect t)).set ↔ _
  rw [View.set_slice_whole, Rect.mem_set_unit]
  exact Iff.rfl

/-- Every index of the readout array lies in the block of the point that holds its jet: point `b / 16`. -/
theorem cover13 (i : S128x1x256.Idx) : ∃ t : Fin cfg0.N, (cfg0.win 13).flush t = true ∧ i ∈ ((cfg0.win 13).blk t).view.set := by
  have h0 : (i 0).val < 128 := (i 0).isLt
  have h1 : (i 1).val < 1 := (i 1).isLt
  have h2 : (i 2).val < 256 := (i 2).isLt
  have hq : (i 0).val / 16 < 8 := by omega
  refine ⟨⟨(i 0).val / 16, hq⟩, flush0_13 _, ?_⟩
  obtain ⟨-, ⟨e0, e1, e2⟩, -⟩ := idx_facts ⟨(i 0).val / 16, hq⟩
  have e0' : win0_13.index ⟨(i 0).val / 16, hq⟩ (0 : Fin 3) = (i 0).val / 16 := e0
  rw [mem_blk13]
  intro a
  match a with
  | ⟨0, _⟩ => show win0_13.index ⟨(i 0).val / 16, hq⟩ (0 : Fin 3) * 16 ≤ (i 0).val ∧ (i 0).val < win0_13.index ⟨(i 0).val / 16, hq⟩ (0 : Fin 3) * 16 + 16; omega
  | ⟨1, _⟩ => show win0_13.index ⟨(i 0).val / 16, hq⟩ (1 : Fin 3) * 1 ≤ (i 1).val ∧ (i 1).val < win0_13.index ⟨(i 0).val / 16, hq⟩ (1 : Fin 3) * 1 + 1; omega
  | ⟨2, _⟩ => show win0_13.index ⟨(i 0).val / 16, hq⟩ (2 : Fin 3) * 256 ≤ (i 2).val ∧ (i 2).val < win0_13.index ⟨(i 0).val / 16, hq⟩ (2 : Fin 3) * 256 + 256; omega

/-- Every index of the attention array lies in the block of the point that holds its jet. -/
theorem cover14 (i : S128x200x200.Idx) : ∃ t : Fin cfg0.N, (cfg0.win 14).flush t = true ∧ i ∈ ((cfg0.win 14).blk t).view.set := by
  have h0 : (i 0).val < 128 := (i 0).isLt
  have h1 : (i 1).val < 200 := (i 1).isLt
  have h2 : (i 2).val < 200 := (i 2).isLt
  have hq : (i 0).val / 16 < 8 := by omega
  refine ⟨⟨(i 0).val / 16, hq⟩, flush0_14 _, ?_⟩
  obtain ⟨-, -, ⟨e0, e1, e2⟩⟩ := idx_facts ⟨(i 0).val / 16, hq⟩
  have e0' : win0_14.index ⟨(i 0).val / 16, hq⟩ (0 : Fin 3) = (i 0).val / 16 := e0
  rw [mem_blk14]
  intro a
  match a with
  | ⟨0, _⟩ => show win0_14.index ⟨(i 0).val / 16, hq⟩ (0 : Fin 3) * 16 ≤ (i 0).val ∧ (i 0).val < win0_14.index ⟨(i 0).val / 16, hq⟩ (0 : Fin 3) * 16 + 16; omega
  | ⟨1, _⟩ => show win0_14.index ⟨(i 0).val / 16, hq⟩ (1 : Fin 3) * 200 ≤ (i 1).val ∧ (i 1).val < win0_14.index ⟨(i 0).val / 16, hq⟩ (1 : Fin 3) * 200 + 200; omega
  | ⟨2, _⟩ => show win0_14.index ⟨(i 0).val / 16, hq⟩ (2 : Fin 3) * 200 ≤ (i 2).val ∧ (i 2).val < win0_14.index ⟨(i 0).val / 16, hq⟩ (2 : Fin 3) * 200 + 200; omega

/-- The readout array after the run. -/
theorem final13 (c : Dev nD) : (dats m 0 c).arrAt 13 cfg0.N = GOut m c :=
  (dats m 0 c).arrAt_eq_of_cover 13 (GOut m c) (fun t _ => flushed13_eq m c t) cover13

/-- The attention array after the run. -/
theorem final14 (c : Dev nD) : (dats m 0 c).arrAt 14 cfg0.N = GAdj m c :=
  (dats m 0 c).arrAt_eq_of_cover 14 (GAdj m c) (fun t _ => flushed14_eq m c t) cover14

/-! ## The run -/

/-- The first result `[128, 256]`: row `b` is the readout of jet `b`. -/
def KOut (c : Dev nD) : S128x256.Idx → EReal :=
  fun i => outK (prm m c) (jetAt (jetsArr m c) ⟨(i 0).val, (i 0).isLt⟩) ⟨(i 1).val, (i 1).isLt⟩

/-- The host line after the region drops the readout array's unit axis. -/
theorem tail_eq (c : Dev nD) : Pipeline.afterTail₀ cfgs (dats m) 0 (V0 m) [hostOps1] c main_v11 = KOut m c := by
  unfold Pipeline.afterTail₀
  show StableHlo.after hostOps1 _ (Proc.devRef .tc main_v11) = _
  after_results
  have hW : Pipeline.withArrays spec0 c (V0 m c) (fun w => (dats m 0 c).arrAt w cfg0.N) (Proc.devRef .tc main_v10_0) = GOut m c :=
    (Pipeline.withArrays_arr spec0 launch0.win.arr_inj c _ _ 13).trans (final13 m c)
  funext i
  obtain ⟨b, j, rfl⟩ : ∃ (b : Fin 128) (j : Fin 256), i = ix2 b j := ⟨i 0, i 1, eq_ix2 i⟩
  show shapeCast S128x256 (Pipeline.withArrays spec0 c (V0 m c) (fun w => (dats m 0 c).arrAt w cfg0.N) (Proc.devRef .tc main_v10_0))
    Facts₀.shapeCasts_S128x1x256_S128x256 (ix2 b j) = KOut m c (ix2 b j)
  refine (shapeCast_apply _ _ (ix2 b j) (ix3 b 0 j) ?_).trans ((congrFun hW (ix3 b 0 j)).trans rfl)
  rw [Shape.rowMajor_val_three, Shape.rowMajor_val_two]
  show (b.val * 1 + 0) * 256 + j.val = b.val * 256 + j.val
  omega

/-- Every weakly fair execution of the kernel's program ends with the readouts of the 128 jets in the first result, their
    third-round attention matrices in the second, and the argument arrays unchanged. -/
theorem run : θ_run defs (onTc (τ := τ) (main (F := Ideal))) ⟨m, fun _ => 0, ρ⟩ fun r => ∀ c : Dev nD,
      r.2.mem ((c.tc : Thread nD τ).loc main_v11) = KOut m c
      ∧ r.2.mem ((c.tc : Thread nD τ).loc main_v10_1) = GAdj m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v11 (Pipeline.mem_restRefs_of main_v11 (by decide) (by decide))).trans (tail_eq m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c))⟩)
    (run_main m ρ)

end Cert.KernelIdeal.KValue

end
-- ==== Proof.RefV.lean ====
/-
  The reference's `@main` as a few stage functions over whole arrays, written once.

  The reference embeds all `128 × 200` nodes at once (`embR`), runs three rounds of message passing — the scaled
  Gram matrices (`logitsR`), the shifted exponentials `exp (L − max L)` (`expR`), their row normalisation
  (`attR`), and the update `tanh ([h, A h] W + b)` (`updR`) — and reads out: `fc₂ (tanh (fc₁ h))` at every node,
  summed over the nodes (`readR`). Its two results are `resOut` and `resAdj` (the third round's attention) of its
  thirteen argument arrays. Everything is generic in the float instance.
-/
import proofs.«121721_g85813446574462_cont_9to1c4b_288_20_alg».proof.Proof.Gen.ReferenceIdeal

noncomputable section

namespace Cert.ReferenceIdeal.RefV

open Idealize.ShloMosaic Cert.ReferenceIdeal Cert.ReferenceIdeal.Facts₀

variable {F : FTy → Type} [FloatOps F]

/-- A bias `[256]` laid over `[128, 200, 256]`. -/
def biasR (b : Vec F S256 .f32) : Vec F S128x200x256 .f32 :=
  broadcastInDim S128x200x256 ![0, 1, 2] bcast_S1x1x256_S128x200x256_0_1_2 (broadcastInDim S1x1x256 ![2] bcast_S256_S1x1x256_2 b)

/-- A `[128, 200]` array laid over `[128, 200, 200]`, constant along the last axis. -/
def rowsR (v : Vec F S128x200 .f32) : Vec F S128x200x200 .f32 :=
  broadcastInDim S128x200x200 ![0, 1, 2] bcast_S128x200x1_S128x200x200_0_1_2 (broadcastInDim S128x200x1 ![0, 1] bcast_S128x200_S128x200x1_0_1 v)

/-- The embedding `tanh (x W + b)` of every node. -/
def embR (x : Vec F S128x200x8 .f32) (W : Vec F S8x256 .f32) (b : Vec F S256 .f32) : Vec F S128x200x256 .f32 :=
  Host.tanh (addf (Host.dotGeneral dot_S128x200x8_S8x256_S128x200x256_2_0_01_1_n_n none x W) (biasR b))

/-- The scaled Gram matrices `h hᵀ · (1/16)`. -/
def logitsR (h : Vec F S128x200x256 .f32) : Vec F S128x200x200 .f32 :=
  mulf (Host.dotGeneral dot_S128x200x256_S128x200x256_S128x200x200_2_2_1_1_0_0 none h h)
    (broadcastInDim S128x200x200 ![] bcast_S_S128x200x200 (constant S_ .f32 0x3D800000#32))

/-- `exp (L − max L)`, the maximum over the last axis (the larger of `-inf` and the reduction from `-inf`). -/
def expR (L : Vec F S128x200x200 .f32) : Vec F S128x200x200 .f32 :=
  Host.exp (subf L (rowsR (maximumf (broadcastInDim S128x200 ![] bcast_S_S128x200 (constant S_ .f32 0xFF800000#32))
    (Host.reduce FloatOps.maximumf L (constant S_ .f32 0xFF800000#32) reducesTo_S128x200x200_S128x200_d2 h_S_))))

/-- The row normalisation `E / Σ E`. -/
def attR (E : Vec F S128x200x200 .f32) : Vec F S128x200x200 .f32 :=
  Host.divf E (rowsR (Host.reduceAdd E (constant S_ .f32 0x00000000#32) reducesTo_S128x200x200_S128x200_d2 h_S_))

/-- The attention matrices of hidden states `h`. -/
def adjR (h : Vec F S128x200x256 .f32) : Vec F S128x200x200 .f32 := attR (expR (logitsR h))

/-- The update `tanh ([h, A h] W + b)`. -/
def updR (h : Vec F S128x200x256 .f32) (A : Vec F S128x200x200 .f32) (W : Vec F S512x256 .f32) (b : Vec F S256 .f32) :
    Vec F S128x200x256 .f32 :=
  Host.tanh (addf (Host.dotGeneral dot_S128x200x512_S512x256_S128x200x256_2_0_01_1_n_n none
    (concatenate S128x200x512 2 [⟨S128x200x256, h⟩,
      ⟨S128x200x256, Host.dotGeneral dot_S128x200x200_S128x200x256_S128x200x256_2_1_1_2_0_0 none A h⟩]
      concatenates_S128x200x256_S128x200x256_S128x200x512_d2) W) (biasR b))

/-- One round of message passing. -/
def layerR (W : Vec F S512x256 .f32) (b : Vec F S256 .f32) (h : Vec F S128x200x256 .f32) : Vec F S128x200x256 .f32 :=
  updR h (adjR h) W b

/-- The readout: `fc₂ (tanh (fc₁ h))` at every node, summed over the nodes from `0.0`. -/
def readR (h : Vec F S128x200x256 .f32) (W1 : Vec F S256x256 .f32) (b1 : Vec F S256 .f32) (W2 : Vec F S256x256 .f32)
    (b2 : Vec F S256 .f32) : Vec F S128x256 .f32 :=
  Host.reduceAdd (addf (Host.dotGeneral dot_S128x200x256_S256x256_S128x200x256_2_0_01_1_n_n none
      (Host.tanh (addf (Host.dotGeneral dot_S128x200x256_S256x256_S128x200x256_2_0_01_1_n_n none h W1) (biasR b1))) W2) (biasR b2))
    (constant S_ .f32 0x00000000#32) reducesTo_S128x200x256_S128x256_d1 h_S_

/-- The thirteen argument arrays. -/
structure Args (F : FTy → Type) [FloatOps F] where
  jets : Vec F S128x200x8 .f32
  Wemb : Vec F S8x256 .f32
  bemb : Vec F S256 .f32
  W0 : Vec F S512x256 .f32
  b0 : Vec F S256 .f32
  W1 : Vec F S512x256 .f32
  b1 : Vec F S256 .f32
  W2 : Vec F S512x256 .f32
  b2 : Vec F S256 .f32
  Wr1 : Vec F S256x256 .f32
  br1 : Vec F S256 .f32
  Wr2 : Vec F S256x256 .f32
  br2 : Vec F S256 .f32

/-- The hidden states after the embedding and two rounds. -/
def h2R (a : Args F) : Vec F S128x200x256 .f32 := layerR a.W1 a.b1 (layerR a.W0 a.b0 (embR a.jets a.Wemb a.bemb))

/-- The first result: the readout. -/
def resOut (a : Args F) : Vec F S128x256 .f32 := readR (layerR a.W2 a.b2 (h2R a)) a.Wr1 a.br1 a.Wr2 a.br2

/-- The second result: the third round's attention matrices. -/
def resAdj (a : Args F) : Vec F S128x200x200 .f32 := adjR (h2R a)

end Cert.ReferenceIdeal.RefV

end
-- ==== Proof.RefRun.lean ====
/-
  The reference's run: every weakly fair execution of its `@main` ends with the two results at `resOut` and
  `resAdj` of the argument arrays, and the arguments unchanged.

  `@main` is a straight line of 93 operations. It is read in eight stretches — the embedding, then per round the
  attention matrices and the update, then the readout — each over ARBITRARY contents `W` of the buffers: after
  the stretch its result buffer holds the stage function of `W` at the stretch's inputs, and every reference the
  stretch does not write holds what it held. Composing the eight stretches from the launch contents gives the
  two results as `resOut` and `resAdj` of the arguments.
-/
import proofs.«121721_g85813446574462_cont_9to1c4b_288_20_alg».proof.Proof.RefV
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines of operations run in a row: the second from what the first leaves. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

section Writes
variable {Wl : List (Ref sig .tc)} {a b x y : Ref sig .tc}

/-- Each builder writes its result reference only: inside any list of references that holds it. -/
private theorem nullary_wsub {v : y.ty.Contents (Elt F)} {hy} (h : y ∈ Wl) :
    (nullary (τ := τ) y v hy).writes ⊆ (Wl.map (Proc.devRef (τ := τ) .tc)).toFinset := by
  rw [nullary_writes, Finset.singleton_subset_iff, List.mem_toFinset]; exact List.mem_map_of_mem h
private theorem unary_wsub {f : x.ty.Contents (Elt F) → y.ty.Contents (Elt F)} {hx hy} (h : y ∈ Wl) :
    (unary (τ := τ) x y f hx hy).writes ⊆ (Wl.map (Proc.devRef (τ := τ) .tc)).toFinset := by
  rw [unary_writes, Finset.singleton_subset_iff, List.mem_toFinset]; exact List.mem_map_of_mem h
private theorem binary_wsub {f : a.ty.Contents (Elt F) → b.ty.Contents (Elt F) → y.ty.Contents (Elt F)} {ha hb hy} (h : y ∈ Wl) :
    (binary (τ := τ) a b y f ha hb hy).writes ⊆ (Wl.map (Proc.devRef (τ := τ) .tc)).toFinset := by
  rw [binary_writes, Finset.singleton_subset_iff, List.mem_toFinset]; exact List.mem_map_of_mem h
end Writes

/-- The embedding: operations 1 to 5. -/
abbrev opsA : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)) ]

/-- After the stretch its result is the stage function of the contents before it. -/
theorem valA (W : Valuation τ sig (Elt F)) :
    after opsA W (Proc.devRef .tc main_v4)
      = RefV.embR (W (Proc.devRef .tc main_arg0)) (W (Proc.devRef .tc main_arg1)) (W (Proc.devRef .tc main_arg2)) := by
  after_results_simp; rfl

/-- The references the stretch writes. -/
abbrev wA : List (Ref sig .tc) := [main_v0, main_v1, main_v2, main_v3, main_v4]

/-- A reference the stretch does not write holds what it held. -/
theorem frameA (W : Valuation τ sig (Elt F)) {r : Ref sig .tc} (hr : r ∉ wA) :
    after opsA W (Proc.devRef .tc r) = W (Proc.devRef .tc r) :=
  after_of_writes_sub opsA W ⟨binary_wsub (by decide), unary_wsub (by decide), unary_wsub (by decide), binary_wsub (by decide), unary_wsub (by decide)⟩ hr

theorem subA : (opsA : List (HloOp τ sig (Elt F))).Forall fun op => op.bufs ⊆ tcRefs τ sig :=
  ⟨binary_bufs_sub .., unary_bufs_sub .., unary_bufs_sub .., binary_bufs_sub .., unary_bufs_sub ..⟩
theorem freshA : (opsA : List (HloOp τ sig (Elt F))).Forall fun op => op.fresh = ∅ :=
  ⟨rfl, rfl, rfl, rfl, rfl⟩

/-- Round 1, the attention matrices: operations 6 to 25. -/
abbrev opsB1a : List (HloOp τ sig (Elt F)) :=
  [ nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)) ]

/-- After the stretch its result is the stage function of the contents before it. -/
theorem valB1a (W : Valuation τ sig (Elt F)) :
    after opsB1a W (Proc.devRef .tc main_v19)
      = RefV.adjR (W (Proc.devRef .tc main_v4)) := by
  after_results_simp; rfl

/-- The references the stretch writes. -/
abbrev wB1a : List (Ref sig .tc) := [main_cst, main_v5, main_v6, main_cst_0, main_v7, main_v8, main_cst_1, main_v9, main_cst_2, main_v10, main_v11, main_v12, main_v13, main_v14, main_v15, main_cst_3, main_v16, main_v17, main_v18, main_v19]

/-- A reference the stretch does not write holds what it held. -/
theorem frameB1a (W : Valuation τ sig (Elt F)) {r : Ref sig .tc} (hr : r ∉ wB1a) :
    after opsB1a W (Proc.devRef .tc r) = W (Proc.devRef .tc r) :=
  after_of_writes_sub opsB1a W ⟨nullary_wsub (by decide), unary_wsub (by decide), binary_wsub (by decide), nullary_wsub (by decide), unary_wsub (by decide), binary_wsub (by decide), nullary_wsub (by decide), binary_wsub (by decide), nullary_wsub (by decide), unary_wsub (by decide), binary_wsub (by decide), unary_wsub (by decide), unary_wsub (by decide), binary_wsub (by decide), unary_wsub (by decide), nullary_wsub (by decide), binary_wsub (by decide), unary_wsub (by decide), unary_wsub (by decide), binary_wsub (by decide)⟩ hr

theorem subB1a : (opsB1a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem freshB1a : (opsB1a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Round 1, the update: operations 26 to 32. -/
abbrev opsB1b : List (HloOp τ sig (Elt F)) :=
  [ binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)) ]

/-- After the stretch its result is the stage function of the contents before it. -/
theorem valB1b (W : Valuation τ sig (Elt F)) :
    after opsB1b W (Proc.devRef .tc main_v26)
      = RefV.updR (W (Proc.devRef .tc main_v4)) (W (Proc.devRef .tc main_v19)) (W (Proc.devRef .tc main_arg3)) (W (Proc.devRef .tc main_arg4)) := by
  after_results_simp; rfl

/-- The references the stretch writes. -/
abbrev wB1b : List (Ref sig .tc) := [main_v20, main_v21, main_v22, main_v23, main_v24, main_v25, main_v26]

/-- A reference the stretch does not write holds what it held. -/
theorem frameB1b (W : Valuation τ sig (Elt F)) {r : Ref sig .tc} (hr : r ∉ wB1b) :
    after opsB1b W (Proc.devRef .tc r) = W (Proc.devRef .tc r) :=
  after_of_writes_sub opsB1b W ⟨binary_wsub (by decide), binary_wsub (by decide), binary_wsub (by decide), unary_wsub (by decide), unary_wsub (by decide), binary_wsub (by decide), unary_wsub (by decide)⟩ hr

theorem subB1b : (opsB1b : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub ..⟩
theorem freshB1b : (opsB1b : List (HloOp τ sig (Elt F))).Forall fun op => op.fresh = ∅ :=
  ⟨rfl, rfl, rfl, rfl, rfl, rfl, rfl⟩

/-- Round 2, the attention matrices: operations 33 to 50. -/
abbrev opsB2a : List (HloOp τ sig (Elt F)) :=
  [ binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)) ]

/-- After the stretch its result is the stage function of the contents before it. -/
theorem valB2a (W : Valuation τ sig (Elt F)) :
    after opsB2a W (Proc.devRef .tc main_v40)
      = RefV.adjR (W (Proc.devRef .tc main_v26)) := by
  after_results_simp; rfl

/-- The references the stretch writes. -/
abbrev wB2a : List (Ref sig .tc) := [main_v27, main_cst_4, main_v28, main_v29, main_cst_5, main_v30, main_cst_6, main_v31, main_v32, main_v33, main_v34, main_v35, main_v36, main_cst_7, main_v37, main_v38, main_v39, main_v40]

/-- A reference the stretch does not write holds what it held. -/
theorem frameB2a (W : Valuation τ sig (Elt F)) {r : Ref sig .tc} (hr : r ∉ wB2a) :
    after opsB2a W (Proc.devRef .tc r) = W (Proc.devRef .tc r) :=
  after_of_writes_sub opsB2a W ⟨binary_wsub (by decide), nullary_wsub (by decide), unary_wsub (by decide), binary_wsub (by decide), nullary_wsub (by decide), binary_wsub (by decide), nullary_wsub (by decide), unary_wsub (by decide), binary_wsub (by decide), unary_wsub (by decide), unary_wsub (by decide), binary_wsub (by decide), unary_wsub (by decide), nullary_wsub (by decide), binary_wsub (by decide), unary_wsub (by decide), unary_wsub (by decide), binary_wsub (by decide)⟩ hr

theorem subB2a : (opsB2a : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem freshB2a : (opsB2a : List (HloOp τ sig (Elt F))).Forall fun op => op.fresh = ∅ :=
  ⟨rfl, rfl, rfl, rfl, rfl, rfl, rfl, rfl, rfl, rfl, rfl, rfl, rfl, rfl, rfl, rfl, rfl, rfl⟩

/-- Round 2, the update: operations 51 to 57. -/
abbrev opsB2b : List (HloOp τ sig (Elt F)) :=
  [ binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)) ]

/-- After the stretch its result is the stage function of the contents before it. -/
theorem valB2b (W : Valuation τ sig (Elt F)) :
    after opsB2b W (Proc.devRef .tc main_v47)
      = RefV.updR (W (Proc.devRef .tc main_v26)) (W (Proc.devRef .tc main_v40)) (W (Proc.devRef .tc main_arg5)) (W (Proc.devRef .tc main_arg6)) := by
  after_results_simp; rfl

/-- The references the stretch writes. -/
abbrev wB2b : List (Ref sig .tc) := [main_v41, main_v42, main_v43, main_v44, main_v45, main_v46, main_v47]

/-- A reference the stretch does not write holds what it held. -/
theorem frameB2b (W : Valuation τ sig (Elt F)) {r : Ref sig .tc} (hr : r ∉ wB2b) :
    after opsB2b W (Proc.devRef .tc r) = W (Proc.devRef .tc r) :=
  after_of_writes_sub opsB2b W ⟨binary_wsub (by decide), binary_wsub (by decide), binary_wsub (by decide), unary_wsub (by decide), unary_wsub (by decide), binary_wsub (by decide), unary_wsub (by decide)⟩ hr

theorem subB2b : (opsB2b : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub ..⟩
theorem freshB2b : (opsB2b : List (HloOp τ sig (Elt F))).Forall fun op => op.fresh = ∅ :=
  ⟨rfl, rfl, rfl, rfl, rfl, rfl, rfl⟩

/-- Round 3, the attention matrices, first part (the Gram matrices and the scale): operations 58 to 60. -/
abbrev opsB3a1 : List (HloOp τ sig (Elt F)) :=
  [ binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)) ]

theorem subB3a1 : (opsB3a1 : List (HloOp τ sig (Elt F))).Forall fun op => op.bufs ⊆ tcRefs τ sig :=
  ⟨binary_bufs_sub .., nullary_bufs_sub .., unary_bufs_sub ..⟩
theorem freshB3a1 : (opsB3a1 : List (HloOp τ sig (Elt F))).Forall fun op => op.fresh = ∅ :=
  ⟨rfl, rfl, rfl⟩

/-- Round 3, the attention matrices, second part: operations 61 to 75. -/
abbrev opsB3a2 : List (HloOp τ sig (Elt F)) :=
  [ binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)) ]

theorem subB3a2 : (opsB3a2 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem freshB3a2 : (opsB3a2 : List (HloOp τ sig (Elt F))).Forall fun op => op.fresh = ∅ :=
  ⟨rfl, rfl, rfl, rfl, rfl, rfl, rfl, rfl, rfl, rfl, rfl, rfl, rfl, rfl, rfl⟩

/-- Round 3, the attention matrices: operations 58 to 75. -/
abbrev opsB3a : List (HloOp τ sig (Elt F)) := opsB3a1 ++ opsB3a2

/-- After the stretch its result is the stage function of the contents before it. -/
theorem valB3a (W : Valuation τ sig (Elt F)) :
    after opsB3a W (Proc.devRef .tc main_v61)
      = RefV.adjR (W (Proc.devRef .tc main_v47)) := by
  show after (opsB3a1 ++ opsB3a2) W _ = _
  rw [after_app]
  after_results_simp; rfl

/-- The references the stretch writes. -/
abbrev wB3a : List (Ref sig .tc) := [main_v48, main_cst_8, main_v49, main_v50, main_cst_9, main_v51, main_cst_10, main_v52, main_v53, main_v54, main_v55, main_v56, main_v57, main_cst_11, main_v58, main_v59, main_v60, main_v61]

/-- A reference the stretch does not write holds what it held. -/
theorem frameB3a (W : Valuation τ sig (Elt F)) {r : Ref sig .tc} (hr : r ∉ wB3a) :
    after opsB3a W (Proc.devRef .tc r) = W (Proc.devRef .tc r) :=
  after_of_writes_sub opsB3a W (List.forall_append.mpr ⟨⟨binary_wsub (by decide), nullary_wsub (by decide), unary_wsub (by decide)⟩, ⟨binary_wsub (by decide), nullary_wsub (by decide), binary_wsub (by decide), nullary_wsub (by decide), unary_wsub (by decide), binary_wsub (by decide), unary_wsub (by decide), unary_wsub (by decide), binary_wsub (by decide), unary_wsub (by decide), nullary_wsub (by decide), binary_wsub (by decide), unary_wsub (by decide), unary_wsub (by decide), binary_wsub (by decide)⟩⟩) hr

theorem subB3a : (opsB3a : List (HloOp τ sig (Elt F))).Forall fun op => op.bufs ⊆ tcRefs τ sig :=
  List.forall_append.mpr ⟨subB3a1, subB3a2⟩
theorem freshB3a : (opsB3a : List (HloOp τ sig (Elt F))).Forall fun op => op.fresh = ∅ :=
  List.forall_append.mpr ⟨freshB3a1, freshB3a2⟩

/-- Round 3, the update: operations 76 to 82. -/
abbrev opsB3b : List (HloOp τ sig (Elt F)) :=
  [ binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)) ]

/-- After the stretch its result is the stage function of the contents before it. -/
theorem valB3b (W : Valuation τ sig (Elt F)) :
    after opsB3b W (Proc.devRef .tc main_v68)
      = RefV.updR (W (Proc.devRef .tc main_v47)) (W (Proc.devRef .tc main_v61)) (W (Proc.devRef .tc main_arg7)) (W (Proc.devRef .tc main_arg8)) := by
  after_results_simp; rfl

/-- The references the stretch writes. -/
abbrev wB3b : List (Ref sig .tc) := [main_v62, main_v63, main_v64, main_v65, main_v66, main_v67, main_v68]

/-- A reference the stretch does not write holds what it held. -/
theorem frameB3b (W : Valuation τ sig (Elt F)) {r : Ref sig .tc} (hr : r ∉ wB3b) :
    after opsB3b W (Proc.devRef .tc r) = W (Proc.devRef .tc r) :=
  after_of_writes_sub opsB3b W ⟨binary_wsub (by decide), binary_wsub (by decide), binary_wsub (by decide), unary_wsub (by decide), unary_wsub (by decide), binary_wsub (by decide), unary_wsub (by decide)⟩ hr

theorem subB3b : (opsB3b : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub ..⟩
theorem freshB3b : (opsB3b : List (HloOp τ sig (Elt F))).Forall fun op => op.fresh = ∅ :=
  ⟨rfl, rfl, rfl, rfl, rfl, rfl, rfl⟩

/-- The readout: operations 83 to 93. -/
abbrev opsC : List (HloOp τ sig (Elt F)) :=
  [ binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

/-- After the stretch its result is the stage function of the contents before it. -/
theorem valC (W : Valuation τ sig (Elt F)) :
    after opsC W (Proc.devRef .tc main_v78)
      = RefV.readR (W (Proc.devRef .tc main_v68)) (W (Proc.devRef .tc main_arg9)) (W (Proc.devRef .tc main_arg10)) (W (Proc.devRef .tc main_arg11)) (W (Proc.devRef .tc main_arg12)) := by
  after_results_simp; rfl

/-- The references the stretch writes. -/
abbrev wC : List (Ref sig .tc) := [main_v69, main_v70, main_v71, main_v72, main_v73, main_v74, main_v75, main_v76, main_v77, main_cst_12, main_v78]

/-- A reference the stretch does not write holds what it held. -/
theorem frameC (W : Valuation τ sig (Elt F)) {r : Ref sig .tc} (hr : r ∉ wC) :
    after opsC W (Proc.devRef .tc r) = W (Proc.devRef .tc r) :=
  after_of_writes_sub opsC W ⟨binary_wsub (by decide), unary_wsub (by decide), unary_wsub (by decide), binary_wsub (by decide), unary_wsub (by decide), binary_wsub (by decide), unary_wsub (by decide), unary_wsub (by decide), binary_wsub (by decide), nullary_wsub (by decide), binary_wsub (by decide)⟩ hr

theorem subC : (opsC : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., nullary_bufs_sub .., binary_bufs_sub ..⟩
theorem freshC : (opsC : List (HloOp τ sig (Elt F))).Forall fun op => op.fresh = ∅ :=
  ⟨rfl, rfl, rfl, rfl, rfl, rfl, rfl, rfl, rfl, rfl, rfl⟩

/-- Core `c`'s thirteen argument arrays in the memory `m`. -/
def argsOf (m : (ℓ : Loc nD τ sig) → Buf (Elt F) ℓ) (c : Dev nD) : RefV.Args F where
  jets := m ((c.tc : Thread nD τ).loc main_arg0)
  Wemb := m ((c.tc : Thread nD τ).loc main_arg1)
  bemb := m ((c.tc : Thread nD τ).loc main_arg2)
  W0 := m ((c.tc : Thread nD τ).loc main_arg3)
  b0 := m ((c.tc : Thread nD τ).loc main_arg4)
  W1 := m ((c.tc : Thread nD τ).loc main_arg5)
  b1 := m ((c.tc : Thread nD τ).loc main_arg6)
  W2 := m ((c.tc : Thread nD τ).loc main_arg7)
  b2 := m ((c.tc : Thread nD τ).loc main_arg8)
  Wr1 := m ((c.tc : Thread nD τ).loc main_arg9)
  br1 := m ((c.tc : Thread nD τ).loc main_arg10)
  Wr2 := m ((c.tc : Thread nD τ).loc main_arg11)
  br2 := m ((c.tc : Thread nD τ).loc main_arg12)

/-- @main's 93 operations, in order: the eight stretches in a row. -/
abbrev ops : List (HloOp τ sig (Elt F)) :=
  opsA ++ (opsB1a ++ (opsB1b ++ (opsB2a ++ (opsB2b ++ (opsB3a ++ (opsB3b ++ opsC))))))

set_option maxRecDepth 8192 in
/-- @main's two windows are the lines of their operations. -/
theorem part0_eq (c : Dev nD) :
    main_part0 (F := F) c = seq (opsA ++ (opsB1a ++ (opsB1b ++ (opsB2a ++ (opsB2b ++ opsB3a1))))) := rfl
set_option maxRecDepth 8192 in
theorem part1_eq (c : Dev nD) : main_part1 (F := F) c = seq (opsB3a2 ++ (opsB3b ++ opsC)) := rfl

theorem ops_split : (opsA ++ (opsB1a ++ (opsB1b ++ (opsB2a ++ (opsB2b ++ opsB3a1))))) ++ (opsB3a2 ++ (opsB3b ++ opsC))
    = (ops : List (HloOp τ sig (Elt F))) := by
  simp only [ops, opsB3a, List.append_assoc]

theorem main_eq (c : Dev nD) : main (F := F) c = seq ops := by
  rw [← ops_split, seq_append, ← part0_eq c, ← part1_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.mpr ⟨subA, List.forall_append.mpr ⟨subB1a, List.forall_append.mpr ⟨subB1b, List.forall_append.mpr ⟨subB2a, List.forall_append.mpr ⟨subB2b, List.forall_append.mpr ⟨subB3a, List.forall_append.mpr ⟨subB3b, subC⟩⟩⟩⟩⟩⟩⟩
theorem ops_fresh : ∀ op ∈ (ops : List (HloOp τ sig (Elt F))), op.fresh = ∅ :=
  List.forall_iff_forall_mem.mp (List.forall_append.mpr ⟨freshA, List.forall_append.mpr ⟨freshB1a, List.forall_append.mpr ⟨freshB1b, List.forall_append.mpr ⟨freshB2a, List.forall_append.mpr ⟨freshB2b, List.forall_append.mpr ⟨freshB3a, List.forall_append.mpr ⟨freshB3b, freshC⟩⟩⟩⟩⟩⟩⟩)

/-! ## The buffers after each stretch -/

/-- The hidden states after the embedding, and after one, two and three rounds, of the arguments in `V`. -/
def H0 (V : Valuation τ sig (Elt F)) : Vec F S128x200x256 .f32 := RefV.embR (V (Proc.devRef .tc main_arg0)) (V (Proc.devRef .tc main_arg1)) (V (Proc.devRef .tc main_arg2))
def H1 (V : Valuation τ sig (Elt F)) : Vec F S128x200x256 .f32 := RefV.layerR (V (Proc.devRef .tc main_arg3)) (V (Proc.devRef .tc main_arg4)) (H0 V)
def H2 (V : Valuation τ sig (Elt F)) : Vec F S128x200x256 .f32 := RefV.layerR (V (Proc.devRef .tc main_arg5)) (V (Proc.devRef .tc main_arg6)) (H1 V)
def H3 (V : Valuation τ sig (Elt F)) : Vec F S128x200x256 .f32 := RefV.layerR (V (Proc.devRef .tc main_arg7)) (V (Proc.devRef .tc main_arg8)) (H2 V)

/-- The contents after the first `k` stretches, from `V`. -/
def st1 (V : Valuation τ sig (Elt F)) : Valuation τ sig (Elt F) := after opsA V
def st2 (V : Valuation τ sig (Elt F)) : Valuation τ sig (Elt F) := after opsB1a (st1 V)
def st3 (V : Valuation τ sig (Elt F)) : Valuation τ sig (Elt F) := after opsB1b (st2 V)
def st4 (V : Valuation τ sig (Elt F)) : Valuation τ sig (Elt F) := after opsB2a (st3 V)
def st5 (V : Valuation τ sig (Elt F)) : Valuation τ sig (Elt F) := after opsB2b (st4 V)
def st6 (V : Valuation τ sig (Elt F)) : Valuation τ sig (Elt F) := after opsB3a (st5 V)
def st7 (V : Valuation τ sig (Elt F)) : Valuation τ sig (Elt F) := after opsB3b (st6 V)
def st8 (V : Valuation τ sig (Elt F)) : Valuation τ sig (Elt F) := after opsC (st7 V)

/-- The whole line is the eight stretches one after the other. -/
theorem after_ops (V : Valuation τ sig (Elt F)) : after ops V = st8 V := by
  show after (opsA ++ (opsB1a ++ (opsB1b ++ (opsB2a ++ (opsB2b ++ (opsB3a ++ (opsB3b ++ opsC))))))) V = _
  rw [after_app, after_app, after_app, after_app, after_app, after_app, after_app]
  rfl

/-- The references written up to each stretch. -/
abbrev u1 : List (Ref sig .tc) := wA
abbrev u2 : List (Ref sig .tc) := u1 ++ wB1a
abbrev u3 : List (Ref sig .tc) := u2 ++ wB1b
abbrev u4 : List (Ref sig .tc) := u3 ++ wB2a
abbrev u5 : List (Ref sig .tc) := u4 ++ wB2b
abbrev u6 : List (Ref sig .tc) := u5 ++ wB3a
abbrev u7 : List (Ref sig .tc) := u6 ++ wB3b
abbrev u8 : List (Ref sig .tc) := u7 ++ wC

section Keep
variable (V : Valuation τ sig (Elt F)) {r : Ref sig .tc}

/-- A reference no stretch so far writes holds what it held at the start. -/
theorem keep1 (hr : r ∉ u1) : st1 V (Proc.devRef .tc r) = V (Proc.devRef .tc r) := frameA V hr
theorem keep2 (hr : r ∉ u2) : st2 V (Proc.devRef .tc r) = V (Proc.devRef .tc r) :=
  (frameB1a (st1 V) fun h => hr (List.mem_append_right _ h)).trans (keep1 V fun h => hr (List.mem_append_left _ h))
theorem keep3 (hr : r ∉ u3) : st3 V (Proc.devRef .tc r) = V (Proc.devRef .tc r) :=
  (frameB1b (st2 V) fun h => hr (List.mem_append_right _ h)).trans (keep2 V fun h => hr (List.mem_append_left _ h))
theorem keep4 (hr : r ∉ u4) : st4 V (Proc.devRef .tc r) = V (Proc.devRef .tc r) :=
  (frameB2a (st3 V) fun h => hr (List.mem_append_right _ h)).trans (keep3 V fun h => hr (List.mem_append_left _ h))
theorem keep5 (hr : r ∉ u5) : st5 V (Proc.devRef .tc r) = V (Proc.devRef .tc r) :=
  (frameB2b (st4 V) fun h => hr (List.mem_append_right _ h)).trans (keep4 V fun h => hr (List.mem_append_left _ h))
theorem keep6 (hr : r ∉ u6) : st6 V (Proc.devRef .tc r) = V (Proc.devRef .tc r) :=
  (frameB3a (st5 V) fun h => hr (List.mem_append_right _ h)).trans (keep5 V fun h => hr (List.mem_append_left _ h))
theorem keep7 (hr : r ∉ u7) : st7 V (Proc.devRef .tc r) = V (Proc.devRef .tc r) :=
  (frameB3b (st6 V) fun h => hr (List.mem_append_right _ h)).trans (keep6 V fun h => hr (List.mem_append_left _ h))
theorem keep8 (hr : r ∉ u8) : st8 V (Proc.devRef .tc r) = V (Proc.devRef .tc r) :=
  (frameC (st7 V) fun h => hr (List.mem_append_right _ h)).trans (keep7 V fun h => hr (List.mem_append_left _ h))

end Keep

section Stages
variable (V : Valuation τ sig (Elt F))

theorem st1_v4 : st1 V (Proc.devRef .tc main_v4) = H0 V := valA V
theorem st2_v4 : st2 V (Proc.devRef .tc main_v4) = H0 V := (frameB1a (st1 V) (by decide)).trans (st1_v4 V)
theorem st2_v19 : st2 V (Proc.devRef .tc main_v19) = RefV.adjR (H0 V) :=
  (valB1a (st1 V)).trans (congrArg RefV.adjR (st1_v4 V))
theorem st3_v26 : st3 V (Proc.devRef .tc main_v26) = H1 V := by
  refine (valB1b (st2 V)).trans ?_
  rw [st2_v4, st2_v19, keep2 V (r := main_arg3) (by decide), keep2 V (r := main_arg4) (by decide)]; rfl
theorem st4_v26 : st4 V (Proc.devRef .tc main_v26) = H1 V := (frameB2a (st3 V) (by decide)).trans (st3_v26 V)
theorem st4_v40 : st4 V (Proc.devRef .tc main_v40) = RefV.adjR (H1 V) :=
  (valB2a (st3 V)).trans (congrArg RefV.adjR (st3_v26 V))
theorem st5_v47 : st5 V (Proc.devRef .tc main_v47) = H2 V := by
  refine (valB2b (st4 V)).trans ?_
  rw [st4_v26, st4_v40, keep4 V (r := main_arg5) (by decide), keep4 V (r := main_arg6) (by decide)]; rfl
theorem st6_v47 : st6 V (Proc.devRef .tc main_v47) = H2 V := (frameB3a (st5 V) (by decide)).trans (st5_v47 V)
theorem st6_v61 : st6 V (Proc.devRef .tc main_v61) = RefV.adjR (H2 V) :=
  (valB3a (st5 V)).trans (congrArg RefV.adjR (st5_v47 V))
theorem st7_v68 : st7 V (Proc.devRef .tc main_v68) = H3 V := by
  refine (valB3b (st6 V)).trans ?_
  rw [st6_v47, st6_v61, keep6 V (r := main_arg7) (by decide), keep6 V (r := main_arg8) (by decide)]; rfl
theorem st7_v61 : st7 V (Proc.devRef .tc main_v61) = RefV.adjR (H2 V) := (frameB3b (st6 V) (by decide)).trans (st6_v61 V)
theorem st8_v61 : st8 V (Proc.devRef .tc main_v61) = RefV.adjR (H2 V) := (frameC (st7 V) (by decide)).trans (st7_v61 V)
theorem st8_v78 : st8 V (Proc.devRef .tc main_v78)
    = RefV.readR (H3 V) (V (Proc.devRef .tc main_arg9)) (V (Proc.devRef .tc main_arg10)) (V (Proc.devRef .tc main_arg11)) (V (Proc.devRef .tc main_arg12)) := by
  refine (valC (st7 V)).trans ?_
  rw [st7_v68, keep7 V (r := main_arg9) (by decide), keep7 V (r := main_arg10) (by decide),
    keep7 V (r := main_arg11) (by decide), keep7 V (r := main_arg12) (by decide)]

end Stages

/-! ## The results from the launch contents -/

/-- A reference no operation writes holds what it held at the launch. -/
theorem keep_ops (V : Valuation τ sig (Elt F)) {r : Ref sig .tc} (hr : r ∉ u8) :
    after ops V (Proc.devRef .tc r) = V (Proc.devRef .tc r) := by
  rw [after_ops]; exact keep8 V hr

/-- The first result: the readout of the hidden states after three rounds. -/
theorem out_eq (m : (ℓ : Loc nD τ sig) → Buf (Elt F) ℓ) (c : Dev nD) :
    after ops (launchContents m c) (Proc.devRef .tc main_v78) = RefV.resOut (argsOf m c) := by
  rw [after_ops, st8_v78]; rfl

/-- The second result: the third round's attention matrices. -/
theorem adj_eq (m : (ℓ : Loc nD τ sig) → Buf (Elt F) ℓ) (c : Dev nD) :
    after ops (launchContents m c) (Proc.devRef .tc main_v61) = RefV.resAdj (argsOf m c) := by
  rw [after_ops, st8_v61]; rfl

/-- On every device, from any memory with zero counters, every weakly fair execution of `@main` terminates with
    the results at `resOut` and `resAdj` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = RefV.resOut (argsOf m c)
      ∧ r.2.mem ((c.tc : Thread nD τ).loc main_v61) = RefV.resAdj (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v78).trans (out_eq m c), (h c main_v61).trans (adj_eq m c),
      (h c main_arg0).trans (keep_ops (launchContents m c) (by decide)),
      (h c main_arg1).trans (keep_ops (launchContents m c) (by decide)),
      (h c main_arg2).trans (keep_ops (launchContents m c) (by decide)),
      (h c main_arg3).trans (keep_ops (launchContents m c) (by decide)),
      (h c main_arg4).trans (keep_ops (launchContents m c) (by decide)),
      (h c main_arg5).trans (keep_ops (launchContents m c) (by decide)),
      (h c main_arg6).trans (keep_ops (launchContents m c) (by decide)),
      (h c main_arg7).trans (keep_ops (launchContents m c) (by decide)),
      (h c main_arg8).trans (keep_ops (launchContents m c) (by decide)),
      (h c main_arg9).trans (keep_ops (launchContents m c) (by decide)),
      (h c main_arg10).trans (keep_ops (launchContents m c) (by decide)),
      (h c main_arg11).trans (keep_ops (launchContents m c) (by decide)),
      (h c main_arg12).trans (keep_ops (launchContents m c) (by decide))⟩)
    (run_seq scopedRefs_eq scopedSems_eq defs main (fun _ => ops) main_eq (fun _ => ops_sub) m ρ (fun _ => ops_fresh))

end Cert.ReferenceIdeal.RefRun

end
-- ==== Proof.RefRead1.lean ====
/-
  The reference's embedding and attention read at an index, at the extended reals: at jet `β` each is the plain
  function of Spec.lean of that jet's slab.
-/
import proofs.«121721_g85813446574462_cont_9to1c4b_288_20_alg».proof.Proof.RefV
import proofs.«121721_g85813446574462_cont_9to1c4b_288_20_alg».proof.Proof.Arrays
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.RefRead

open Idealize.ShloMosaic Idealize.ShloMosaic.ValueIdx Cert.ReferenceIdeal Cert.ReferenceIdeal.RefV Cert.Mpnn
open scoped BigOperators

/-! ## Broadcasts read at an index -/

/-- A bias row laid over every node of every jet reads, at `(β, n, d)`, its entry `d`. -/
private theorem biasR_apply (b : Vec Ideal S256 .f32) (β : Fin 128) (n : Fin 200) (d : Fin 256) :
    biasR b (ix3 β n d) = b (ix1 d) := by
  unfold biasR
  refine (broadcastInDim_apply _ _ _ (ix3 β n d) (ix3 (0 : Fin 1) (0 : Fin 1) d)
    (fun a => by match a with | ⟨0, _⟩ => rfl | ⟨1, _⟩ => rfl | ⟨2, _⟩ => rfl)).trans ?_
  exact broadcastInDim_apply _ _ _ (ix3 (0 : Fin 1) (0 : Fin 1) d) (ix1 d)
    (fun a => by match a with | ⟨0, _⟩ => rfl)

/-- A `[128, 200]` array laid along a new last axis reads, at `(β, n, m)`, its entry `(β, n)`. -/
private theorem rowsR_apply (v : Vec Ideal S128x200 .f32) (β : Fin 128) (n m : Fin 200) :
    rowsR v (ix3 β n m) = v (ix2 β n) := by
  unfold rowsR
  refine (broadcastInDim_apply _ _ _ (ix3 β n m) (ix3 β n (0 : Fin 1))
    (fun a => by match a with | ⟨0, _⟩ => rfl | ⟨1, _⟩ => rfl | ⟨2, _⟩ => rfl)).trans ?_
  exact broadcastInDim_apply _ _ _ (ix3 β n (0 : Fin 1)) (ix2 β n)
    (fun a => by match a with | ⟨0, _⟩ => rfl | ⟨1, _⟩ => rfl)

/-! ## The two contractions as sums over their contracted axis -/

section Dots

/-- The embedding's contraction `[128, 200, 8] × [8, 256]`: the left index keeps the jet … -/
private theorem embDot_lhs_0 (i : S128x200x256.Idx) (q : dot_S128x200x8_S8x256_S128x200x256_2_0_01_1_n_n.contr.Idx) :
    (dot_S128x200x8_S8x256_S128x200x256_2_0_01_1_n_n.lhsIdx i q 0).val = (i 0).val := by
  unfold DotDims.lhsIdx
  rw [dif_neg (show ¬(0 : Fin S128x200x8.rank) ∈ dot_S128x200x8_S8x256_S128x200x256_2_0_01_1_n_n.lhsBatch from List.not_mem_nil),
    dif_pos (show (0 : Fin S128x200x8.rank) ∈ dot_S128x200x8_S8x256_S128x200x256_2_0_01_1_n_n.lhsNonContracting from
      List.mem_cons_self)]
  rfl

/-- … and the node … -/
private theorem embDot_lhs_1 (i : S128x200x256.Idx) (q : dot_S128x200x8_S8x256_S128x200x256_2_0_01_1_n_n.contr.Idx) :
    (dot_S128x200x8_S8x256_S128x200x256_2_0_01_1_n_n.lhsIdx i q 1).val = (i 1).val := by
  unfold DotDims.lhsIdx
  rw [dif_neg (show ¬(1 : Fin S128x200x8.rank) ∈ dot_S128x200x8_S8x256_S128x200x256_2_0_01_1_n_n.lhsBatch from List.not_mem_nil),
    dif_pos (show (1 : Fin S128x200x8.rank) ∈ dot_S128x200x8_S8x256_S128x200x256_2_0_01_1_n_n.lhsNonContracting from
      List.mem_cons_of_mem _ (List.mem_singleton.mpr rfl))]
  rfl

/-- … and reads the contracted feature on its last axis; … -/
private theorem embDot_lhs_2 (i : S128x200x256.Idx) (q : dot_S128x200x8_S8x256_S128x200x256_2_0_01_1_n_n.contr.Idx) :
    (dot_S128x200x8_S8x256_S128x200x256_2_0_01_1_n_n.lhsIdx i q 2).val = (q ⟨0, Nat.one_pos⟩).val :=
  dot_S128x200x8_S8x256_S128x200x256_2_0_01_1_n_n.lhsIdx_val_of_single rfl i q

/-- … the right index reads the contracted feature on its first axis … -/
private theorem embDot_rhs_0 (i : S128x200x256.Idx) (q : dot_S128x200x8_S8x256_S128x200x256_2_0_01_1_n_n.contr.Idx) :
    (dot_S128x200x8_S8x256_S128x200x256_2_0_01_1_n_n.rhsIdx i q 0).val = (q ⟨0, Nat.one_pos⟩).val :=
  dot_S128x200x8_S8x256_S128x200x256_2_0_01_1_n_n.rhsIdx_val_of_single rfl i q

/-- … and keeps the hidden feature. -/
private theorem embDot_rhs_1 (i : S128x200x256.Idx) (q : dot_S128x200x8_S8x256_S128x200x256_2_0_01_1_n_n.contr.Idx) :
    (dot_S128x200x8_S8x256_S128x200x256_2_0_01_1_n_n.rhsIdx i q 1).val = (i 2).val := by
  unfold DotDims.rhsIdx
  rw [dif_neg (show ¬(1 : Fin S8x256.rank) ∈ dot_S128x200x8_S8x256_S128x200x256_2_0_01_1_n_n.rhsBatch from List.not_mem_nil),
    dif_pos (show (1 : Fin S8x256.rank) ∈ dot_S128x200x8_S8x256_S128x200x256_2_0_01_1_n_n.rhsNonContracting from
      List.mem_singleton.mpr rfl)]
  rfl

/-- The embedding's contraction at `(β, n, d)`: the sum over the 8 input features. -/
private theorem embDot_sum (l : S128x200x8.Idx → EReal) (r : S8x256.Idx → EReal) (β : Fin 128) (n : Fin 200) (d : Fin 256) :
    ∑ k : dot_S128x200x8_S8x256_S128x200x256_2_0_01_1_n_n.contr.Idx,
        l (dot_S128x200x8_S8x256_S128x200x256_2_0_01_1_n_n.lhsIdx (ix3 β n d) k)
          * r (dot_S128x200x8_S8x256_S128x200x256_2_0_01_1_n_n.rhsIdx (ix3 β n d) k)
      = ∑ f : Fin 8, l (ix3 β n f) * r (ix2 f d) := by
  rw [← Equiv.sum_comp (contrEquiv1 dot_S128x200x8_S8x256_S128x200x256_2_0_01_1_n_n 8 rfl rfl).symm]
  refine Finset.sum_congr rfl fun k _ => ?_
  have hk := contrEquiv1_symm_val dot_S128x200x8_S8x256_S128x200x256_2_0_01_1_n_n 8 rfl rfl k
  have el : dot_S128x200x8_S8x256_S128x200x256_2_0_01_1_n_n.lhsIdx (ix3 β n d)
      ((contrEquiv1 dot_S128x200x8_S8x256_S128x200x256_2_0_01_1_n_n 8 rfl rfl).symm k) = ix3 β n k :=
    funext fun a => Fin.ext (by
      match a with
      | ⟨0, _⟩ => exact embDot_lhs_0 _ _
      | ⟨1, _⟩ => exact embDot_lhs_1 _ _
      | ⟨2, _⟩ => exact (embDot_lhs_2 _ _).trans hk)
  have er : dot_S128x200x8_S8x256_S128x200x256_2_0_01_1_n_n.rhsIdx (ix3 β n d)
      ((contrEquiv1 dot_S128x200x8_S8x256_S128x200x256_2_0_01_1_n_n 8 rfl rfl).symm k) = ix2 k d :=
    funext fun a => Fin.ext (by
      match a with
      | ⟨0, _⟩ => exact (embDot_rhs_0 _ _).trans hk
      | ⟨1, _⟩ => exact embDot_rhs_1 _ _)
  rw [el, er]

/-- The embedding's product at `(β, n, d)`. -/
private theorem embDot_apply (x : FVec Ideal S128x200x8 .f32) (W : FVec Ideal S8x256 .f32) (β : Fin 128) (n : Fin 200) (d : Fin 256) :
    Host.dotGeneral (F := Ideal) dot_S128x200x8_S8x256_S128x200x256_2_0_01_1_n_n none x W (ix3 β n d)
      = ∑ f : Fin 8, x (ix3 β n f) * W (ix2 f d) := by
  simp only [Host.dotGeneral]
  rw [Ideal.dotGeneral_apply]
  exact embDot_sum x W β n d

end Dots

/-- The embedding of jet `β` at node `n`, feature `d`. -/
theorem embR_apply (x : Vec Ideal S128x200x8 .f32) (W : Vec Ideal S8x256 .f32) (b : Vec Ideal S256 .f32)
    (β : Fin 128) (n : Fin 200) (d : Fin 256) :
    embR x W b (ix3 β n d) = emb (jetAt x β) (mat2 W) (row1 b) n d := by
  show Ideal.tanh (Host.dotGeneral (F := Ideal) dot_S128x200x8_S8x256_S128x200x256_2_0_01_1_n_n none x W (ix3 β n d)
      + biasR b (ix3 β n d)) = Ideal.tanh ((∑ f : Fin 8, x (ix3 β n f) * W (ix2 f d)) + b (ix1 d))
  rw [embDot_apply, biasR_apply]

section Gram

/-- The Gram contraction `[128, 200, 256] × [128, 200, 256]` over the feature axis, batched over the jets: the left
    index keeps the jet … -/
private theorem gramDot_lhs_0 (i : S128x200x200.Idx) (q : dot_S128x200x256_S128x200x256_S128x200x200_2_2_1_1_0_0.contr.Idx) :
    (dot_S128x200x256_S128x200x256_S128x200x200_2_2_1_1_0_0.lhsIdx i q 0).val = (i 0).val := by
  unfold DotDims.lhsIdx
  rw [dif_pos (show (0 : Fin S128x200x256.rank) ∈ dot_S128x200x256_S128x200x256_S128x200x200_2_2_1_1_0_0.lhsBatch from List.mem_singleton.mpr rfl)]
  rfl

/-- … and the row node … -/
private theorem gramDot_lhs_1 (i : S128x200x200.Idx) (q : dot_S128x200x256_S128x200x256_S128x200x200_2_2_1_1_0_0.contr.Idx) :
    (dot_S128x200x256_S128x200x256_S128x200x200_2_2_1_1_0_0.lhsIdx i q 1).val = (i 1).val := by
  unfold DotDims.lhsIdx
  rw [dif_neg (show ¬(1 : Fin S128x200x256.rank) ∈ dot_S128x200x256_S128x200x256_S128x200x200_2_2_1_1_0_0.lhsBatch from by decide),
    dif_pos (show (1 : Fin S128x200x256.rank) ∈ dot_S128x200x256_S128x200x256_S128x200x200_2_2_1_1_0_0.lhsNonContracting from List.mem_singleton.mpr rfl)]
  rfl

/-- … and reads the contracted feature on its last axis; … -/
private theorem gramDot_lhs_2 (i : S128x200x200.Idx) (q : dot_S128x200x256_S128x200x256_S128x200x200_2_2_1_1_0_0.contr.Idx) :
    (dot_S128x200x256_S128x200x256_S128x200x200_2_2_1_1_0_0.lhsIdx i q 2).val = (q ⟨0, Nat.one_pos⟩).val :=
  dot_S128x200x256_S128x200x256_S128x200x200_2_2_1_1_0_0.lhsIdx_val_of_single rfl i q

/-- … the right index keeps the jet … -/
private theorem gramDot_rhs_0 (i : S128x200x200.Idx) (q : dot_S128x200x256_S128x200x256_S128x200x200_2_2_1_1_0_0.contr.Idx) :
    (dot_S128x200x256_S128x200x256_S128x200x200_2_2_1_1_0_0.rhsIdx i q 0).val = (i 0).val := by
  unfold DotDims.rhsIdx
  rw [dif_pos (show (0 : Fin S128x200x256.rank) ∈ dot_S128x200x256_S128x200x256_S128x200x200_2_2_1_1_0_0.rhsBatch from List.mem_singleton.mpr rfl)]
  rfl

/-- … takes the column node … -/
private theorem gramDot_rhs_1 (i : S128x200x200.Idx) (q : dot_S128x200x256_S128x200x256_S128x200x200_2_2_1_1_0_0.contr.Idx) :
    (dot_S128x200x256_S128x200x256_S128x200x200_2_2_1_1_0_0.rhsIdx i q 1).val = (i 2).val := by
  unfold DotDims.rhsIdx
  rw [dif_neg (show ¬(1 : Fin S128x200x256.rank) ∈ dot_S128x200x256_S128x200x256_S128x200x200_2_2_1_1_0_0.rhsBatch from by decide),
    dif_pos (show (1 : Fin S128x200x256.rank) ∈ dot_S128x200x256_S128x200x256_S128x200x200_2_2_1_1_0_0.rhsNonContracting from List.mem_singleton.mpr rfl)]
  rfl

/-- … and reads the contracted feature on its last axis. -/
private theorem gramDot_rhs_2 (i : S128x200x200.Idx) (q : dot_S128x200x256_S128x200x256_S128x200x200_2_2_1_1_0_0.contr.Idx) :
    (dot_S128x200x256_S128x200x256_S128x200x200_2_2_1_1_0_0.rhsIdx i q 2).val = (q ⟨0, Nat.one_pos⟩).val :=
  dot_S128x200x256_S128x200x256_S128x200x200_2_2_1_1_0_0.rhsIdx_val_of_single rfl i q

/-- The Gram contraction at `(β, n, m)`: the sum over the 256 hidden features. -/
private theorem gramDot_sum (l r : S128x200x256.Idx → EReal) (β : Fin 128) (n m : Fin 200) :
    ∑ k : dot_S128x200x256_S128x200x256_S128x200x200_2_2_1_1_0_0.contr.Idx, l (dot_S128x200x256_S128x200x256_S128x200x200_2_2_1_1_0_0.lhsIdx (ix3 β n m) k) * r (dot_S128x200x256_S128x200x256_S128x200x200_2_2_1_1_0_0.rhsIdx (ix3 β n m) k)
      = ∑ d : Fin 256, l (ix3 β n d) * r (ix3 β m d) := by
  rw [← Equiv.sum_comp (contrEquiv1 dot_S128x200x256_S128x200x256_S128x200x200_2_2_1_1_0_0 256 rfl rfl).symm]
  refine Finset.sum_congr rfl fun k _ => ?_
  have hk := contrEquiv1_symm_val dot_S128x200x256_S128x200x256_S128x200x200_2_2_1_1_0_0 256 rfl rfl k
  have el : dot_S128x200x256_S128x200x256_S128x200x200_2_2_1_1_0_0.lhsIdx (ix3 β n m) ((contrEquiv1 dot_S128x200x256_S128x200x256_S128x200x200_2_2_1_1_0_0 256 rfl rfl).symm k) = ix3 β n k :=
    funext fun a => Fin.ext (by
      match a with
      | ⟨0, _⟩ => exact gramDot_lhs_0 _ _
      | ⟨1, _⟩ => exact gramDot_lhs_1 _ _
      | ⟨2, _⟩ => exact (gramDot_lhs_2 _ _).trans hk)
  have er : dot_S128x200x256_S128x200x256_S128x200x200_2_2_1_1_0_0.rhsIdx (ix3 β n m) ((contrEquiv1 dot_S128x200x256_S128x200x256_S128x200x200_2_2_1_1_0_0 256 rfl rfl).symm k) = ix3 β m k :=
    funext fun a => Fin.ext (by
      match a with
      | ⟨0, _⟩ => exact gramDot_rhs_0 _ _
      | ⟨1, _⟩ => exact gramDot_rhs_1 _ _
      | ⟨2, _⟩ => exact (gramDot_rhs_2 _ _).trans hk)
  rw [el, er]

/-- The Gram product at `(β, n, m)`. -/
private theorem gramDot_apply (l r : FVec Ideal S128x200x256 .f32) (β : Fin 128) (n m : Fin 200) :
    Host.dotGeneral (F := Ideal) dot_S128x200x256_S128x200x256_S128x200x200_2_2_1_1_0_0 none l r (ix3 β n m) = ∑ d : Fin 256, l (ix3 β n d) * r (ix3 β m d) := by
  simp only [Host.dotGeneral]
  rw [Ideal.dotGeneral_apply]
  exact gramDot_sum l r β n m

end Gram

/-- The scaled Gram matrix of jet `β` at `(n, m)`. -/
private theorem logitsR_apply (h : Vec Ideal S128x200x256 .f32) (β : Fin 128) (n m : Fin 200) :
    logitsR h (ix3 β n m) = logits (slab3 h β) n m := by
  show Host.dotGeneral (F := Ideal) dot_S128x200x256_S128x200x256_S128x200x200_2_2_1_1_0_0 none h h (ix3 β n m)
      * broadcastInDim S128x200x200 ![] Facts₀.bcast_S_S128x200x200 (constant (F := Ideal) S_ .f32 0x3D800000#32) (ix3 β n m)
    = (∑ d : Fin 256, h (ix3 β n d) * h (ix3 β m d)) * cScale
  rw [gramDot_apply, broadcastInDim_scalar_apply]
  rfl

/-! ## The row maximum, the row sum, and the attention -/

/-- The index `(β, n)` with `k` inserted on the last axis is `(β, n, k)`. -/
private theorem lift_row (hR : S128x200x200.Reduces [2] S128x200) (β : Fin 128) (n k : Fin 200) :
    hR.lift (ix2 β n) k = ix3 β n k :=
  funext fun a => Fin.ext (by
    match a with
    | ⟨0, _⟩ => rfl
    | ⟨1, _⟩ => rfl
    | ⟨2, _⟩ => rfl)

/-- The maximum over the last axis from `-inf`, at `(β, n)`: the fold of `max` over row `n` of jet `β`. -/
private theorem rowMaxR_apply (L : FVec Ideal S128x200x200 .f32) (β : Fin 128) (n : Fin 200) :
    Host.reduce (FloatOps.maximumf (F := Ideal) (φ := .f32)) L (constant (F := Ideal) S_ .f32 0xFF800000#32)
        Facts₀.reducesTo_S128x200x200_S128x200_d2 Facts₀.h_S_ (ix2 β n)
      = (Finset.univ : Finset (Fin 200)).fold max cNegInf (fun k => L (ix3 β n k)) := by
  have hR : S128x200x200.Reduces [2] S128x200 := by decide
  refine (Host.reduce_eq_fold_single _ L _ _ hR _ (ix2 β n)).trans ?_
  have e : (L ∘ hR.lift (ix2 β n)) = fun k : Fin 200 => L (ix3 β n k) :=
    funext fun k => congrArg L (lift_row hR β n k)
  rw [e]
  rfl

/-- The shifted exponential at `(β, n, m)`. -/
private theorem expR_apply (L : Vec Ideal S128x200x200 .f32) (β : Fin 128) (n m : Fin 200) :
    expR L (ix3 β n m)
      = Ideal.exp (L (ix3 β n m) - max cNegInf ((Finset.univ : Finset (Fin 200)).fold max cNegInf (fun k => L (ix3 β n k)))) := by
  show Ideal.exp (L (ix3 β n m) - rowsR (F := Ideal) (maximumf
      (broadcastInDim S128x200 ![] Facts₀.bcast_S_S128x200 (constant (F := Ideal) S_ .f32 0xFF800000#32))
      (Host.reduce (FloatOps.maximumf (F := Ideal) (φ := .f32)) L (constant (F := Ideal) S_ .f32 0xFF800000#32)
        Facts₀.reducesTo_S128x200x200_S128x200_d2 Facts₀.h_S_)) (ix3 β n m)) = _
  rw [rowsR_apply, maximumf_apply, broadcastInDim_scalar_apply, rowMaxR_apply]
  rfl

/-- The row normalisation at `(β, n, m)`. -/
private theorem attR_apply (E : Vec Ideal S128x200x200 .f32) (β : Fin 128) (n m : Fin 200) :
    RefV.attR E (ix3 β n m) = Ideal.div (E (ix3 β n m)) (cZero + ∑ k : Fin 200, E (ix3 β n k)) := by
  show Ideal.div (E (ix3 β n m)) (rowsR (F := Ideal) (Host.reduceAdd (F := Ideal) E (constant (F := Ideal) S_ .f32 0x00000000#32)
      Facts₀.reducesTo_S128x200x200_S128x200_d2 Facts₀.h_S_) (ix3 β n m)) = _
  have hR : S128x200x200.Reduces [2] S128x200 := by decide
  rw [rowsR_apply, hostReduceAdd_apply, Ideal.hostReduceAdd_single _ hR]
  refine congrArg (fun s => Ideal.div (E (ix3 β n m)) (cZero + s)) ?_
  exact Finset.sum_congr rfl fun k _ => congrArg E (lift_row hR β n k)

/-- The attention matrix of jet `β` at `(n, m)`. -/
theorem adjR_apply (h : Vec Ideal S128x200x256 .f32) (β : Fin 128) (n m : Fin 200) :
    RefV.adjR h (ix3 β n m) = Mpnn.attR (logits (slab3 h β)) n m := by
  unfold RefV.adjR
  rw [attR_apply]
  simp only [expR_apply, logitsR_apply]
  rfl

end Cert.ReferenceIdeal.RefRead

end
-- ==== Proof.RefRead2.lean ====
/-
  The reference's vertex update and readout read at an index, at the extended reals.
-/
import proofs.«121721_g85813446574462_cont_9to1c4b_288_20_alg».proof.Proof.RefV
import proofs.«121721_g85813446574462_cont_9to1c4b_288_20_alg».proof.Proof.Arrays
import Idealize.ShloMosaic.Lib.Pipeline.Value
import Idealize.ShloMosaic.Lib.ValueIdx
import Idealize.ShloMosaic.PureOps.Ideal.Laws

noncomputable section

namespace Cert.ReferenceIdeal.RefRead2

open Idealize.ShloMosaic Idealize.ShloMosaic.ValueIdx Cert.ReferenceIdeal Cert.ReferenceIdeal.RefV Cert.Mpnn
open scoped BigOperators

/-! ## The product `[128, 200, 512] × [512, 256]`: the last axis of the left operand against the first of the right -/

private theorem d512_lhs_0 (i : S128x200x256.Idx) (q : dot_S128x200x512_S512x256_S128x200x256_2_0_01_1_n_n.contr.Idx) :
    (dot_S128x200x512_S512x256_S128x200x256_2_0_01_1_n_n.lhsIdx i q 0).val = (i 0).val := by
  unfold DotDims.lhsIdx
  rw [dif_neg (show ¬(0 : Fin S128x200x512.rank) ∈ dot_S128x200x512_S512x256_S128x200x256_2_0_01_1_n_n.lhsBatch from List.not_mem_nil),
    dif_pos (show (0 : Fin S128x200x512.rank) ∈ dot_S128x200x512_S512x256_S128x200x256_2_0_01_1_n_n.lhsNonContracting from List.mem_cons_self)]
  rfl

private theorem d512_lhs_1 (i : S128x200x256.Idx) (q : dot_S128x200x512_S512x256_S128x200x256_2_0_01_1_n_n.contr.Idx) :
    (dot_S128x200x512_S512x256_S128x200x256_2_0_01_1_n_n.lhsIdx i q 1).val = (i 1).val := by
  unfold DotDims.lhsIdx
  rw [dif_neg (show ¬(1 : Fin S128x200x512.rank) ∈ dot_S128x200x512_S512x256_S128x200x256_2_0_01_1_n_n.lhsBatch from List.not_mem_nil),
    dif_pos (show (1 : Fin S128x200x512.rank) ∈ dot_S128x200x512_S512x256_S128x200x256_2_0_01_1_n_n.lhsNonContracting from
      List.mem_cons_of_mem _ (List.mem_singleton.mpr rfl))]
  rfl

private theorem d512_lhs_2 (i : S128x200x256.Idx) (q : dot_S128x200x512_S512x256_S128x200x256_2_0_01_1_n_n.contr.Idx) :
    (dot_S128x200x512_S512x256_S128x200x256_2_0_01_1_n_n.lhsIdx i q 2).val = (q ⟨0, Nat.one_pos⟩).val :=
  dot_S128x200x512_S512x256_S128x200x256_2_0_01_1_n_n.lhsIdx_val_of_single rfl i q

private theorem d512_rhs_0 (i : S128x200x256.Idx) (q : dot_S128x200x512_S512x256_S128x200x256_2_0_01_1_n_n.contr.Idx) :
    (dot_S128x200x512_S512x256_S128x200x256_2_0_01_1_n_n.rhsIdx i q 0).val = (q ⟨0, Nat.one_pos⟩).val :=
  dot_S128x200x512_S512x256_S128x200x256_2_0_01_1_n_n.rhsIdx_val_of_single rfl i q

private theorem d512_rhs_1 (i : S128x200x256.Idx) (q : dot_S128x200x512_S512x256_S128x200x256_2_0_01_1_n_n.contr.Idx) :
    (dot_S128x200x512_S512x256_S128x200x256_2_0_01_1_n_n.rhsIdx i q 1).val = (i 2).val := by
  unfold DotDims.rhsIdx
  rw [dif_neg (show ¬(1 : Fin S512x256.rank) ∈ dot_S128x200x512_S512x256_S128x200x256_2_0_01_1_n_n.rhsBatch from List.not_mem_nil),
    dif_pos (show (1 : Fin S512x256.rank) ∈ dot_S128x200x512_S512x256_S128x200x256_2_0_01_1_n_n.rhsNonContracting from List.mem_singleton.mpr rfl)]
  rfl

/-- The product at `(β, n, j)`: the sum over `k : Fin 512` of `l (β, n, k) * r (k, j)`. -/
private theorem d512_apply (l : FVec Ideal S128x200x512 .f32) (r : FVec Ideal S512x256 .f32) (β : Fin 128) (n : Fin 200) (j : Fin 256) :
    Host.dotGeneral (F := Ideal) dot_S128x200x512_S512x256_S128x200x256_2_0_01_1_n_n none l r (ix3 β n j)
      = ∑ k : Fin 512, l (ix3 β n k) * r (ix2 k j) := by
  simp only [Host.dotGeneral]
  rw [Ideal.dotGeneral_apply]
  rw [← Equiv.sum_comp (contrEquiv1 dot_S128x200x512_S512x256_S128x200x256_2_0_01_1_n_n 512 rfl rfl).symm]
  refine Finset.sum_congr rfl fun k _ => ?_
  have hk := contrEquiv1_symm_val dot_S128x200x512_S512x256_S128x200x256_2_0_01_1_n_n 512 rfl rfl k
  have el : dot_S128x200x512_S512x256_S128x200x256_2_0_01_1_n_n.lhsIdx (ix3 β n j)
      ((contrEquiv1 dot_S128x200x512_S512x256_S128x200x256_2_0_01_1_n_n 512 rfl rfl).symm k) = ix3 β n k :=
    funext fun a => Fin.ext (by
      match a with
      | ⟨0, _⟩ => exact d512_lhs_0 _ _
      | ⟨1, _⟩ => exact d512_lhs_1 _ _
      | ⟨2, _⟩ => exact (d512_lhs_2 _ _).trans hk)
  have er : dot_S128x200x512_S512x256_S128x200x256_2_0_01_1_n_n.rhsIdx (ix3 β n j)
      ((contrEquiv1 dot_S128x200x512_S512x256_S128x200x256_2_0_01_1_n_n 512 rfl rfl).symm k) = ix2 k j :=
    funext fun a => Fin.ext (by
      match a with
      | ⟨0, _⟩ => exact (d512_rhs_0 _ _).trans hk
      | ⟨1, _⟩ => exact d512_rhs_1 _ _)
  rw [el, er]

/-! ## The product `[128, 200, 256] × [256, 256]`, likewise -/

private theorem d256_lhs_0 (i : S128x200x256.Idx) (q : dot_S128x200x256_S256x256_S128x200x256_2_0_01_1_n_n.contr.Idx) :
    (dot_S128x200x256_S256x256_S128x200x256_2_0_01_1_n_n.lhsIdx i q 0).val = (i 0).val := by
  unfold DotDims.lhsIdx
  rw [dif_neg (show ¬(0 : Fin S128x200x256.rank) ∈ dot_S128x200x256_S256x256_S128x200x256_2_0_01_1_n_n.lhsBatch from List.not_mem_nil),
    dif_pos (show (0 : Fin S128x200x256.rank) ∈ dot_S128x200x256_S256x256_S128x200x256_2_0_01_1_n_n.lhsNonContracting from List.mem_cons_self)]
  rfl

private theorem d256_lhs_1 (i : S128x200x256.Idx) (q : dot_S128x200x256_S256x256_S128x200x256_2_0_01_1_n_n.contr.Idx) :
    (dot_S128x200x256_S256x256_S128x200x256_2_0_01_1_n_n.lhsIdx i q 1).val = (i 1).val := by
  unfold DotDims.lhsIdx
  rw [dif_neg (show ¬(1 : Fin S128x200x256.rank) ∈ dot_S128x200x256_S256x256_S128x200x256_2_0_01_1_n_n.lhsBatch from List.not_mem_nil),
    dif_pos (show (1 : Fin S128x200x256.rank) ∈ dot_S128x200x256_S256x256_S128x200x256_2_0_01_1_n_n.lhsNonContracting from
      List.mem_cons_of_mem _ (List.mem_singleton.mpr rfl))]
  rfl

private theorem d256_lhs_2 (i : S128x200x256.Idx) (q : dot_S128x200x256_S256x256_S128x200x256_2_0_01_1_n_n.contr.Idx) :
    (dot_S128x200x256_S256x256_S128x200x256_2_0_01_1_n_n.lhsIdx i q 2).val = (q ⟨0, Nat.one_pos⟩).val :=
  dot_S128x200x256_S256x256_S128x200x256_2_0_01_1_n_n.lhsIdx_val_of_single rfl i q

private theorem d256_rhs_0 (i : S128x200x256.Idx) (q : dot_S128x200x256_S256x256_S128x200x256_2_0_01_1_n_n.contr.Idx) :
    (dot_S128x200x256_S256x256_S128x200x256_2_0_01_1_n_n.rhsIdx i q 0).val = (q ⟨0, Nat.one_pos⟩).val :=
  dot_S128x200x256_S256x256_S128x200x256_2_0_01_1_n_n.rhsIdx_val_of_single rfl i q

private theorem d256_rhs_1 (i : S128x200x256.Idx) (q : dot_S128x200x256_S256x256_S128x200x256_2_0_01_1_n_n.contr.Idx) :
    (dot_S128x200x256_S256x256_S128x200x256_2_0_01_1_n_n.rhsIdx i q 1).val = (i 2).val := by
  unfold DotDims.rhsIdx
  rw [dif_neg (show ¬(1 : Fin S256x256.rank) ∈ dot_S128x200x256_S256x256_S128x200x256_2_0_01_1_n_n.rhsBatch from List.not_mem_nil),
    dif_pos (show (1 : Fin S256x256.rank) ∈ dot_S128x200x256_S256x256_S128x200x256_2_0_01_1_n_n.rhsNonContracting from List.mem_singleton.mpr rfl)]
  rfl

/-- The product at `(β, n, j)`: the sum over `k : Fin 256` of `l (β, n, k) * r (k, j)`. -/
private theorem d256_apply (l : FVec Ideal S128x200x256 .f32) (r : FVec Ideal S256x256 .f32) (β : Fin 128) (n : Fin 200) (j : Fin 256) :
    Host.dotGeneral (F := Ideal) dot_S128x200x256_S256x256_S128x200x256_2_0_01_1_n_n none l r (ix3 β n j)
      = ∑ k : Fin 256, l (ix3 β n k) * r (ix2 k j) := by
  simp only [Host.dotGeneral]
  rw [Ideal.dotGeneral_apply]
  rw [← Equiv.sum_comp (contrEquiv1 dot_S128x200x256_S256x256_S128x200x256_2_0_01_1_n_n 256 rfl rfl).symm]
  refine Finset.sum_congr rfl fun k _ => ?_
  have hk := contrEquiv1_symm_val dot_S128x200x256_S256x256_S128x200x256_2_0_01_1_n_n 256 rfl rfl k
  have el : dot_S128x200x256_S256x256_S128x200x256_2_0_01_1_n_n.lhsIdx (ix3 β n j)
      ((contrEquiv1 dot_S128x200x256_S256x256_S128x200x256_2_0_01_1_n_n 256 rfl rfl).symm k) = ix3 β n k :=
    funext fun a => Fin.ext (by
      match a with
      | ⟨0, _⟩ => exact d256_lhs_0 _ _
      | ⟨1, _⟩ => exact d256_lhs_1 _ _
      | ⟨2, _⟩ => exact (d256_lhs_2 _ _).trans hk)
  have er : dot_S128x200x256_S256x256_S128x200x256_2_0_01_1_n_n.rhsIdx (ix3 β n j)
      ((contrEquiv1 dot_S128x200x256_S256x256_S128x200x256_2_0_01_1_n_n 256 rfl rfl).symm k) = ix2 k j :=
    funext fun a => Fin.ext (by
      match a with
      | ⟨0, _⟩ => exact (d256_rhs_0 _ _).trans hk
      | ⟨1, _⟩ => exact d256_rhs_1 _ _)
  rw [el, er]

/-! ## The batched product `[128, 200, 200] × [128, 200, 256]`: for each jet, the last axis of the left operand against the middle axis of the right -/

private theorem dm_lhs_0 (i : S128x200x256.Idx) (q : dot_S128x200x200_S128x200x256_S128x200x256_2_1_1_2_0_0.contr.Idx) :
    (dot_S128x200x200_S128x200x256_S128x200x256_2_1_1_2_0_0.lhsIdx i q 0).val = (i 0).val := by
  unfold DotDims.lhsIdx
  rw [dif_pos (show (0 : Fin S128x200x200.rank) ∈ dot_S128x200x200_S128x200x256_S128x200x256_2_1_1_2_0_0.lhsBatch from List.mem_singleton.mpr rfl)]
  rfl

private theorem dm_lhs_1 (i : S128x200x256.Idx) (q : dot_S128x200x200_S128x200x256_S128x200x256_2_1_1_2_0_0.contr.Idx) :
    (dot_S128x200x200_S128x200x256_S128x200x256_2_1_1_2_0_0.lhsIdx i q 1).val = (i 1).val := by
  unfold DotDims.lhsIdx
  rw [dif_neg (show ¬(1 : Fin S128x200x200.rank) ∈ dot_S128x200x200_S128x200x256_S128x200x256_2_1_1_2_0_0.lhsBatch from by decide),
    dif_pos (show (1 : Fin S128x200x200.rank) ∈ dot_S128x200x200_S128x200x256_S128x200x256_2_1_1_2_0_0.lhsNonContracting from List.mem_singleton.mpr rfl)]
  rfl

private theorem dm_lhs_2 (i : S128x200x256.Idx) (q : dot_S128x200x200_S128x200x256_S128x200x256_2_1_1_2_0_0.contr.Idx) :
    (dot_S128x200x200_S128x200x256_S128x200x256_2_1_1_2_0_0.lhsIdx i q 2).val = (q ⟨0, Nat.one_pos⟩).val :=
  dot_S128x200x200_S128x200x256_S128x200x256_2_1_1_2_0_0.lhsIdx_val_of_single rfl i q

private theorem dm_rhs_0 (i : S128x200x256.Idx) (q : dot_S128x200x200_S128x200x256_S128x200x256_2_1_1_2_0_0.contr.Idx) :
    (dot_S128x200x200_S128x200x256_S128x200x256_2_1_1_2_0_0.rhsIdx i q 0).val = (i 0).val := by
  unfold DotDims.rhsIdx
  rw [dif_pos (show (0 : Fin S128x200x256.rank) ∈ dot_S128x200x200_S128x200x256_S128x200x256_2_1_1_2_0_0.rhsBatch from List.mem_singleton.mpr rfl)]
  rfl

private theorem dm_rhs_1 (i : S128x200x256.Idx) (q : dot_S128x200x200_S128x200x256_S128x200x256_2_1_1_2_0_0.contr.Idx) :
    (dot_S128x200x200_S128x200x256_S128x200x256_2_1_1_2_0_0.rhsIdx i q 1).val = (q ⟨0, Nat.one_pos⟩).val :=
  dot_S128x200x200_S128x200x256_S128x200x256_2_1_1_2_0_0.rhsIdx_val_of_single rfl i q

private theorem dm_rhs_2 (i : S128x200x256.Idx) (q : dot_S128x200x200_S128x200x256_S128x200x256_2_1_1_2_0_0.contr.Idx) :
    (dot_S128x200x200_S128x200x256_S128x200x256_2_1_1_2_0_0.rhsIdx i q 2).val = (i 2).val := by
  unfold DotDims.rhsIdx
  rw [dif_neg (show ¬(2 : Fin S128x200x256.rank) ∈ dot_S128x200x200_S128x200x256_S128x200x256_2_1_1_2_0_0.rhsBatch from by decide),
    dif_pos (show (2 : Fin S128x200x256.rank) ∈ dot_S128x200x200_S128x200x256_S128x200x256_2_1_1_2_0_0.rhsNonContracting from List.mem_singleton.mpr rfl)]
  rfl

/-- The batched product at `(β, n, d)`: the sum over `m : Fin 200` of `l (β, n, m) * r (β, m, d)`. -/
private theorem dm_apply (l : FVec Ideal S128x200x200 .f32) (r : FVec Ideal S128x200x256 .f32) (β : Fin 128) (n : Fin 200) (d : Fin 256) :
    Host.dotGeneral (F := Ideal) dot_S128x200x200_S128x200x256_S128x200x256_2_1_1_2_0_0 none l r (ix3 β n d)
      = ∑ m : Fin 200, l (ix3 β n m) * r (ix3 β m d) := by
  simp only [Host.dotGeneral]
  rw [Ideal.dotGeneral_apply]
  rw [← Equiv.sum_comp (contrEquiv1 dot_S128x200x200_S128x200x256_S128x200x256_2_1_1_2_0_0 200 rfl rfl).symm]
  refine Finset.sum_congr rfl fun k _ => ?_
  have hk := contrEquiv1_symm_val dot_S128x200x200_S128x200x256_S128x200x256_2_1_1_2_0_0 200 rfl rfl k
  have el : dot_S128x200x200_S128x200x256_S128x200x256_2_1_1_2_0_0.lhsIdx (ix3 β n d)
      ((contrEquiv1 dot_S128x200x200_S128x200x256_S128x200x256_2_1_1_2_0_0 200 rfl rfl).symm k) = ix3 β n k :=
    funext fun a => Fin.ext (by
      match a with
      | ⟨0, _⟩ => exact dm_lhs_0 _ _
      | ⟨1, _⟩ => exact dm_lhs_1 _ _
      | ⟨2, _⟩ => exact (dm_lhs_2 _ _).trans hk)
  have er : dot_S128x200x200_S128x200x256_S128x200x256_2_1_1_2_0_0.rhsIdx (ix3 β n d)
      ((contrEquiv1 dot_S128x200x200_S128x200x256_S128x200x256_2_1_1_2_0_0 200 rfl rfl).symm k) = ix3 β k d :=
    funext fun a => Fin.ext (by
      match a with
      | ⟨0, _⟩ => exact dm_rhs_0 _ _
      | ⟨1, _⟩ => exact (dm_rhs_1 _ _).trans hk
      | ⟨2, _⟩ => exact dm_rhs_2 _ _)
  rw [el, er]

/-! ## Concatenation along the last axis, the bias, the node sum -/

/-- Two `[128, 200, 256]` pieces side by side along the last axis: entry `k` comes from the first piece when `k < 256`,
    else from the second at `k - 256`. -/
private theorem cat3_apply {α : Type} (x y : S128x200x256.Idx → α)
    (hc : Shape.Concatenates [S128x200x256, S128x200x256] S128x200x512 2) (β : Fin 128) (n : Fin 200) (k : Fin 512) :
    concatenate S128x200x512 2 [⟨S128x200x256, x⟩, ⟨S128x200x256, y⟩] hc (ix3 β n k)
      = if hk : k.val < 256 then x (ix3 β n ⟨k.val, hk⟩) else y (ix3 β n ⟨k.val - 256, by omega⟩) := by
  split
  · next hk =>
    exact concatenate_pair_apply_left 2 x y hc (ix3 β n k) rfl (ix3 β n ⟨k.val, hk⟩)
      (fun bb => by match bb with | ⟨0, _⟩ => rfl | ⟨1, _⟩ => rfl | ⟨2, _⟩ => rfl)
  · next hk =>
    exact concatenate_pair_apply_right 2 x y hc (ix3 β n k) rfl rfl (ix3 β n ⟨k.val - 256, by omega⟩)
      (fun bb hb => by match bb with | ⟨0, _⟩ => rfl | ⟨1, _⟩ => rfl | ⟨2, _⟩ => exact absurd rfl hb)
      (by show (k.val - 256) + 256 = k.val; omega)

/-- A bias row laid over every node of every jet reads its entry `j`. -/
private theorem biasR_apply (b : Vec Ideal S256 .f32) (β : Fin 128) (n : Fin 200) (j : Fin 256) :
    biasR b (ix3 β n j) = b (ix1 j) := by
  unfold biasR
  refine (broadcastInDim_apply ![0, 1, 2] _ _ (ix3 β n j) (ix3 (0 : Fin 1) (0 : Fin 1) j) ?_).trans ?_
  · intro a
    match a with
    | ⟨0, _⟩ => rfl
    | ⟨1, _⟩ => rfl
    | ⟨2, _⟩ => rfl
  · refine broadcastInDim_apply ![2] _ b (ix3 (0 : Fin 1) (0 : Fin 1) j) (ix1 j) ?_
    intro a
    match a with
    | ⟨0, _⟩ => rfl

/-- The sum over the nodes from `0.0`, at jet `β`, feature `j`. -/
private theorem sumNodes_apply (x : FVec Ideal S128x200x256 .f32) (h' : S128x200x256.ReducesTo [1] S128x256) (hu : 0 < S_.numel)
    (β : Fin 128) (j : Fin 256) :
    Host.reduceAdd (F := Ideal) x (constant (F := Ideal) S_ .f32 0x00000000#32) h' hu (ix2 β j)
      = cZero + ∑ n : Fin 200, x (ix3 β n j) := by
  have hr : S128x200x256.Reduces [1] S128x256 := by decide
  show Ideal.hostReduceAdd h' x _ (ix2 β j) = _
  rw [Ideal.hostReduceAdd_single h' hr]
  refine congrArg₂ (· + ·) rfl (Finset.sum_congr rfl fun n _ => congrArg x (funext fun a => Fin.ext ?_))
  match a with
  | ⟨0, _⟩ => rfl
  | ⟨1, _⟩ => rfl
  | ⟨2, _⟩ => rfl

/-- The update of jet `β` at node `n`, feature `j`. -/
theorem updR_apply (h : Vec Ideal S128x200x256 .f32) (A : Vec Ideal S128x200x200 .f32) (W : Vec Ideal S512x256 .f32)
    (b : Vec Ideal S256 .f32) (β : Fin 128) (n : Fin 200) (j : Fin 256) :
    RefV.updR h A W b (ix3 β n j) = Mpnn.updR (slab3 h β) (msg (slab3 A β) (slab3 h β)) (mat2 W) (row1 b) n j := by
  have hcat : ∀ k : Fin 512,
      concatenate S128x200x512 2 [⟨S128x200x256, h⟩,
        ⟨S128x200x256, Host.dotGeneral (F := Ideal) dot_S128x200x200_S128x200x256_S128x200x256_2_1_1_2_0_0 none A h⟩]
        Facts₀.concatenates_S128x200x256_S128x200x256_S128x200x512_d2 (ix3 β n k)
        = cat (slab3 h β) (msg (slab3 A β) (slab3 h β)) n k := fun k => by
    rw [cat3_apply]
    unfold cat
    split
    · rfl
    · exact dm_apply A h β n _
  unfold RefV.updR
  refine congrArg Ideal.tanh (congrArg₂ (· + ·) ((d512_apply _ W β n j).trans ?_) (biasR_apply b β n j))
  exact Finset.sum_congr rfl fun k _ => congrArg (· * W (ix2 k j)) (hcat k)

/-- The readout of jet `β` at feature `j`. -/
theorem readR_apply (h : Vec Ideal S128x200x256 .f32) (W1 : Vec Ideal S256x256 .f32) (b1 : Vec Ideal S256 .f32)
    (W2 : Vec Ideal S256x256 .f32) (b2 : Vec Ideal S256 .f32) (β : Fin 128) (j : Fin 256) :
    RefV.readR h W1 b1 W2 b2 (ix2 β j) = Mpnn.readR (slab3 h β) (mat2 W1) (row1 b1) (mat2 W2) (row1 b2) j := by
  have hfc : ∀ (n : Fin 200) (d : Fin 256),
      Host.tanh (F := Ideal) (addf (Host.dotGeneral (F := Ideal) dot_S128x200x256_S256x256_S128x200x256_2_0_01_1_n_n none h W1) (biasR b1)) (ix3 β n d)
        = fc1 (slab3 h β) (mat2 W1) (row1 b1) n d := fun n d =>
    congrArg Ideal.tanh (congrArg₂ (· + ·) (d256_apply h W1 β n d) (biasR_apply b1 β n d))
  unfold RefV.readR
  refine (sumNodes_apply _ _ _ β j).trans ?_
  refine congrArg (cZero + ·) (Finset.sum_congr rfl fun n _ => ?_)
  refine congrArg₂ (· + ·) ((d256_apply _ W2 β n j).trans ?_) (biasR_apply b2 β n j)
  exact Finset.sum_congr rfl fun d _ => congrArg (· * W2 (ix2 d j)) (hfc n d)

end Cert.ReferenceIdeal.RefRead2

end
-- ==== Proof.RefRead.lean ====
/-
  The reference's two results read at an index: at jet `β` the readout is `outR` and the attention `adjR` of that
  jet's node features and of the weight arrays.
-/
import proofs.«121721_g85813446574462_cont_9to1c4b_288_20_alg».proof.Proof.RefRead1
import proofs.«121721_g85813446574462_cont_9to1c4b_288_20_alg».proof.Proof.RefRead2

noncomputable section

namespace Cert.ReferenceIdeal.RefRead

open Idealize.ShloMosaic Idealize.ShloMosaic.ValueIdx Cert.ReferenceIdeal Cert.ReferenceIdeal.RefV Cert.ReferenceIdeal.RefRead2 Cert.Mpnn
open scoped BigOperators

/-- The weight arrays as a jet's parameters. -/
def paramsOfArgs (a : Args Ideal) : Params :=
  paramsOf a.Wemb a.bemb a.W0 a.b0 a.W1 a.b1 a.W2 a.b2 a.Wr1 a.br1 a.Wr2 a.br2

/-- One round at jet `β`, as a matrix. -/
theorem layerR_slab (W : Vec Ideal S512x256 .f32) (b : Vec Ideal S256 .f32) (h : Vec Ideal S128x200x256 .f32) (β : Fin 128) :
    slab3 (RefV.layerR W b h) β = Mpnn.layerR (mat2 W) (row1 b) (slab3 h β) := by
  have hA : slab3 (RefV.adjR h) β = Mpnn.attR (logits (slab3 h β)) :=
    funext fun n => funext fun m => adjR_apply h β n m
  funext n j
  show RefV.updR h (RefV.adjR h) W b (ix3 β n j) = _
  rw [updR_apply, hA]
  rfl

/-- The hidden states after the embedding and two rounds, at jet `β`, as a matrix. -/
private theorem h2R_slab (a : Args Ideal) (β : Fin 128) :
    slab3 (RefV.h2R a) β = Mpnn.h2R (paramsOfArgs a) (jetAt a.jets β) := by
  have hE : slab3 (embR a.jets a.Wemb a.bemb) β = emb (jetAt a.jets β) (mat2 a.Wemb) (row1 a.bemb) :=
    funext fun n => funext fun d => embR_apply a.jets a.Wemb a.bemb β n d
  unfold RefV.h2R
  rw [layerR_slab, layerR_slab, hE]
  rfl

/-- The first result at jet `β`, feature `j`. -/
theorem resOut_apply (a : Args Ideal) (β : Fin 128) (j : Fin 256) :
    resOut a (ix2 β j) = outR (paramsOfArgs a) (jetAt a.jets β) j := by
  unfold resOut
  rw [readR_apply, layerR_slab, h2R_slab]
  rfl

/-- The second result at jet `β`, entry `(n, m)`. -/
theorem resAdj_apply (a : Args Ideal) (β : Fin 128) (n m : Fin 200) :
    resAdj a (ix3 β n m) = Mpnn.adjR (paramsOfArgs a) (jetAt a.jets β) n m := by
  unfold resAdj
  rw [adjR_apply, h2R_slab]
  rfl

end Cert.ReferenceIdeal.RefRead

end
-- ==== Proof.SpecLaws.lean ====
/-
  The three laws that join the kernel's spelling of a round and of the readout to the reference's.
-/
import proofs.«121721_g85813446574462_cont_9to1c4b_288_20_alg».proof.Proof.Arrays

noncomputable section

namespace Cert.Mpnn

open Idealize.ShloMosaic
open scoped BigOperators

/-! ### The printed constants as extended reals -/

/-- `1.0` denotes `1`. -/
private theorem cOne_eq : cOne = 1 := by
  unfold cOne; simp [Ideal.ofBits, Ideal.ieee, -EReal.coe_mul]; norm_num

/-- `0.0` denotes `0`. -/
private theorem cZero_eq : cZero = 0 := by
  unfold cZero; simp [Ideal.ofBits, Ideal.ieee]

/-- `-inf` denotes `⊥`. -/
private theorem cNegInf_eq : cNegInf = ⊥ := by
  unfold cNegInf; simp [Ideal.ofBits, Ideal.ieee]

/-- `200.0` denotes the real `200`. -/
private theorem cNodes_eq : cNodes = ((200 : ℝ) : EReal) := by
  unfold cNodes; simp [Ideal.ofBits, Ideal.ieee, -EReal.coe_mul]; norm_num

/-- The scale denotes the real `1/16`. -/
private theorem cScale_eq : cScale = (((1 : ℝ) / 16 : ℝ) : EReal) := by
  unfold cScale; simp [Ideal.ofBits, Ideal.ieee, -EReal.coe_mul]; norm_num

/-- `tanh` of any extended real is a real number (it lies in `[-1, 1]`). -/
theorem tanh_isReal (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-! ### The attention: softmax is shift invariant -/

/-- A finite sum of real numbers, read in the extended reals, is the real sum. -/
private theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The fold of `max` from `⊥` over a nonempty family of reals is a real. -/
private theorem fold_max_real {ι : Type} (s : Finset ι) (f : ι → ℝ) (hs : s.Nonempty) :
    ∃ M : ℝ, s.fold max (⊥ : EReal) (fun i => (f i : EReal)) = (M : EReal) := by
  classical
  induction s using Finset.induction_on with
  | empty => exact absurd hs (by simp)
  | insert a s ha ih =>
    rw [Finset.fold_insert ha]
    rcases s.eq_empty_or_nonempty with rfl | hne
    · exact ⟨f a, by simp⟩
    · obtain ⟨M, hM⟩ := ih hne
      rw [hM]
      rcases le_total (f a) M with hle | hle
      · exact ⟨M, max_eq_right (EReal.coe_le_coe_iff.mpr hle)⟩
      · exact ⟨f a, max_eq_left (EReal.coe_le_coe_iff.mpr hle)⟩

/-- The row maximum of a real matrix is a real. -/
private theorem rowMax_real (l : Fin 200 → Fin 200 → ℝ) (n : Fin 200) :
    ∃ M : ℝ, rowMax (fun n m => (l n m : EReal)) n = (M : EReal) := by
  obtain ⟨M, hM⟩ := fold_max_real (Finset.univ : Finset (Fin 200)) (l n) Finset.univ_nonempty
  refine ⟨M, ?_⟩
  show max cNegInf (Finset.univ.fold max cNegInf (fun m => (l n m : EReal))) = _
  rw [cNegInf_eq, hM, max_eq_right bot_le]

/-- The real identity: `exp a · (1 · (1 / Σ exp aₖ)) = exp (a − M) · (1 / Σ exp (aₖ − M))`. -/
private theorem softmax_shift (a : Fin 200 → ℝ) (M : ℝ) (m : Fin 200) :
    Real.exp (a m) * (1 * (1 / ∑ k, Real.exp (a k)))
      = Real.exp (a m - M) * (1 / ∑ k, Real.exp (a k - M)) := by
  have hS : (∑ k, Real.exp (a k - M)) = (∑ k, Real.exp (a k)) / Real.exp M := by
    rw [Finset.sum_div]; exact Finset.sum_congr rfl fun k _ => Real.exp_sub _ _
  have hpos : 0 < ∑ k, Real.exp (a k) := Finset.sum_pos (fun k _ => Real.exp_pos _) Finset.univ_nonempty
  have hM := Real.exp_pos M
  rw [hS, Real.exp_sub]
  field_simp

/-- Softmax is shift invariant: on real logits the kernel's `exp L · (1 / Σ exp L)` is the reference's
    `exp (L − max) / Σ exp (L − max)`. -/
theorem attK_eq_attR (L : Mat 200 200) (hL : ∀ n m, IsReal (L n m)) : attK L = attR L := by
  choose l hl using hL
  obtain rfl : L = fun n m => (l n m : EReal) := funext fun n => funext fun m => hl n m
  funext n m
  obtain ⟨M, hM⟩ := rowMax_real l n
  have hpos : ∀ c : ℝ, (∑ k : Fin 200, Real.exp (l n k - c)) ≠ 0 := fun c =>
    (Finset.sum_pos (fun k _ => Real.exp_pos _) Finset.univ_nonempty).ne'
  have hpos0 : (∑ k : Fin 200, Real.exp (l n k)) ≠ 0 := by simpa using hpos 0
  have hK : attK (fun n m => (l n m : EReal)) n m
      = ((Real.exp (l n m) * (1 * (1 / ∑ k, Real.exp (l n k))) : ℝ) : EReal) := by
    show Ideal.exp (l n m : EReal) * Ideal.div cOne (∑ k : Fin 200, Ideal.exp (l n k : EReal)) = _
    simp only [Ideal.exp_coe, coe_sum, cOne_eq]
    rw [Ideal.div_coe hpos0, EReal.coe_mul, EReal.coe_mul, EReal.coe_one]
  have hR : attR (fun n m => (l n m : EReal)) n m
      = ((Real.exp (l n m - M) * (1 / ∑ k, Real.exp (l n k - M)) : ℝ) : EReal) := by
    show Ideal.div (Ideal.exp ((l n m : EReal) - rowMax (fun n m => (l n m : EReal)) n))
      (cZero + ∑ k : Fin 200, Ideal.exp ((l n k : EReal) - rowMax (fun n m => (l n m : EReal)) n)) = _
    rw [hM, cZero_eq, zero_add]
    simp only [← EReal.coe_sub, Ideal.exp_coe, coe_sum]
    rw [Ideal.div_coe (hpos M), EReal.coe_mul]
  rw [hK, hR, softmax_shift (l n) M m]

/-! ### The update: a sum over 512 columns splits in two -/

/-- A sum over `Fin 512` is the sum over the first 256 indices plus the sum over the last 256. -/
private theorem sum_split (f : Fin 512 → EReal) :
    ∑ k : Fin 512, f k
      = (∑ k : Fin 256, f ⟨k.val, by omega⟩) + ∑ k : Fin 256, f ⟨256 + k.val, by omega⟩ :=
  Fin.sum_univ_add (a := 256) (b := 256) f

/-- The concatenation reads `h` on the first 256 columns. -/
private theorem cat_left (h g : Mat 200 256) (n : Fin 200) (k : Fin 256) :
    cat h g n ⟨k.val, by omega⟩ = h n k := by
  unfold cat
  rw [dif_pos k.isLt]

/-- The concatenation reads the message on the last 256 columns. -/
private theorem cat_right (h g : Mat 200 256) (n : Fin 200) (k : Fin 256) :
    cat h g n ⟨256 + k.val, by omega⟩ = g n k := by
  unfold cat
  rw [dif_neg (by simp)]
  congr 1
  exact Fin.ext (by simp)

/-- A sum over the 512 concatenated columns is the sum over the first 256 plus the sum over the last 256. -/
theorem updK_eq_updR (h g : Mat 200 256) (W : Mat 512 256) (b : Row 256) : updK h g W b = updR h g W b := by
  funext n j
  unfold updK updR
  rw [sum_split (fun k => cat h g n k * W k j)]
  simp only [cat_left, cat_right]

/-! ### The readout: the node sum commutes with the second layer -/

/-- The real identity: `Σ_d (Σₙ φₙ_d) w_d + 200 β = Σₙ (Σ_d φₙ_d w_d + β)`. -/
private theorem read_real (φ : Fin 200 → Fin 256 → ℝ) (w : Fin 256 → ℝ) (β : ℝ) :
    (∑ d, (∑ n, φ n d) * w d) + 200 * β = ∑ n, ((∑ d, φ n d * w d) + β) := by
  rw [Finset.sum_add_distrib, Finset.sum_const, Finset.card_univ, Fintype.card_fin, nsmul_eq_mul, Finset.sum_comm]
  congr 1
  exact Finset.sum_congr rfl fun d _ => Finset.sum_mul _ _ _

/-- The readout is linear in the node sum: with a real second-layer weight and bias,
    `Σₙ (xₙ W₂ + b₂) = (Σₙ xₙ) W₂ + 200 · b₂`. -/
theorem readK_eq_readR (h : Mat 200 256) (W1 : Mat 256 256) (b1 : Row 256) (W2 : Mat 256 256) (b2 : Row 256)
    (hW2 : ∀ d j, IsReal (W2 d j)) (hb2 : ∀ j, IsReal (b2 j)) : readK h W1 b1 W2 b2 = readR h W1 b1 W2 b2 := by
  have hF : ∀ n d, IsReal (fc1 h W1 b1 n d) := fun n d => tanh_isReal _
  choose φ hφ using hF
  choose w hw using hW2
  choose β hβ using hb2
  funext j
  show (∑ d : Fin 256, (∑ n : Fin 200, fc1 h W1 b1 n d) * W2 d j) + cNodes * b2 j
    = cZero + ∑ n : Fin 200, ((∑ d : Fin 256, fc1 h W1 b1 n d * W2 d j) + b2 j)
  simp only [hφ, hw, hβ, cNodes_eq, cZero_eq, zero_add, coe_sum, ← EReal.coe_mul, ← EReal.coe_add]
  exact congrArg _ (read_real φ (fun d => w d j) (β j))

/-! ### Composition: every hidden state is a `tanh` output, hence real -/

/-- The embedding is real. -/
private theorem emb_real (x : Mat 200 8) (W : Mat 8 256) (b : Row 256) : ∀ n d, IsReal (emb x W b n d) :=
  fun _ _ => tanh_isReal _

/-- A round of the reference ends in `tanh`, so its output is real. -/
private theorem layerR_real (W : Mat 512 256) (b : Row 256) (h : Mat 200 256) : ∀ n d, IsReal (layerR W b h n d) :=
  fun _ _ => tanh_isReal _

/-- The logits of real hidden states are real. -/
private theorem logits_real (h : Mat 200 256) (hh : ∀ n d, IsReal (h n d)) : ∀ n m, IsReal (logits h n m) := by
  choose η hη using hh
  intro n m
  refine ⟨(∑ d, η n d * η m d) * (1 / 16), ?_⟩
  show (∑ d : Fin 256, h n d * h m d) * cScale = _
  simp only [hη, cScale_eq, ← EReal.coe_mul, coe_sum]

/-- On real hidden states a round of the kernel is a round of the reference. -/
private theorem layerK_eq_layerR (W : Mat 512 256) (b : Row 256) (h : Mat 200 256) (hh : ∀ n d, IsReal (h n d)) :
    layerK W b h = layerR W b h := by
  unfold layerK layerR
  rw [attK_eq_attR _ (logits_real h hh), updK_eq_updR]

/-- The hidden states after two rounds agree. -/
private theorem h2K_eq_h2R (p : Params) (x : Mat 200 8) : h2K p x = h2R p x := by
  unfold h2K h2R
  rw [layerK_eq_layerR p.W0 p.b0 _ (emb_real x p.Wemb p.bemb),
    layerK_eq_layerR p.W1 p.b1 _ (layerR_real p.W0 p.b0 _)]

/-- The hidden states after two rounds are real. -/
private theorem h2R_real (p : Params) (x : Mat 200 8) : ∀ n d, IsReal (h2R p x n d) :=
  layerR_real _ _ _

/-- The stored attention matrices agree. -/
theorem adjK_eq_adjR (p : Params) (x : Mat 200 8) : adjK p x = adjR p x := by
  unfold adjK adjR
  rw [h2K_eq_h2R, attK_eq_attR _ (logits_real _ (h2R_real p x))]

/-- The readouts agree when the second readout layer's weight and bias are real. -/
theorem outK_eq_outR (p : Params) (x : Mat 200 8) (hW2 : ∀ d j, IsReal (p.Wr2 d j)) (hb2 : ∀ j, IsReal (p.br2 j)) :
    outK p x = outR p x := by
  unfold outK outR
  rw [h2K_eq_h2R, layerK_eq_layerR p.W2 p.b2 _ (h2R_real p x), readK_eq_readR _ _ _ _ _ hW2 hb2]

end Cert.Mpnn

end
-- ==== Proof.Finite.lean ====
/-
  What the proof uses of the precondition: the second readout layer's weight and bias hold real numbers. The
  precondition is the conjunction, over the thirteen arguments, of "every entry's absolute value is below +inf";
  its last two conjuncts are the ones read here.
-/
import proofs.«121721_g85813446574462_cont_9to1c4b_288_20_alg».proof.Defs
import proofs.«121721_g85813446574462_cont_9to1c4b_288_20_alg».proof.Proof.Gen.KernelIdeal
import proofs.«121721_g85813446574462_cont_9to1c4b_288_20_alg».proof.Proof.Gen.Pre_finite_inputs
import proofs.«121721_g85813446574462_cont_9to1c4b_288_20_alg».proof.Proof.Arrays
import Idealize.ShloMosaic.Lib.ReduceAll

noncomputable section

namespace Cert.Proof.Finite

open Idealize.ShloMosaic Idealize.ShloMosaic.ValueIdx Idealize.SL.Sem Cert.KernelIdeal Cert.Mpnn

/-- An extended real whose absolute value `max x (-x)` lies strictly below `+∞` is a real number. -/
private theorem isReal_of_abs_lt_top (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- The scalar shape has one index. -/
private instance subsingleton_scalar_idx : Subsingleton Cert.Pre_finite_inputs.S_.Idx :=
  ⟨fun a b => funext fun d => d.elim0⟩

/-- The last part of the conjunction: when it is one, its last two conjuncts hold, and each says that every
    entry of its array has absolute value below `+∞`, hence is a real number. -/
private theorem part3_real (a11 : FVec Ideal Cert.Pre_finite_inputs.S256x256 .f32)
    (a12 : FVec Ideal Cert.Pre_finite_inputs.S256 .f32) (v48 : IVec Cert.Pre_finite_inputs.S_ 1)
    (v49 v50 : FVec Ideal Cert.Pre_finite_inputs.S256 .f32)
    (h : Cert.Pre_finite_inputs.fn_part3 (F := Ideal) a11 a12 v48 v49 v50 ix0 = 1#1) :
    (∀ i, IsReal (a11 i)) ∧ (∀ i, IsReal (a12 i)) := by
  unfold Cert.Pre_finite_inputs.fn_part3 at h
  obtain ⟨h58, h62⟩ := IntOp.andi_eq_one.1 h
  obtain ⟨-, h57⟩ := IntOp.andi_eq_one.1 h58
  refine ⟨fun i => ?_, fun i => ?_⟩
  · exact isReal_of_abs_lt_top _ (Host.reduce_andi_all _ _ _ _ _ h57 i)
  · exact isReal_of_abs_lt_top _ (Host.reduce_andi_all _ _ _ _ _ h62 i)

/-- Under the precondition every entry of the second readout weight `[256, 256]` is a real number. -/
theorem wr2_real (m : (ℓ : Loc nD τ sig) → Buf (Elt Ideal) ℓ)
    (hpre : Cert.Pre_KernelIdeal (hPre_finite_inputs := Cert.Pre_finite_inputs.Gen.facts) m) (c : Dev nD) (d j : Fin 256) :
    IsReal ((m ((c.tc : Thread nD τ).loc main_arg11) : S256x256.Idx → EReal) (ix2 d j)) := by
  have h := congrFun (hpre c) ValueIdx.ix0
  unfold Cert.Pre_finite_inputs.fn Cert.Pre_finite_inputs.fn_part1 Cert.Pre_finite_inputs.fn_part2 at h
  exact (part3_real _ _ _ _ _ h).1 (ix2 d j)

/-- Under the precondition every entry of the second readout bias `[256]` is a real number. -/
theorem br2_real (m : (ℓ : Loc nD τ sig) → Buf (Elt Ideal) ℓ)
    (hpre : Cert.Pre_KernelIdeal (hPre_finite_inputs := Cert.Pre_finite_inputs.Gen.facts) m) (c : Dev nD) (j : Fin 256) :
    IsReal ((m ((c.tc : Thread nD τ).loc main_arg12) : S256.Idx → EReal) (ix1 j)) := by
  have h := congrFun (hpre c) ValueIdx.ix0
  unfold Cert.Pre_finite_inputs.fn Cert.Pre_finite_inputs.fn_part1 Cert.Pre_finite_inputs.fn_part2 at h
  exact (part3_real _ _ _ _ _ h).2 (ix1 j)

end Cert.Proof.Finite

end
-- ==== Proof.lean ====
/-
  The certificate of the message-passing kernel against its reference, over the extended reals.

  Both programs compute, for each of 128 jets with 200 nodes, three rounds of soft-adjacency message passing between an
  embedding and a readout, and return the readouts `[128, 256]` and the third round's attention matrices
  `[128, 200, 200]`. The kernel handles sixteen jets per grid point, one after the other, and stores each jet's two
  results into its slab of the output blocks; read back, the blocks tile the arrays, so the kernel's results are, jet by
  jet, `outK` and `adjK` of the jet's node features and of the weight arrays. The reference's results are `outR` and
  `adjR` of the same data. The two spellings differ in three places, each an identity over the reals: the softmax is
  shift invariant (the logits are real, being sums of products of `tanh` outputs); a sum over the 512 concatenated
  columns splits into two sums over 256; and the readout is linear in the node sum, which needs the second readout
  layer's weight and bias to be real numbers — that is what the precondition is used for. A change of float format is the
  identity at the extended reals, so the kernel's half-precision operands change nothing here.
  The three frames: the two kernel programs' are the generated frame theorems; the reference's is its run with the
  results dropped. The idealization ledger is empty, so `preserves` holds trivially.
-/
import proofs.«121721_g85813446574462_cont_9to1c4b_288_20_alg».proof.Defs
import proofs.«121721_g85813446574462_cont_9to1c4b_288_20_alg».proof.Proof.Gen.Kernel.Frame
import proofs.«121721_g85813446574462_cont_9to1c4b_288_20_alg».proof.Proof.Gen.Pre_finite_inputs
import proofs.«121721_g85813446574462_cont_9to1c4b_288_20_alg».proof.Proof.KernelValue
import proofs.«121721_g85813446574462_cont_9to1c4b_288_20_alg».proof.Proof.RefRun
import proofs.«121721_g85813446574462_cont_9to1c4b_288_20_alg».proof.Proof.RefRead
import proofs.«121721_g85813446574462_cont_9to1c4b_288_20_alg».proof.Proof.SpecLaws
import proofs.«121721_g85813446574462_cont_9to1c4b_288_20_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem Cert.Mpnn

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefRun.run (F := Ideal) m ρ)

/-- From memories agreeing on the arguments, the reference's parameters are the kernel's. -/
theorem params_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RefRead.paramsOfArgs (Cert.ReferenceIdeal.RefRun.argsOf m' c) = Cert.KernelIdeal.KValue.prm m c
    ∧ (Cert.ReferenceIdeal.RefRun.argsOf m' c).jets = Cert.KernelIdeal.KValue.jetsArr m c := by
  obtain ⟨h0, h1, h2, h3, h4, h5, h6, h7, h8, h9, h10, h11, h12⟩ := hagree
  refine ⟨?_, h0⟩
  unfold Cert.ReferenceIdeal.RefRead.paramsOfArgs Cert.ReferenceIdeal.RefRun.argsOf Cert.KernelIdeal.KValue.prm
  simp only [h1, h2, h3, h4, h5, h6, h7, h8, h9, h10, h11, h12]

/-- The two idealized programs, from memories agreeing on the arguments, end with equal results: jet by jet the kernel's
    readout and attention are the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨Cert.KernelIdeal.KValue.KOut m, Cert.KernelIdeal.KValue.GAdj m, Cert.KernelIdeal.KValue.run m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · obtain ⟨hp, hj⟩ := params_agree m m' c (hagree c)
    funext i
    obtain ⟨b, j, rfl⟩ : ∃ (b : Fin 128) (j : Fin 256), i = ix2 b j := ⟨i 0, i 1, eq_ix2 i⟩
    rw [Cert.ReferenceIdeal.RefRead.resOut_apply, hp, hj]
    exact (congrFun (outK_eq_outR (Cert.KernelIdeal.KValue.prm m c) (jetAt (Cert.KernelIdeal.KValue.jetsArr m c) b)
      (fun d q => Cert.Proof.Finite.wr2_real m hpre c d q) (fun q => Cert.Proof.Finite.br2_real m hpre c q)) j).symm
  · obtain ⟨hp, hj⟩ := params_agree m m' c (hagree c)
    funext i
    obtain ⟨b, n, k, rfl⟩ : ∃ (b : Fin 128) (n k : Fin 200), i = ix3 b n k := ⟨i 0, i 1, i 2, eq_ix3 i⟩
    rw [Cert.ReferenceIdeal.RefRead.resAdj_apply, hp, hj]
    exact (congrFun (congrFun (adjK_eq_adjR (Cert.KernelIdeal.KValue.prm m c) (jetAt (Cert.KernelIdeal.KValue.jetsArr m c) b)) n) k).symm

/-- The claim: the three frames, the (empty) idealization ledger, and the equivalence over the extended reals. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
